-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S800000x4 : Shape := ⟨2, ![800000, 4]⟩
abbrev S3x9x128 : Shape := ⟨3, ![3, 9, 128]⟩
abbrev S3x4x128 : Shape := ⟨3, ![3, 4, 128]⟩
abbrev S128 : Shape := ⟨1, ![128]⟩
abbrev S3x128x128 : Shape := ⟨3, ![3, 128, 128]⟩
abbrev S128x4 : Shape := ⟨2, ![128, 4]⟩
abbrev S4 : Shape := ⟨1, ![4]⟩
abbrev S2x800000 : Shape := ⟨2, ![2, 800000]⟩
abbrev S50000 : Shape := ⟨1, ![50000]⟩
abbrev S_ : Shape := ⟨0, ![]⟩

class Facts : Prop where
  bcast_S_S50000x9 : S_.BroadcastsInDim S50000x9 (![] : Fin 0 → Fin S50000x9.rank)
  reducesTo_S50000x9_S_d0_1 : S50000x9.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S3x9x128 : S_.BroadcastsInDim S3x9x128 (![] : Fin 0 → Fin S3x9x128.rank)
  reducesTo_S3x9x128_S_d0_1_2 : S3x9x128.ReducesTo [0, 1, 2] S_
  bcast_S_S3x4x128 : S_.BroadcastsInDim S3x4x128 (![] : Fin 0 → Fin S3x4x128.rank)
  reducesTo_S3x4x128_S_d0_1_2 : S3x4x128.ReducesTo [0, 1, 2] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S128 .f32) (main_arg8 : FVec F S128x4 .f32) (main_arg9 : FVec F S4 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x4 .f32 := Host.absf main_arg8
  let main_cst_14 : FVec F S_ .f32 := constant S_ .f32 0x7F800000#32
  let main_v40 : FVec F S128x4 .f32 := broadcastInDim S128x4 ![] bcast_S_S128x4 main_cst_14
  let main_v41 : IVec S128x4 1 := cmpf .olt main_v39 main_v40
  let main_c_15 : IVec S_ 1 := constantI S_ 1 1#1
  let main_v42 : IVec S_ 1 := (fun x v => Host.reduce IntOp.andi x v reducesTo_S128x4_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  main_v48

def fn_part1 {F : FTy → Type} [FloatOps F] (main_arg4 : FVec F S128 .f32) (main_arg5 : FVec F S3x128x128 .f32) (main_arg6 : FVec F S3x4x128 .f32) (main_arg7 : FVec F S128 .f32) (main_arg8 : FVec F S128x4 .f32) (main_arg9 : FVec F S4 .f32) (main_v13 : IVec S_ 1) (main_v16 : IVec S3x4x128 1) : IVec S_ 1 :=
  let main_c_5 : IVec S_ 1 := constantI S_ 1 1#1
  let main_v17 : IVec S_ 1 := (fun x v => Host.reduce IntOp.andi x v reducesTo_S3x4x128_S_d0_1_2 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg5
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x4x128 .f32 := Host.absf main_arg6
  let main_cst_10 : FVec F S_ .f32 := constant S_ .f32 0x7F800000#32
  let main_v30 : FVec F S3x4x128 .f32 := broadcastInDim S3x4x128 ![] bcast_S_S3x4x128 main_cst_10
  let main_v31 : IVec S3x4x128 1 := cmpf .olt main_v29 main_v30
  let main_c_11 : IVec S_ 1 := constantI S_ 1 1#1
  let main_v32 : IVec S_ 1 := (fun x v => Host.reduce IntOp.andi x v reducesTo_S3x4x128_S_d0_1_2 h_S_) main_v31 main_c_11
  let main_v33 : IVec S_ 1 := andi main_v28 main_v32
  fn_part2 (F := F) main_arg7 main_arg8 main_arg9 main_v33

def fn {F : FTy → Type} [FloatOps F] (main_arg0 : FVec F S50000x9 .f32) (main_arg1 : FVec F S800000x4 .f32) (main_arg2 : FVec F S3x9x128 .f32) (main_arg3 : FVec F S3x4x128 .f32) (main_arg4 : FVec F S128 .f32) (main_arg5 : FVec F S3x128x128 .f32) (main_arg6 : FVec F S3x4x128 .f32) (main_arg7 : FVec F S128 .f32) (main_arg8 : FVec F S128x4 .f32) (main_arg9 : FVec F S4 .f32) (main_arg10 : IVec S2x800000 32) (main_arg11 : IVec S50000 32) : IVec S_ 1 :=
  let main_v0 : FVec F S50000x9 .f32 := Host.absf main_arg0
  let main_cst : FVec F S_ .f32 := constant S_ .f32 0x7F800000#32
  let main_v1 : FVec F S50000x9 .f32 := broadcastInDim S50000x9 ![] bcast_S_S50000x9 main_cst
  let main_v2 : IVec S50000x9 1 := cmpf .olt main_v0 main_v1
  let main_c : IVec S_ 1 := constantI S_ 1 1#1
  let main_v3 : IVec S_ 1 := (fun x v => Host.reduce IntOp.andi x v reducesTo_S50000x9_S_d0_1 h_S_) main_v2 main_c
  let main_v4 : FVec F S800000x4 .f32 := Host.absf main_arg1
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S3x9x128 .f32 := Host.absf main_arg2
  let main_cst_2 : FVec F S_ .f32 := constant S_ .f32 0x7F800000#32
  let main_v10 : FVec F S3x9x128 .f32 := broadcastInDim S3x9x128 ![] bcast_S_S3x9x128 main_cst_2
  let main_v11 : IVec S3x9x128 1 := cmpf .olt main_v9 main_v10
  let main_c_3 : IVec S_ 1 := constantI S_ 1 1#1
  let main_v12 : IVec S_ 1 := (fun x v => Host.reduce IntOp.andi x v reducesTo_S3x9x128_S_d0_1_2 h_S_) main_v11 main_c_3
  let main_v13 : IVec S_ 1 := andi main_v8 main_v12
  let main_v14 : FVec F S3x4x128 .f32 := Host.absf main_arg3
  let main_cst_4 : FVec F S_ .f32 := constant S_ .f32 0x7F800000#32
  let main_v15 : FVec F S3x4x128 .f32 := broadcastInDim S3x4x128 ![] bcast_S_S3x4x128 main_cst_4
  let main_v16 : IVec S3x4x128 1 := cmpf .olt main_v14 main_v15
  fn_part1 (F := F) main_arg4 main_arg5 main_arg6 main_arg7 main_arg8 main_arg9 main_v13 main_v16
-- ==== Kernel.lean ====
abbrev S50000x9 : Shape := ⟨2, ![50000, 9]⟩
abbrev S800000x4 : Shape := ⟨2, ![800000, 4]⟩
abbrev S3x9x128 : Shape := ⟨3, ![3, 9, 128]⟩
abbrev S3x4x128 : Shape := ⟨3, ![3, 4, 128]⟩
abbrev S128 : Shape := ⟨1, ![128]⟩
abbrev S3x128x128 : Shape := ⟨3, ![3, 128, 128]⟩
abbrev S128x4 : Shape := ⟨2, ![128, 4]⟩
abbrev S4 : Shape := ⟨1, ![4]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x9x128 : Shape := ⟨3, ![1, 9, 128]⟩
abbrev S9x128 : Shape := ⟨2, ![9, 128]⟩
abbrev S800000x9 : Shape := ⟨2, ![800000, 9]⟩
abbrev S50000x18 : Shape := ⟨2, ![50000, 18]⟩
abbrev S18x128 : Shape := ⟨2, ![18, 128]⟩
abbrev S4x128 : Shape := ⟨2, ![4, 128]⟩
abbrev S800000x128 : Shape := ⟨2, ![800000, 128]⟩
abbrev S16000x4 : Shape := ⟨2, ![16000, 4]⟩
abbrev S16000x128 : Shape := ⟨2, ![16000, 128]⟩
abbrev S50000x128 : Shape := ⟨2, ![50000, 128]⟩
abbrev S1x128 : Shape := ⟨2, ![1, 128]⟩
abbrev S2000x18 : Shape := ⟨2, ![2000, 18]⟩
abbrev S2000x128 : Shape := ⟨2, ![2000, 128]⟩
abbrev S1x128x128 : Shape := ⟨3, ![1, 128, 128]⟩
abbrev S128x128 : Shape := ⟨2, ![128, 128]⟩
abbrev S50000x256 : Shape := ⟨2, ![50000, 256]⟩
abbrev S256x128 : Shape := ⟨2, ![256, 128]⟩
abbrev S2000x256 : Shape := ⟨2, ![2000, 256]⟩
abbrev S50000x1 : Shape := ⟨2, ![50000, 1]⟩
abbrev S64 : Shape := ⟨1, ![64]⟩
abbrev S1x64 : Shape := ⟨2, ![1, 64]⟩
abbrev S50000x64 : Shape := ⟨2, ![50000, 64]⟩
abbrev S64x128 : Shape := ⟨2, ![64, 128]⟩
abbrev S2000x64 : Shape := ⟨2, ![2000, 64]⟩
abbrev S64x2000 : Shape := ⟨2, ![64, 2000]⟩
abbrev S64x1 : Shape := ⟨2, ![64, 1]⟩
abbrev S64x4 : Shape := ⟨2, ![64, 4]⟩
abbrev S1x4 : Shape := ⟨2, ![1, 4]⟩

abbrev nBuf : Space → Nat
  | .hbm => 162
  | .vmem => 32
  | .smem => 0
  | _ => 0

abbrev hbmTy0_0 (i : Nat) : BufTy := match i % 128 with
  | 0 => ⟨S50000x9, .f32⟩
  | 1 => ⟨S800000x4, .f32⟩
  | 2 => ⟨S3x9x128, .f32⟩
  | 3 => ⟨S3x4x128, .f32⟩
  | 4 => ⟨S128, .f32⟩
  | 5 => ⟨S3x128x128, .f32⟩
  | 6 => ⟨S3x4x128, .f32⟩
  | 7 => ⟨S128, .f32⟩
  | 8 => ⟨S128x4, .f32⟩
  | 9 => ⟨S4, .f32⟩
  | 10 => ⟨S2x800000, .i32⟩
  | 11 => ⟨S50000, .i32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S1x9x128, .f32⟩
  | 52 => ⟨S9x128, .f32⟩
  | 53 => ⟨S1x9x128, .f32⟩
  | 54 => ⟨S9x128, .f32⟩
  | 55 => ⟨S9x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x9, .f32⟩
  | 65 => ⟨S800000x1, .f32⟩
  | 66 => ⟨S800000x9, .f32⟩
  | 67 => ⟨S800000x9, .f32⟩
  | 68 => ⟨S_, .f32⟩
  | 69 => ⟨S50000x9, .f32⟩
  | 70 => ⟨S800000x1, .i32⟩
  | 71 => ⟨S50000x9, .f32⟩
  | 72 => ⟨S_, .f32⟩
  | 73 => ⟨S50000x9, .f32⟩
  | 74 => ⟨S50000x9, .f32⟩
  | 75 => ⟨S50000x9, .f32⟩
  | 76 => ⟨S50000x18, .f32⟩
  | 77 => ⟨S1x9x128, .f32⟩
  | 78 => ⟨S9x128, .f32⟩
  | 79 => ⟨S18x128, .f32⟩
  | 80 => ⟨S_, .f32⟩
  | 81 => ⟨S4x128, .f32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S1x128, .f32⟩
  | 88 => ⟨S50000x128, .f32⟩
  | 89 => ⟨S1x128x128, .f32⟩
  | 90 => ⟨S128x128, .f32⟩
  | 91 => ⟨S1x128x128, .f32⟩
  | 92 => ⟨S128x128, .f32⟩
  | 93 => ⟨S128x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x1, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S50000x256, .f32⟩
  | 115 => ⟨S1x128x128, .f32⟩
  | 116 => ⟨S128x128, .f32⟩
  | 117 => ⟨S256x128, .f32⟩
  | 118 => ⟨S_, .f32⟩
  | 119 => ⟨S4x128, .f32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S1x128, .f32⟩
  | 126 => ⟨S50000x128, .f32⟩
  | 127 => ⟨S50000x1, .i32⟩
  | _ => ⟨S50000x9, .f32⟩

abbrev hbmTy0_1 (i : Nat) : BufTy := match i % 128 with
  | 0 => ⟨S64, .i32⟩
  | 1 => ⟨S1x64, .i32⟩
  | 2 => ⟨S50000x64, .i32⟩
  | 3 => ⟨S50000x64, .i32⟩
  | 4 => ⟨S50000x64, .i1⟩
  | 5 => ⟨S50000x64, .f32⟩
  | 6 => ⟨S_, .f32⟩
  | 7 => ⟨S64, .f32⟩
  | 8 => ⟨S64x128, .f32⟩
  | 9 => ⟨S_, .f32⟩
  | 10 => ⟨S64, .f32⟩
  | 11 => ⟨S64, .f32⟩
  | 12 => ⟨S64x1, .f32⟩
  | 13 => ⟨S64x128, .f32⟩
  | 14 => ⟨S64x128, .f32⟩
  | 15 => ⟨S64x4, .f32⟩
  | 16 => ⟨S1x4, .f32⟩
  | 17 => ⟨S64x4, .f32⟩
  | 18 => ⟨S64x4, .f32⟩
  | 19 => ⟨S_, .f32⟩
  | 20 => ⟨S64, .f32⟩
  | 21 => ⟨S_, .f32⟩
  | 22 => ⟨S64, .f32⟩
  | 23 => ⟨S64, .f32⟩
  | 24 => ⟨S64x1, .f32⟩
  | 25 => ⟨S64x4, .f32⟩
  | 26 => ⟨S64x4, .f32⟩
  | 27 => ⟨S64x4, .f32⟩
  | 28 => ⟨S_, .f32⟩
  | 29 => ⟨S64, .f32⟩
  | 30 => ⟨S64x1, .f32⟩
  | 31 => ⟨S64x1, .f32⟩
  | 32 => ⟨S64x4, .f32⟩
  | 33 => ⟨S64x4, .f32⟩
  | _ => ⟨S50000x9, .f32⟩

abbrev hbmTy (i : Nat) : BufTy := match i / 128 with
  | 0 => hbmTy0_0 i
  | 1 => hbmTy0_1 i
  | _ => ⟨S50000x9, .f32⟩

abbrev bufTy : (tb : Table) → Fin (tcTables nBuf tb) → BufTy
  | .hbm, ⟨i, _⟩ => hbmTy i
  | .local _ .vmem, ⟨0, _⟩ => ⟨S16000x4, .f32⟩
  | .local _ .vmem, ⟨1, _⟩ => ⟨S16000x4, .f32⟩
  | .local _ .vmem, ⟨2, _⟩ => ⟨S4x128, .f32⟩
  | .local _ .vmem, ⟨3, _⟩ => ⟨S16000x128, .f32⟩
  | .local _ .vmem, ⟨4, _⟩ => ⟨S16000x128, .f32⟩
  | .local _ .vmem, ⟨5, _⟩ => ⟨S2000x18, .f32⟩
  | .local _ .vmem, ⟨6, _⟩ => ⟨S2000x18, .f32⟩
  | .local _ .vmem, ⟨7, _⟩ => ⟨S18x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S16000x4, .f32⟩
  | .local _ .vmem, ⟨14, _⟩ => ⟨S16000x4, .f32⟩
  | .local _ .vmem, ⟨15, _⟩ => ⟨S4x128, .f32⟩
  | .local _ .vmem, ⟨16, _⟩ => ⟨S16000x128, .f32⟩
  | .local _ .vmem, ⟨17, _⟩ => ⟨S16000x128, .f32⟩
  | .local _ .vmem, ⟨18, _⟩ => ⟨S2000x256, .f32⟩
  | .local _ .vmem, ⟨19, _⟩ => ⟨S2000x256, .f32⟩
  | .local _ .vmem, ⟨20, _⟩ => ⟨S256x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x64, .f32⟩
  | .local _ .vmem, ⟨27, _⟩ => ⟨S2000x64, .f32⟩
  | .local _ .vmem, ⟨28, _⟩ => ⟨S2000x128, .f32⟩
  | .local _ .vmem, ⟨29, _⟩ => ⟨S2000x128, .f32⟩
  | .local _ .vmem, ⟨30, _⟩ => ⟨S64x128, .f32⟩
  | .local _ .vmem, ⟨31, _⟩ => ⟨S64x128, .f32⟩
  | _, _ => ⟨S50000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_c_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_17 : Ref sig .tc := ⟨.hbm, 118, rfl⟩
abbrev main_v85 : Ref sig .tc := ⟨.hbm, 119, rfl⟩
abbrev main_v86 : Ref sig .tc := ⟨.hbm, 120, rfl⟩
abbrev main_cst_18 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_19 : Ref sig .tc := ⟨.hbm, 134, rfl⟩
abbrev main_v99 : Ref sig .tc := ⟨.hbm, 135, rfl⟩
abbrev main_v100 : Ref sig .tc := ⟨.hbm, 136, rfl⟩
abbrev main_cst_20 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_call1_cst : Ref sig .tc := ⟨.hbm, 147, rfl⟩
abbrev main_call1_v0 : Ref sig .tc := ⟨.hbm, 148, rfl⟩
abbrev main_call1_cst_0 : Ref sig .tc := ⟨.hbm, 149, rfl⟩
abbrev main_call1_v1 : Ref sig .tc := ⟨.hbm, 150, rfl⟩
abbrev main_call1_v2 : Ref sig .tc := ⟨.hbm, 151, rfl⟩
abbrev main_call1_v3 : Ref sig .tc := ⟨.hbm, 152, rfl⟩
abbrev main_call1_v4 : Ref sig .tc := ⟨.hbm, 153, rfl⟩
abbrev main_call1_v5 : Ref sig .tc := ⟨.hbm, 154, rfl⟩
abbrev main_call1_v6 : Ref sig .tc := ⟨.hbm, 155, rfl⟩
abbrev main_call1_cst_1 : Ref sig .tc := ⟨.hbm, 156, rfl⟩
abbrev main_call1_v7 : Ref sig .tc := ⟨.hbm, 157, rfl⟩
abbrev main_call1_v8 : Ref sig .tc := ⟨.hbm, 158, rfl⟩
abbrev main_call1_v9 : Ref sig .tc := ⟨.hbm, 159, rfl⟩
abbrev main_call1_v10 : Ref sig .tc := ⟨.hbm, 160, rfl⟩
abbrev main_v110 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x18 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S18x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S16000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v16 : BitVec 1 := Scalar.cmpi .eq arg0 c24_i32
  let v17 : BitVec 32 := Scalar.extui v16
  let c0_i32_8 : BitVec 32 := 0#32
  let v18 : BitVec 1 := Scalar.cmpi .ne v17 c0_i32_8
  v18

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x9x128_S1x9x128_0_0_0 : S3x9x128.Slices ![0, 0, 0] S1x9x128
  shapeCasts_S1x9x128_S9x128 : S1x9x128.ShapeCasts S9x128
  slices_S3x9x128_S1x9x128_1_0_0 : S3x9x128.Slices ![1, 0, 0] S1x9x128
  bcast_S800000x1_S800000x9_0_1 : S800000x1.BroadcastsInDim S800000x9 (![0, 1] : Fin 2 → Fin S800000x9.rank)
  bcast_S_S50000x9 : S_.BroadcastsInDim S50000x9 (![] : Fin 0 → Fin S50000x9.rank)
  concatenates_S50000x9_S50000x9_S50000x18_d1 : Shape.Concatenates [S50000x9, S50000x9] S50000x18 1
  slices_S3x9x128_S1x9x128_2_0_0 : S3x9x128.Slices ![2, 0, 0] S1x9x128
  concatenates_S9x128_S9x128_S18x128_d0 : Shape.Concatenates [S9x128, S9x128] S18x128 0
  reducesTo_S3x4x128_S4x128_d0 : S3x4x128.ReducesTo [0] S4x128
  h_S_ : 0 < S_.numel
  inb_S16000x4_S16000x4_0_0 : ∀ a, (![0, 0] : Fin 2 → Nat) a + S16000x4.size a ≤ S16000x4.size a
  h_S16000x4 : 0 < S16000x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S16000x128_S16000x128_0_0 : ∀ a, (![0, 0] : Fin 2 → Nat) a + S16000x128.size a ≤ S16000x128.size a
  h_S16000x128 : 0 < S16000x128.numel
  bcast_S_S50000x128 : S_.BroadcastsInDim S50000x128 (![] : Fin 0 → Fin S50000x128.rank)
  shapeCasts_S128_S1x128 : S128.ShapeCasts S1x128
  inb_S2000x18_S2000x18_0_0 : ∀ a, (![0, 0] : Fin 2 → Nat) a + S2000x18.size a ≤ S2000x18.size a
  h_S2000x18 : 0 < S2000x18.numel
  shapeCasts_S2000x18_S2000x18 : S2000x18.ShapeCasts S2000x18
  inb_S18x128_S18x128_0_0 : ∀ a, (![0, 0] : Fin 2 → Nat) a + S18x128.size a ≤ S18x128.size a
  h_S18x128 : 0 < S18x128.numel
  shapeCasts_S18x128_S18x128 : S18x128.ShapeCasts S18x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  bcast_S800000x1_S800000x128_0_1 : S800000x1.BroadcastsInDim S800000x128 (![0, 1] : Fin 2 → Fin S800000x128.rank)
  concatenates_S50000x128_S50000x128_S50000x256_d1 : Shape.Concatenates [S50000x128, S50000x128] S50000x256 1
  slices_S3x128x128_S1x128x128_2_0_0 : S3x128x128.Slices ![2, 0, 0] S1x128x128
  concatenates_S128x128_S128x128_S256x128_d0 : Shape.Concatenates [S128x128, S128x128] S256x128 0
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  reducesTo_S50000x64_S64_d0 : S50000x64.ReducesTo [0] S64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  transposes_S2000x64_p1_0_S64x2000 : S2000x64.Transposes [1, 0] S64x2000
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  reducesTo_S64x4_S64_d1 : S64x4.ReducesTo [1] S64
  bcast_S64x1_S64x4_0_1 : S64x1.BroadcastsInDim S64x4 (![0, 1] : Fin 2 → Fin S64x4.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x9_S800000x1_S800000x9_1_0_n_n_0_1_19_wf : GatherDims.WF S50000x9 S800000x1 S800000x9 [1] [0] [] [0] [] 1 ![1, 9]
  scatter_S50000x9_S800000x1_S800000x9_1_0_0_1_wf : ScatterDims.WF S50000x9 S800000x1 S800000x9 [1] [0] [0] 1
  dot_S16000x4_S4x128_S16000x128_1_0_0_1_n_n_wf : DotDims.WF S16000x4 S4x128 S16000x128 [1] [0] [0] [1] [] []
  scatter_S50000x128_S800000x1_S800000x128_1_0_0_1_wf : ScatterDims.WF S50000x128 S800000x1 S800000x128 [1] [0] [0] 1
  dot_S2000x18_S18x128_S2000x128_1_0_0_1_n_n_wf : DotDims.WF S2000x18 S18x128 S2000x128 [1] [0] [0] [1] [] []
  gather_S50000x128_S800000x1_S800000x128_1_0_n_n_0_1_1128_wf : GatherDims.WF S50000x128 S800000x1 S800000x128 [1] [0] [] [0] [] 1 ![1, 128]
  dot_S2000x256_S256x128_S2000x128_1_0_0_1_n_n_wf : DotDims.WF S2000x256 S256x128 S2000x128 [1] [0] [0] [1] [] []
  dot_S64x2000_S2000x128_S64x128_1_0_0_1_n_n_wf : DotDims.WF S64x2000 S2000x128 S64x128 [1] [0] [0] [1] [] []
  dot_S64x128_S128x4_S64x4_1_0_0_1_n_n_wf : DotDims.WF S64x128 S128x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x4.size a ≤ S800000x4.size a
  hwx0_0 : ∀ i : grid0.Coords, EltTy.bits .f32 = 32 ∨ (Rect.block (s := S800000x4) S16000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x128.size a ≤ S800000x128.size a
  hwx0_2 : ∀ i : grid0.Coords, EltTy.bits .f32 = 32 ∨ (Rect.block (s := S800000x128) S16000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x18.size a ≤ S50000x18.size a
  hwx1_0 : ∀ i : grid1.Coords, EltTy.bits .f32 = 32 ∨ (Rect.block (s := S50000x18) S2000x18.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S18x128.size a ≤ S18x128.size a
  hwx1_1 : ∀ i : grid1.Coords, EltTy.bits .f32 = 32 ∨ (Rect.block (s := S18x128) S18x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x4.size a ≤ S800000x4.size a
  hwx2_0 : ∀ i : grid2.Coords, EltTy.bits .f32 = 32 ∨ (Rect.block (s := S800000x4) S16000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x128.size a ≤ S4x128.size a
  hwx2_1 : ∀ i : grid2.Coords, EltTy.bits .f32 = 32 ∨ (Rect.block (s := S4x128) S4x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16000x128.size a ≤ S800000x128.size a
  hwx2_2 : ∀ i : grid2.Coords, EltTy.bits .f32 = 32 ∨ (Rect.block (s := S800000x128) S16000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x9_S800000x1_S800000x9_1_0_n_n_0_1_19 : GatherDims S50000x9 S800000x1 S800000x9 where
  offsetDims := [1]
  collapsedSliceDims := [0]
  operandBatchingDims := []
  startIndicesBatchingDims := []
  startIndexMap := [0]
  indexVectorDim := 1
  sliceSizes := ![1, 9]
  wf := gather_S50000x9_S800000x1_S800000x9_1_0_n_n_0_1_19_wf
def scatter_S50000x9_S800000x1_S800000x9_1_0_0_1 : ScatterDims S50000x9 S800000x1 S800000x9 where
  updateWindowDims := [1]
  insertedWindowDims := [0]
  scatterDimsToOperandDims := [0]
  indexVectorDim := 1
  wf := scatter_S50000x9_S800000x1_S800000x9_1_0_0_1_wf
def dot_S16000x4_S4x128_S16000x128_1_0_0_1_n_n : DotDims S16000x4 S4x128 S16000x128 where
  lhsContracting := [1]
  rhsContracting := [0]
  lhsNonContracting := [0]
  rhsNonContracting := [1]
  lhsBatch := []
  rhsBatch := []
  wf := dot_S16000x4_S4x128_S16000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x18_S18x128_S2000x128_1_0_0_1_n_n : DotDims S2000x18 S18x128 S2000x128 where
  lhsContracting := [1]
  rhsContracting := [0]
  lhsNonContracting := [0]
  rhsNonContracting := [1]
  lhsBatch := []
  rhsBatch := []
  wf := dot_S2000x18_S18x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S64x2000_S2000x128_S64x128_1_0_0_1_n_n : DotDims S64x2000 S2000x128 S64x128 where
  lhsContracting := [1]
  rhsContracting := [0]
  lhsNonContracting := [0]
  rhsNonContracting := [1]
  lhsBatch := []
  rhsBatch := []
  wf := dot_S64x2000_S2000x128_S64x128_1_0_0_1_n_n_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

abbrev win0_0 : Pipeline.Window sig grid0 :=
  Pipeline.Window.ofSpec (Memref.whole main_arg1) S16000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S16000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x18.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S18x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v59) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S16000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S4x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v86) S16000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v81) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v91) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v98) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v100) S64x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S50000x9 : Shape := ⟨2, ![50000, 9]⟩
abbrev S800000x4 : Shape := ⟨2, ![800000, 4]⟩
abbrev S3x9x128 : Shape := ⟨3, ![3, 9, 128]⟩
abbrev S3x4x128 : Shape := ⟨3, ![3, 4, 128]⟩
abbrev S128 : Shape := ⟨1, ![128]⟩
abbrev S3x128x128 : Shape := ⟨3, ![3, 128, 128]⟩
abbrev S128x4 : Shape := ⟨2, ![128, 4]⟩
abbrev S4 : Shape := ⟨1, ![4]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x9x128 : Shape := ⟨3, ![1, 9, 128]⟩
abbrev S9x128 : Shape := ⟨2, ![9, 128]⟩
abbrev S50000x128 : Shape := ⟨2, ![50000, 128]⟩
abbrev S800000x9 : Shape := ⟨2, ![800000, 9]⟩
abbrev S1x128 : Shape := ⟨2, ![1, 128]⟩
abbrev S4x128 : Shape := ⟨2, ![4, 128]⟩
abbrev S800000x128 : Shape := ⟨2, ![800000, 128]⟩
abbrev S1x128x128 : Shape := ⟨3, ![1, 128, 128]⟩
abbrev S128x128 : Shape := ⟨2, ![128, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩
abbrev S64x4 : Shape := ⟨2, ![64, 4]⟩
abbrev S1x4 : Shape := ⟨2, ![1, 4]⟩

abbrev nBuf : Space → Nat
  | .hbm => 176
  | .vmem => 0
  | .smem => 0
  | _ => 0

abbrev hbmTy0_0 (i : Nat) : BufTy := match i % 128 with
  | 0 => ⟨S50000x9, .f32⟩
  | 1 => ⟨S800000x4, .f32⟩
  | 2 => ⟨S3x9x128, .f32⟩
  | 3 => ⟨S3x4x128, .f32⟩
  | 4 => ⟨S128, .f32⟩
  | 5 => ⟨S3x128x128, .f32⟩
  | 6 => ⟨S3x4x128, .f32⟩
  | 7 => ⟨S128, .f32⟩
  | 8 => ⟨S128x4, .f32⟩
  | 9 => ⟨S4, .f32⟩
  | 10 => ⟨S2x800000, .i32⟩
  | 11 => ⟨S50000, .i32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S1x9x128, .f32⟩
  | 52 => ⟨S9x128, .f32⟩
  | 53 => ⟨S50000x128, .f32⟩
  | 54 => ⟨S1x9x128, .f32⟩
  | 55 => ⟨S9x128, .f32⟩
  | 56 => ⟨S50000x128, .f32⟩
  | 57 => ⟨S50000x128, .f32⟩
  | 58 => ⟨S800000x1, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x9, .f32⟩
  | 68 => ⟨S800000x9, .f32⟩
  | 69 => ⟨S800000x9, .f32⟩
  | 70 => ⟨S_, .f32⟩
  | 71 => ⟨S50000x9, .f32⟩
  | 72 => ⟨S800000x1, .i32⟩
  | 73 => ⟨S50000x9, .f32⟩
  | 74 => ⟨S_, .f32⟩
  | 75 => ⟨S50000x9, .f32⟩
  | 76 => ⟨S50000x9, .f32⟩
  | 77 => ⟨S50000x9, .f32⟩
  | 78 => ⟨S1x9x128, .f32⟩
  | 79 => ⟨S9x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S4x128, .f32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S1x128x128, .f32⟩
  | 100 => ⟨S128x128, .f32⟩
  | 101 => ⟨S50000x128, .f32⟩
  | 102 => ⟨S50000x128, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S1x128x128, .f32⟩
  | 124 => ⟨S128x128, .f32⟩
  | 125 => ⟨S50000x128, .f32⟩
  | 126 => ⟨S50000x128, .f32⟩
  | 127 => ⟨S1x128, .f32⟩
  | _ => ⟨S50000x9, .f32⟩

abbrev hbmTy0_1 (i : Nat) : BufTy := match i % 128 with
  | 0 => ⟨S50000x128, .f32⟩
  | 1 => ⟨S50000x128, .f32⟩
  | 2 => ⟨S_, .f32⟩
  | 3 => ⟨S4x128, .f32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S50000, .f32⟩
  | 15 => ⟨S_, .f32⟩
  | 16 => ⟨S64, .f32⟩
  | 17 => ⟨S50000x1, .i32⟩
  | 18 => ⟨S64, .f32⟩
  | 19 => ⟨S_, .f32⟩
  | 20 => ⟨S64x128, .f32⟩
  | 21 => ⟨S50000x1, .i32⟩
  | 22 => ⟨S64x128, .f32⟩
  | 23 => ⟨S_, .f32⟩
  | 24 => ⟨S64, .f32⟩
  | 25 => ⟨S64, .f32⟩
  | 26 => ⟨S64x1, .f32⟩
  | 27 => ⟨S64x128, .f32⟩
  | 28 => ⟨S64x128, .f32⟩
  | 29 => ⟨S64x4, .f32⟩
  | 30 => ⟨S1x4, .f32⟩
  | 31 => ⟨S64x4, .f32⟩
  | 32 => ⟨S64x4, .f32⟩
  | 33 => ⟨S_, .f32⟩
  | 34 => ⟨S64, .f32⟩
  | 35 => ⟨S_, .f32⟩
  | 36 => ⟨S64, .f32⟩
  | 37 => ⟨S64, .f32⟩
  | 38 => ⟨S64x1, .f32⟩
  | 39 => ⟨S64x4, .f32⟩
  | 40 => ⟨S64x4, .f32⟩
  | 41 => ⟨S64x4, .f32⟩
  | 42 => ⟨S_, .f32⟩
  | 43 => ⟨S64, .f32⟩
  | 44 => ⟨S64x1, .f32⟩
  | 45 => ⟨S64x1, .f32⟩
  | 46 => ⟨S64x4, .f32⟩
  | 47 => ⟨S64x4, .f32⟩
  | _ => ⟨S50000x9, .f32⟩

abbrev hbmTy (i : Nat) : BufTy := match i / 128 with
  | 0 => hbmTy0_0 i
  | 1 => hbmTy0_1 i
  | _ => ⟨S50000x9, .f32⟩

abbrev bufTy : (tb : Table) → Fin (tcTables nBuf tb) → BufTy
  | .hbm, ⟨i, _⟩ => hbmTy i
  | _, _ => ⟨S50000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_5 : Ref sig .tc := ⟨.hbm, 41, rfl⟩
abbrev main_v20 : Ref sig .tc := ⟨.hbm, 42, rfl⟩
abbrev main_v21 : Ref sig .tc := ⟨.hbm, 43, rfl⟩
abbrev main_c_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call1_cst : Ref sig .tc := ⟨.hbm, 93, rfl⟩
abbrev main_call1_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_13 : Ref sig .tc := ⟨.hbm, 104, rfl⟩
abbrev main_v73 : Ref sig .tc := ⟨.hbm, 105, rfl⟩
abbrev main_v74 : Ref sig .tc := ⟨.hbm, 106, rfl⟩
abbrev main_c_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_17 : Ref sig .tc := ⟨.hbm, 130, rfl⟩
abbrev main_v95 : Ref sig .tc := ⟨.hbm, 131, rfl⟩
abbrev main_v96 : Ref sig .tc := ⟨.hbm, 132, rfl⟩
abbrev main_cst_18 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_call2_cst : Ref sig .tc := ⟨.hbm, 138, rfl⟩
abbrev main_call2_v0 : Ref sig .tc := ⟨.hbm, 139, rfl⟩
abbrev main_v101 : Ref sig .tc := ⟨.hbm, 140, rfl⟩
abbrev main_cst_19 : Ref sig .tc := ⟨.hbm, 141, rfl⟩
abbrev main_v102 : Ref sig .tc := ⟨.hbm, 142, rfl⟩
abbrev main_cst_20 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_21 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_22 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_call3_cst : Ref sig .tc := ⟨.hbm, 161, rfl⟩
abbrev main_call3_v0 : Ref sig .tc := ⟨.hbm, 162, rfl⟩
abbrev main_call3_cst_0 : Ref sig .tc := ⟨.hbm, 163, rfl⟩
abbrev main_call3_v1 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_call3_v5 : Ref sig .tc := ⟨.hbm, 168, rfl⟩
abbrev main_call3_v6 : Ref sig .tc := ⟨.hbm, 169, rfl⟩
abbrev main_call3_cst_1 : Ref sig .tc := ⟨.hbm, 170, rfl⟩
abbrev main_call3_v7 : Ref sig .tc := ⟨.hbm, 171, rfl⟩
abbrev main_call3_v8 : Ref sig .tc := ⟨.hbm, 172, rfl⟩
abbrev main_call3_v9 : Ref sig .tc := ⟨.hbm, 173, rfl⟩
abbrev main_call3_v10 : Ref sig .tc := ⟨.hbm, 174, rfl⟩
abbrev main_v118 : Ref sig .tc := ⟨.hbm, 175, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x9x128_S1x9x128_0_0_0 : S3x9x128.Slices ![0, 0, 0] S1x9x128
  shapeCasts_S1x9x128_S9x128 : S1x9x128.ShapeCasts S9x128
  slices_S3x9x128_S1x9x128_1_0_0 : S3x9x128.Slices ![1, 0, 0] S1x9x128
  bcast_S800000x1_S800000x9_0_1 : S800000x1.BroadcastsInDim S800000x9 (![0, 1] : Fin 2 → Fin S800000x9.rank)
  bcast_S_S50000x9 : S_.BroadcastsInDim S50000x9 (![] : Fin 0 → Fin S50000x9.rank)
  slices_S3x9x128_S1x9x128_2_0_0 : S3x9x128.Slices ![2, 0, 0] S1x9x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S3x4x128_S4x128_d0 : S3x4x128.ReducesTo [0] S4x128
  h_S_ : 0 < S_.numel
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  bcast_S800000x1_S800000x128_0_1 : S800000x1.BroadcastsInDim S800000x128 (![0, 1] : Fin 2 → Fin S800000x128.rank)
  slices_S3x128x128_S1x128x128_2_0_0 : S3x128x128.Slices ![2, 0, 0] S1x128x128
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  reducesTo_S64x4_S64_d1 : S64x4.ReducesTo [1] S64
  bcast_S64x1_S64x4_0_1 : S64x1.BroadcastsInDim S64x4 (![0, 1] : Fin 2 → Fin S64x4.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x9_S9x128_S50000x128_1_0_0_1_n_n_wf : DotDims.WF S50000x9 S9x128 S50000x128 [1] [0] [0] [1] [] []
  gather_S50000x9_S800000x1_S800000x9_1_0_n_n_0_1_19_wf : GatherDims.WF S50000x9 S800000x1 S800000x9 [1] [0] [] [0] [] 1 ![1, 9]
  scatter_S50000x9_S800000x1_S800000x9_1_0_0_1_wf : ScatterDims.WF S50000x9 S800000x1 S800000x9 [1] [0] [0] 1
  dot_S800000x4_S4x128_S800000x128_1_0_0_1_n_n_wf : DotDims.WF S800000x4 S4x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x4_S64x4_1_0_0_1_n_n_wf : DotDims.WF S64x128 S128x4 S64x4 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x9_S9x128_S50000x128_1_0_0_1_n_n : DotDims S50000x9 S9x128 S50000x128 where
  lhsContracting := [1]
  rhsContracting := [0]
  lhsNonContracting := [0]
  rhsNonContracting := [1]
  lhsBatch := []
  rhsBatch := []
  wf := dot_S50000x9_S9x128_S50000x128_1_0_0_1_n_n_wf
def gather_S50000x9_S800000x1_S800000x9_1_0_n_n_0_1_19 : GatherDims S50000x9 S800000x1 S800000x9 where
  offsetDims := [1]
  collapsedSliceDims := [0]
  operandBatchingDims := []
  startIndicesBatchingDims := []
  startIndexMap := [0]
  indexVectorDim := 1
  sliceSizes := ![1, 9]
  wf := gather_S50000x9_S800000x1_S800000x9_1_0_n_n_0_1_19_wf
def scatter_S50000x9_S800000x1_S800000x9_1_0_0_1 : ScatterDims S50000x9 S800000x1 S800000x9 where
  updateWindowDims := [1]
  insertedWindowDims := [0]
  scatterDimsToOperandDims := [0]
  indexVectorDim := 1
  wf := scatter_S50000x9_S800000x1_S800000x9_1_0_0_1_wf
def dot_S800000x4_S4x128_S800000x128_1_0_0_1_n_n : DotDims S800000x4 S4x128 S800000x128 where
  lhsContracting := [1]
  rhsContracting := [0]
  lhsNonContracting := [0]
  rhsNonContracting := [1]
  lhsBatch := []
  rhsBatch := []
  wf := dot_S800000x4_S4x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x4_S64x4_1_0_0_1_n_n : DotDims S64x128 S128x4 S64x4 where
  lhsContracting := [1]
  rhsContracting := [0]
  lhsNonContracting := [0]
  rhsNonContracting := [1]
  lhsBatch := []
  rhsBatch := []
  wf := dot_S64x128_S128x4_S64x4_1_0_0_1_n_n_wf

class Facts : Prop extends Facts₀ where

variable [Facts]
-- ==== Proof.K.Reg0.lean ====
/-
  Region 0: the edge transform, one block of 16000 edges per grid point — the block's rows times the whole
  4 x 128 weight. What each point leaves in the output window's buffer, the body's triple, and the pipeline's
  proof data at the contents V the region is entered with.
-/
import proofs.«413272_j14783277433402_2_alg».proof.Proof.Gen.Kernel.Launch
import proofs.«413272_j14783277433402_2_alg».proof.Proof.Gen.Kernel.Skeleton
import proofs.«413272_j14783277433402_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows and columns of its array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge block's buffer holds the block of point `t` when the body runs there, for any proof data over the
    entry contents whose body leaves that buffer as it found it: the window is an input, never idle, never cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's buffer holds the whole weight at every point, although it is copied in at the first point only:
    its block index never moves, so what an unfetched point finds is the previous point's block, which is its own. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S16000x4 := Rect.unit (s := S16000x4) ![0, 0] S16000x4.size inb_S16000x4_S16000x4_0_0
abbrev r0_1 : Rect S4x128 := Rect.unit (s := S4x128) ![0, 0] S4x128.size inb_S4x128_S4x128_0_0
abbrev r0_2 : Rect S16000x128 := Rect.unit (s := S16000x128) ![0, 0] S16000x128.size inb_S16000x128_S16000x128_0_0

/-! ## What the body leaves in the output window's buffer -/

/-- The output buffer after the body, from the two input blocks: one store over the whole buffer, of the product
    of the edge block (rounded to bf16) with the weight (rounded to bf16), accumulated from zero. -/
def out0_2 (x0 : Vec F S16000x4 .f32) (x1 : Vec F S4x128 .f32) : Vec F S16000x128 .f32 :=
  View.canon [⟨r0_2, k0_pay1 (View.ld x0 r0_0) (View.ld x1 r0_1)⟩]

/-- The one store is over the whole buffer, so it covers it. -/
theorem cover0_2 (p0 : Vec F S16000x128 .f32) (y : S16000x128.Idx) :
    ∃ pc ∈ ([⟨r0_2, p0⟩] : List (View.Piece (Elt F) S16000x128 .f32)), y ∈ pc.1.set :=
  View.cover_of_tiled [⟨r0_2, p0⟩] S16000x128.size (by rfl) y

/-! ## The body's triple -/

set_option maxHeartbeats 1000000 in
/-- The kernel body on whole staging memrefs, the two inputs' at read contents `x0`, `x1` and the output's at anything,
    runs to the continuation holding the inputs' as they were and the output's at `out0_2 x0 x1`: the two loads, the
    load of the output buffer (its value is not used), then the one store over the whole buffer. -/
theorem sound_kernel0 (c : Dev nD) (E : Set ℕ) (i : grid0.Coords) (arg1 : Memref sig .tc .vmem S16000x4 .f32) (harg1 : arg1.IsWhole) (arg2 : Memref sig .tc .vmem S4x128 .f32) (harg2 : arg2.IsWhole) (arg3 : Memref sig .tc .vmem S16000x128 .f32) (harg3 : arg3.IsWhole)
    (x0 : Vec F S16000x4 .f32) (x1 : Vec F S4x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__plain_matmul_kernel i arg1 harg1 arg2 harg2 arg3 harg3) K := by
  simp only [cc0__plain_matmul_kernel_eq_skeleton]; unfold cc0__plain_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them (`V`); after the body at point
    `t` each input's buffer still at its block and the output's at `out0_2` of the two input blocks; the invariant is
    the rest of the core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, copied in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1: the node transform of the first layer, one block of 2000 nodes per grid point — the block's rows
  times the whole 18 x 128 weight, plus the bias row, plus the block of the edge aggregate, clipped below at zero.
  What each point leaves in the output window's buffer, the body's triple, and the pipeline's proof data at the
  contents V the region is entered with.
-/
import proofs.«413272_j14783277433402_2_alg».proof.Proof.Gen.Kernel.Launch
import proofs.«413272_j14783277433402_2_alg».proof.Proof.Gen.Kernel.Skeleton
import proofs.«413272_j14783277433402_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): a point that does not
    fetch the window has the block index of the point before it, so the buffer still holds this point's block. The
    window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): a point that does not
    fetch the window has the block index of the point before it, so the buffer still holds this point's block. The
    window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): a point that does not
    fetch the window has the block index of the point before it, so the buffer still holds this point's block. The
    window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): a point that does not
    fetch the window has the block index of the point before it, so the buffer still holds this point's block. The
    window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output's written, through its whole extent -/

abbrev r1_0 : Rect S2000x18 := Rect.unit (s := S2000x18) ![0, 0] S2000x18.size inb_S2000x18_S2000x18_0_0
abbrev r1_1 : Rect S18x128 := Rect.unit (s := S18x128) ![0, 0] S18x128.size inb_S18x128_S18x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

/-! ## What the body leaves in the output window's buffer -/

/-- Window 4's staging buffer after the body, from the input windows' blocks: its one store, through the whole
    extent, of the clipped sum computed from the four blocks as loaded. -/
def out1_4 (x0 : Vec F S2000x18 .f32) (x1 : Vec F S18x128 .f32) (x2 : Vec F S1x128 .f32) (x3 : Vec F S2000x128 .f32) : Vec F S2000x128 .f32 :=
  View.canon [⟨r1_3, k1_pay1 (View.ld x0 r1_0) (View.ld x1 r1_1) (View.ld x2 r1_2) (View.ld x3 r1_3)⟩]

/-- The store's rectangle is the whole buffer, so it covers it. -/
theorem cover1_4 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

/-! ## The body's triple -/

set_option maxHeartbeats 1000000 in
/-- The kernel body on whole staging memrefs, the inputs' at read contents `xW` and the output's at anything, runs to
    the continuation holding the inputs' as they were and the output's at `out1_4` of the inputs'. The body reads the
    output's buffer once before it writes it; the value read is not used. -/
theorem sound_kernel1 (c : Dev nD) (E : Set ℕ) (i : grid1.Coords)
    (arg0 : Memref sig .tc .vmem S2000x18 .f32) (harg0 : arg0.IsWhole) (arg1 : Memref sig .tc .vmem S18x128 .f32) (harg1 : arg1.IsWhole)
    (arg2 : Memref sig .tc .vmem S1x128 .f32) (harg2 : arg2.IsWhole) (arg3 : Memref sig .tc .vmem S2000x128 .f32) (harg3 : arg3.IsWhole)
    (arg4 : Memref sig .tc .vmem S2000x128 .f32) (harg4 : arg4.IsWhole)
    (x0 : Vec F S2000x18 .f32) (x1 : Vec F S18x128 .f32) (x2 : Vec F S1x128 .f32) (x3 : Vec F S2000x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__node_kernel i arg0 harg0 arg1 harg1 arg2 harg2 arg3 harg3 arg4 harg4) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the region's pipeline on core `c`: the arrays as the region finds them (`V`); after the body at
    point `t` each input's buffer at its block and the output's at `out1_4` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2: the edge transform, one block of 16000 edges per grid point — the block's rows times the whole
  4 x 128 weight. What each point leaves in the output window's buffer, the body's triple, and the pipeline's
  proof data at the contents V the region is entered with.
-/
import proofs.«413272_j14783277433402_2_alg».proof.Proof.Gen.Kernel.Launch
import proofs.«413272_j14783277433402_2_alg».proof.Proof.Gen.Kernel.Skeleton
import proofs.«413272_j14783277433402_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows and columns of its array, as the region finds it, that the
    window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The edge block's buffer holds the block of point `t` when the body runs there, for any proof data over the
    entry contents whose body leaves that buffer as it found it: the window is an input, never idle, never cut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's buffer holds the whole weight at every point, although it is copied in at the first point only:
    its block index never moves, so what an unfetched point finds is the previous point's block, which is its own. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S16000x4 := Rect.unit (s := S16000x4) ![0, 0] S16000x4.size inb_S16000x4_S16000x4_0_0
abbrev r2_1 : Rect S4x128 := Rect.unit (s := S4x128) ![0, 0] S4x128.size inb_S4x128_S4x128_0_0
abbrev r2_2 : Rect S16000x128 := Rect.unit (s := S16000x128) ![0, 0] S16000x128.size inb_S16000x128_S16000x128_0_0

/-! ## What the body leaves in the output window's buffer -/

/-- The output buffer after the body, from the two input blocks: one store over the whole buffer, of the product
    of the edge block (rounded to bf16) with the weight (rounded to bf16), accumulated from zero. -/
def out2_2 (x0 : Vec F S16000x4 .f32) (x1 : Vec F S4x128 .f32) : Vec F S16000x128 .f32 :=
  View.canon [⟨r2_2, k2_pay1 (View.ld x0 r2_0) (View.ld x1 r2_1)⟩]

/-- The one store is over the whole buffer, so it covers it. -/
theorem cover2_2 (p0 : Vec F S16000x128 .f32) (y : S16000x128.Idx) :
    ∃ pc ∈ ([⟨r2_2, p0⟩] : List (View.Piece (Elt F) S16000x128 .f32)), y ∈ pc.1.set :=
  View.cover_of_tiled [⟨r2_2, p0⟩] S16000x128.size (by rfl) y

/-! ## The body's triple -/

set_option maxHeartbeats 1000000 in
/-- The kernel body on whole staging memrefs, the two inputs' at read contents `x0`, `x1` and the output's at anything,
    runs to the continuation holding the inputs' as they were and the output's at `out2_2 x0 x1`: the two loads, the
    load of the output buffer (its value is not used), then the one store over the whole buffer. -/
theorem sound_kernel2 (c : Dev nD) (E : Set ℕ) (i : grid2.Coords) (arg1 : Memref sig .tc .vmem S16000x4 .f32) (harg1 : arg1.IsWhole) (arg2 : Memref sig .tc .vmem S4x128 .f32) (harg2 : arg2.IsWhole) (arg3 : Memref sig .tc .vmem S16000x128 .f32) (harg3 : arg3.IsWhole)
    (x0 : Vec F S16000x4 .f32) (x1 : Vec F S4x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__plain_matmul_kernel i arg1 harg1 arg2 harg2 arg3 harg3) K := by
  simp only [cc2__plain_matmul_kernel_eq_skeleton]; unfold cc2__plain_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them (`V`); after the body at point
    `t` each input's buffer still at its block and the output's at `out2_2` of the two input blocks; the invariant is
    the rest of the core's scoped memory and its generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, copied in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3: the node transform of the second layer, one block of 2000 nodes per grid point — the block's rows
  times the whole 256 x 128 weight, plus the bias row, plus the block of the edge aggregate, clipped below at zero.
  What each point leaves in the output window's buffer, the body's triple, and the pipeline's proof data at the
  contents V the region is entered with.
-/
import proofs.«413272_j14783277433402_2_alg».proof.Proof.Gen.Kernel.Launch
import proofs.«413272_j14783277433402_2_alg».proof.Proof.Gen.Kernel.Skeleton
import proofs.«413272_j14783277433402_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): a point that does not
    fetch the window has the block index of the point before it, so the buffer still holds this point's block. The
    window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): a point that does not
    fetch the window has the block index of the point before it, so the buffer still holds this point's block. The
    window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): a point that does not
    fetch the window has the block index of the point before it, so the buffer still holds this point's block. The
    window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): a point that does not
    fetch the window has the block index of the point before it, so the buffer still holds this point's block. The
    window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read, and the output's written, through its whole extent -/

abbrev r3_0 : Rect S2000x256 := Rect.unit (s := S2000x256) ![0, 0] S2000x256.size inb_S2000x256_S2000x256_0_0
abbrev r3_1 : Rect S256x128 := Rect.unit (s := S256x128) ![0, 0] S256x128.size inb_S256x128_S256x128_0_0
abbrev r3_2 : Rect S1x128 := Rect.unit (s := S1x128) ![0, 0] S1x128.size inb_S1x128_S1x128_0_0
abbrev r3_3 : Rect S2000x128 := Rect.unit (s := S2000x128) ![0, 0] S2000x128.size inb_S2000x128_S2000x128_0_0

/-! ## What the body leaves in the output window's buffer -/

/-- Window 4's staging buffer after the body, from the input windows' blocks: its one store, through the whole
    extent, of the clipped sum computed from the four blocks as loaded. -/
def out3_4 (x0 : Vec F S2000x256 .f32) (x1 : Vec F S256x128 .f32) (x2 : Vec F S1x128 .f32) (x3 : Vec F S2000x128 .f32) : Vec F S2000x128 .f32 :=
  View.canon [⟨r3_3, k3_pay1 (View.ld x0 r3_0) (View.ld x1 r3_1) (View.ld x2 r3_2) (View.ld x3 r3_3)⟩]

/-- The store's rectangle is the whole buffer, so it covers it. -/
theorem cover3_4 (p0 : Vec F S2000x128 .f32) (y : S2000x128.Idx) :
    ∃ pc ∈ ([⟨r3_3, p0⟩] : List (View.Piece (Elt F) S2000x128 .f32)), y ∈ pc.1.set :=
  View.cover_of_tiled [⟨r3_3, p0⟩] S2000x128.size (by rfl) y

/-! ## The body's triple -/

set_option maxHeartbeats 1000000 in
/-- The kernel body on whole staging memrefs, the inputs' at read contents `xW` and the output's at anything, runs to
    the continuation holding the inputs' as they were and the output's at `out3_4` of the inputs'. The body reads the
    output's buffer once before it writes it; the value read is not used. -/
theorem sound_kernel3 (c : Dev nD) (E : Set ℕ) (i : grid3.Coords)
    (arg0 : Memref sig .tc .vmem S2000x256 .f32) (harg0 : arg0.IsWhole) (arg1 : Memref sig .tc .vmem S256x128 .f32) (harg1 : arg1.IsWhole)
    (arg2 : Memref sig .tc .vmem S1x128 .f32) (harg2 : arg2.IsWhole) (arg3 : Memref sig .tc .vmem S2000x128 .f32) (harg3 : arg3.IsWhole)
    (arg4 : Memref sig .tc .vmem S2000x128 .f32) (harg4 : arg4.IsWhole)
    (x0 : Vec F S2000x256 .f32) (x1 : Vec F S256x128 .f32) (x2 : Vec F S1x128 .f32) (x3 : Vec F S2000x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__node_kernel i arg0 harg0 arg1 harg1 arg2 harg2 arg3 harg3 arg4 harg4) K := by
  simp only [cc3__node_kernel_eq_skeleton]; unfold cc3__node_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the region's pipeline on core `c`: the arrays as the region finds them (`V`); after the body at
    point `t` each input's buffer at its block and the output's at `out3_4` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4: the mean pool's sums as a product with the one-hot matrix, accumulated over 25 blocks of 2000 nodes in a
  scratch block that is zeroed at the first point and copied to the output at the last. What each point leaves in
  the scratch and in the output window's buffer, the body's triple case by case, and the pipeline's proof data at
  the contents V the region is entered with.
-/
import proofs.«413272_j14783277433402_2_alg».proof.Proof.Gen.Kernel.Launch
import proofs.«413272_j14783277433402_2_alg».proof.Proof.Gen.Kernel.Skeleton
import proofs.«413272_j14783277433402_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The one-hot window's current staging buffer holds its block at every point, for any proof data whose array is
    `V`'s and whose body leaves the block in place: an input window, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same of the feature window. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional (the zeroing of the scratch), from the grid coordinate. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The condition of the body's second conditional (the copy of the scratch to the output block). -/
abbrev cond4_1 (i : grid4.Coords) : Prop := k4_cond2 i = 1#1
/-- It holds at the last point only. -/
theorem hcond4_1 : ∀ t : Fin cfg4.N, cond4_1 (grid4.coords t) ↔ t.val = 24 :=
  (by decide +kernel : ∀ t : Fin grid4.N, cond4_1 (grid4.coords t) ↔ t.val = 24)

/-! ## Where the windows are idle -/

/-- The two input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Off the last point the output window is idle: the body stores nothing into its buffer there, -/
theorem idleAt4_2 : ∀ t : Fin cfg4.N, ¬cond4_1 (grid4.coords t) → cfg4.idle 2 (grid4.coords t) = true := by decide +kernel
/-- and the pipeline does not write its block back. -/
theorem noFlush4_2 : ∀ t : Fin cfg4.N, ¬cond4_1 (grid4.coords t) → (cfg4.win 2).flush t = false := by decide +kernel
/-- At the last point it is live: the body copies the scratch into it. -/
theorem liveAt4_2 : ∀ t : Fin cfg4.N, cond4_1 (grid4.coords t) → cfg4.idle 2 (grid4.coords t) = false := by decide +kernel

/-! ## The scratch block and the region's invariant -/

/-- The scratch operand: a whole scoped block of the kernel's own, passed beside the windows. -/
abbrev scM4_0 : Memref sig .tc .vmem S64x128 .f32 := Memref.whole cc4_scratch0

/-- The region's invariant with the scratch block as a memref owned at some contents, the other scoped blocks
    unopened, and the generator register at some state. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-! ## The body's accesses -/

abbrev r4_0 : Rect S2000x64 := Rect.unit (s := S2000x64) ![0, 0] S2000x64.size inb_S2000x64_S2000x64_0_0
abbrev r4_1 : Rect S2000x128 := Rect.unit (s := S2000x128) ![0, 0] S2000x128.size inb_S2000x128_S2000x128_0_0
abbrev r4_2 : Rect S64x128 := Rect.unit (s := S64x128) ![0, 0] S64x128.size inb_S64x128_S64x128_0_0

/-- The two zero offsets, as the constant function. -/
theorem hz4 : (![0, 0] : Fin 2 → Nat) = fun _ => 0 := funext fun a => by fin_cases a <;> rfl

/-- One store through the whole block covers it, -/
theorem cover4_1 (p : Vec F S64x128 .f32) (y : S64x128.Idx) :
    ∃ pc ∈ ([⟨r4_2, p⟩] : List (View.Piece (Elt F) S64x128 .f32)), y ∈ pc.1.set :=
  ⟨_, List.mem_singleton_self _, View.mem_set_unit_zero hz4 inb_S64x128_S64x128_0_0 y⟩

/-- and so do two, the later over the earlier. -/
theorem cover4_2 (p q : Vec F S64x128 .f32) (y : S64x128.Idx) :
    ∃ pc ∈ ([⟨r4_2, p⟩, ⟨r4_2, q⟩] : List (View.Piece (Elt F) S64x128 .f32)), y ∈ pc.1.set :=
  ⟨_, List.mem_cons_self, View.mem_set_unit_zero hz4 inb_S64x128_S64x128_0_0 y⟩

/-! ## The body's triple, case by case

On whole memrefs — the two input blocks at read contents `x0`, `x1` — the body runs to the continuation holding the
inputs as they were and the scratch at `k4_pay2 x0 x1 s`, where `s` is what the scratch held when the accumulation
read it: the zero block `k4_pay1` at the first point (the body has just stored it), else what the point before left.
The output block's buffer is handed back untouched except at the last point, where the scratch is copied into it. -/

set_option maxHeartbeats 1000000 in
/-- The first point: the zero block is stored into the scratch, read back, and the product of the transposed one-hot
    block with the feature block is added to it. -/
theorem sound_kernel4_A (c : Dev nD) (E : Set ℕ) (i : grid4.Coords) (arg1 : Memref sig .tc .vmem S2000x64 .f32) (harg1 : arg1.IsWhole) (arg2 : Memref sig .tc .vmem S2000x128 .f32) (harg2 : arg2.IsWhole) (arg3 : Memref sig .tc .vmem S64x128 .f32) (harg3 : arg3.IsWhole) (arg4 : Memref sig .tc .vmem S64x128 .f32) (harg4 : arg4.IsWhole)
    (hc0 : cond4_0 i) (hc1 : ¬cond4_1 i)
    (x0 : Vec F S2000x64 .f32) (x1 : Vec F S2000x128 .f32) (xi2 : Vec F S64x128 .f32) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d)
        ∗ (iprop(owns (c : Thread nD τ) arg1 fullShare x0 ∗ owns (c : Thread nD τ) arg2 fullShare x1 ∗ owns (c : Thread nD τ) arg3 fullShare xi2 ∗ owns (c : Thread nD τ) arg4 fullShare (k4_pay2 x0 x1 (k4_pay1 (F := F)))) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (cover4_2 _ _), View.canon_cons_unit_zero hz4, View.readCov_unit_zero _ hz4]
  simp only [View.readAt_eq_ld, View.ld_unit_zero (S := S2000x64) hz4, View.ld_unit_zero (S := S2000x128) hz4]

set_option maxHeartbeats 1000000 in
/-- A point strictly between the first and the last: the product is added to what the point before left. -/
theorem sound_kernel4_B (c : Dev nD) (E : Set ℕ) (i : grid4.Coords) (arg1 : Memref sig .tc .vmem S2000x64 .f32) (harg1 : arg1.IsWhole) (arg2 : Memref sig .tc .vmem S2000x128 .f32) (harg2 : arg2.IsWhole) (arg3 : Memref sig .tc .vmem S64x128 .f32) (harg3 : arg3.IsWhole) (arg4 : Memref sig .tc .vmem S64x128 .f32) (harg4 : arg4.IsWhole)
    (hc0 : ¬cond4_0 i) (hc1 : ¬cond4_1 i)
    (x0 : Vec F S2000x64 .f32) (x1 : Vec F S2000x128 .f32) (xi2 : Vec F S64x128 .f32) (xs : Vec F S64x128 .f32) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xs
        ∗ (iprop(owns (c : Thread nD τ) arg1 fullShare x0 ∗ owns (c : Thread nD τ) arg2 fullShare x1 ∗ owns (c : Thread nD τ) arg3 fullShare xi2 ∗ owns (c : Thread nD τ) arg4 fullShare (k4_pay2 x0 x1 xs)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover4_1 _), View.canon_unit_zero hz4]
  simp only [View.readAt_eq_ld, View.ld_unit_zero (S := S2000x64) hz4, View.ld_unit_zero (S := S2000x128) hz4, View.ld_unit_zero (S := S64x128) hz4]

set_option maxHeartbeats 1000000 in
/-- The last point: the product is added to what the point before left, and the scratch is copied to the output block's buffer. -/
theorem sound_kernel4_C (c : Dev nD) (E : Set ℕ) (i : grid4.Coords) (arg1 : Memref sig .tc .vmem S2000x64 .f32) (harg1 : arg1.IsWhole) (arg2 : Memref sig .tc .vmem S2000x128 .f32) (harg2 : arg2.IsWhole) (arg3 : Memref sig .tc .vmem S64x128 .f32) (harg3 : arg3.IsWhole) (arg4 : Memref sig .tc .vmem S64x128 .f32) (harg4 : arg4.IsWhole)
    (hc0 : ¬cond4_0 i) (hc1 : cond4_1 i)
    (x0 : Vec F S2000x64 .f32) (x1 : Vec F S2000x128 .f32) (xs : Vec F S64x128 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k4_pay2 x0 x1 xs) ∗ owns (c : Thread nD τ) arg4 fullShare (k4_pay2 x0 x1 xs)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover4_1 _), View.canon_unit_zero hz4, View.readCov_unit_zero _ hz4]
    simp only [View.readAt_eq_ld, View.ld_unit_zero (S := S2000x64) hz4, View.ld_unit_zero (S := S2000x128) hz4, View.ld_unit_zero (S := S64x128) hz4]
  iexists _; isplitr
  swap; · iexact HS
  ipureintro
  sl_unfold_words
  rw [View.read_writes_eq_canon _ _ _ (cover4_1 _), View.canon_unit_zero hz4]
  simp only [View.readAt_eq_ld, View.ld_unit_zero (S := S2000x64) hz4, View.ld_unit_zero (S := S2000x128) hz4, View.ld_unit_zero (S := S64x128) hz4]

/-! ## What each point leaves in the scratch -/

/-- THE ACCUMULATION. What the scratch holds after the body at position `n`: at the first point the product of the
    transposed one-hot block with the feature block added to the zero block; afterwards that point's product added
    to what the point before left. -/
def accAt4 (c : Dev nD) : (n : ℕ) → n < cfg4.N → Vec F S64x128 .f32
  | 0, h => k4_pay2 (iblk4 V c 0 ⟨0, h⟩) (iblk4 V c 1 ⟨0, h⟩) (k4_pay1 (F := F))
  | n + 1, h => k4_pay2 (iblk4 V c 0 ⟨n + 1, h⟩) (iblk4 V c 1 ⟨n + 1, h⟩) (accAt4 c n (Nat.lt_of_succ_lt h))

theorem accAt4_zero (c : Dev nD) (h : 0 < cfg4.N) :
    accAt4 V c 0 h = k4_pay2 (iblk4 V c 0 ⟨0, h⟩) (iblk4 V c 1 ⟨0, h⟩) (k4_pay1 (F := F)) := rfl

theorem accAt4_succ (c : Dev nD) (n : ℕ) (h : n + 1 < cfg4.N) :
    accAt4 V c (n + 1) h = k4_pay2 (iblk4 V c 0 ⟨n + 1, h⟩) (iblk4 V c 1 ⟨n + 1, h⟩) (accAt4 V c n (Nat.lt_of_succ_lt h)) := rfl

/-- The same two equations at a point of the grid: the first point, -/
theorem accAt4_first (c : Dev nD) (t : Fin cfg4.N) (h0 : t.val = 0) :
    accAt4 V c t.val t.isLt = k4_pay2 (iblk4 V c 0 t) (iblk4 V c 1 t) (k4_pay1 (F := F)) := by
  obtain ⟨n, hn⟩ := t
  cases n with
  | zero => rfl
  | succ n => exact absurd h0 (Nat.succ_ne_zero n)

/-- and a later one, over what the point before left. -/
theorem accAt4_next (c : Dev nD) (t : Fin cfg4.N) (h0 : t.val ≠ 0) :
    accAt4 V c t.val t.isLt = k4_pay2 (iblk4 V c 0 t) (iblk4 V c 1 t) (accAt4 V c (t.val - 1) (Nat.lt_of_le_of_lt (Nat.sub_le _ _) t.isLt)) := by
  obtain ⟨n, hn⟩ := t
  cases n with
  | zero => exact absurd rfl h0
  | succ n => rfl

/-! ## The invariant from point to point -/

/-- The region's invariant before position `n`: before the first point the class's (the scratch at anything);
    afterwards the scratch owned at what the point before left in it, the other scoped blocks unopened, and the
    generator register at some state. -/
def PhiS4 (c : Dev nD) : (n : ℕ) → n ≤ cfg4.N → sProp 𝕄
  | 0, _ => Pipeline.ΦA spec4 c
  | n + 1, hn => iprop(iprop(owns (c : Thread nD τ) scM4_0 fullShare (accAt4 V c n hn)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the scratch at that point's contents. -/
theorem PhiS4_succ (c : Dev nD) (n : ℕ) (hn : n < cfg4.N) :
    PhiS4 V c (n + 1) hn = iprop(iprop(owns (c : Thread nD τ) scM4_0 fullShare (accAt4 V c n hn)
      ∗ Pipeline.scopedRestBut (Ix := Unit) (Name := ℕ) (U := UR sig nD τ) (Lvl := ℕ) (Val := Elt F) spec4 c [cc4_scratch0]) ∗ (∃ r, prngReg c r)) := rfl

/-- Before a point that is not the first: the scratch at what the point before left. -/
theorem PhiS4_pos (c : Dev nD) (n : ℕ) (h : n ≤ cfg4.N) (hz : n ≠ 0) :
    PhiS4 V c n h = iprop(iprop(owns (c : Thread nD τ) scM4_0 fullShare (accAt4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of the pooling pipeline on core `c`: the arrays as the region finds them (`V`); after the body at
    point `t` each input's buffer at its block and the output's at the scratch's contents there (what the last point
    copies into it; at the other points, where the window is idle, a value nothing reads); the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt4 V c t.val t.isLt
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accAt4 V c t.val t.isLt := by dsimp only [dat4]
/-- At the last point the output block's buffer holds the whole accumulation. -/
theorem after4_2_last (c : Dev nD) (t : Fin cfg4.N) (ht : t.val = 24) : (dat4 V c).after 2 t = accAt4 V c t.val t.isLt :=
  after4_2 V c t

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the point's position says which case it is in. The
    invariant hands the body the scratch — at anything at the first point, else at what the point before left — and
    takes it back at this point's contents; the other scoped blocks, the generator register and what the core owes
    pass through unread. Off the last point the output block's buffer is handed back as found; at the last it holds
    the accumulation. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  by_cases h0 : t.val = 0
  · have h1 : ¬t.val = 24 := by omega
    rw [Dat.leavesExact_idle (dat4 V c) 2 t (idleAt4_2 t (fun h => h1 ((hcond4_1 t).mp h))) (noFlush4_2 t (fun h => h1 ((hcond4_1 t).mp h)))]
    rw [accAt4_first V c t h0]
    rw [PhiS4_castSucc V c t, PhiS4_zero V c _ _ h0, PhiA4_eq]
    iintro ⟨⟨⟨HS, HR⟩, Hg⟩, Ho, ⟨%d0, H0⟩, ⟨%d1, H1⟩, ⟨%d2, H2⟩⟩
    iapply (sound_kernel4_A c Set.univ (grid4.coords t) _ _ _ _ _ _ _ _ ((hcond4_0 t).mpr h0) (fun h => h1 ((hcond4_1 t).mp h)) (iblk4 V c 0 t) (iblk4 V c 1 t) ((dat4 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h1 : t.val = 24
    · rw [show (dat4 V c).leavesExact 2 t = owns (c : Thread nD τ) (st4_2 t) fullShare ((dat4 V c).after 2 t) from by
        unfold Dat.leavesExact; rw [liveAt4_2 t ((hcond4_1 t).mpr h1)], after4_2]
      rw [accAt4_next V c t h0]
      rw [PhiS4_castSucc V c t, PhiS4_pos V c _ _ h0]
      iintro ⟨⟨⟨HS, HR⟩, Hg⟩, Ho, ⟨%d0, H0⟩, ⟨%d1, H1⟩, ⟨%d2, H2⟩⟩
      iapply (sound_kernel4_C c Set.univ (grid4.coords t) _ _ _ _ _ _ _ _ (fun h => h0 ((hcond4_0 t).mp h)) ((hcond4_1 t).mpr h1) (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat4 V c) 2 t (idleAt4_2 t (fun h => h1 ((hcond4_1 t).mp h))) (noFlush4_2 t (fun h => h1 ((hcond4_1 t).mp h)))]
      rw [accAt4_next V c t h0]
      rw [PhiS4_castSucc V c t, PhiS4_pos V c _ _ h0]
      iintro ⟨⟨⟨HS, HR⟩, Hg⟩, Ho, ⟨%d0, H0⟩, ⟨%d1, H1⟩, ⟨%d2, H2⟩⟩
      iapply (sound_kernel4_B c Set.univ (grid4.coords t) _ _ _ _ _ _ _ _ (fun h => h0 ((hcond4_0 t).mp h)) (fun h => h1 ((hcond4_1 t).mp h)) (iblk4 V c 0 t) (iblk4 V c 1 t) ((dat4 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 (F := F) V c).Φ 0 := by
  rw [show (dat4 V c).Φ 0 = PhiS4 V c 0 (Nat.zero_le _) from rfl, PhiS4_zero V c 0 _ rfl]
  try exact Idealize.SL.BI.Entails.refl _

/-- After any point but the first the invariant gives the class's back: the scratch's named contents are forgotten. -/
theorem Phi_out4 (c : Dev nD) (t : Fin (cfg4.N + 1)) (ht : t.val ≠ 0) : (dat4 (F := F) V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, HR⟩, Hg⟩
  isplitl [HS HR]
  · isplitl [HS]
    · iexists _; iexact HS
    iexact HR
  iexact Hg

/-- The same after the last point. -/
theorem hout4 (c : Dev nD) : (dat4 (F := F) V c).Φ (Fin.last cfg4.N) ⊢ Pipeline.ΦA spec4 c :=
  Phi_out4 V c _ (by rw [Fin.val_last]; have : cfg4.N = 25 := N_4; omega)

end Cert.Kernel.Hand

end
-- ==== Proof.K.Run.lean ====
/-
  The whole program's run. @main is fourteen items in order — stretches of host operations and the five kernel
  regions — and the contents of the TensorCore's buffers between two items are a fold from the launch memory: a host
  stretch applies its operations; a region leaves its input arrays as it found them and its output array at what its
  write-backs leave, every other buffer untouched. Every weakly fair execution of @main terminates, without a fault,
  with every unscoped buffer at the fold's last level; the argument arrays are written by no item, so they end as
  launched.
-/
import proofs.«413272_j14783277433402_2_alg».proof.Proof.K.Reg0
import proofs.«413272_j14783277433402_2_alg».proof.Proof.K.Reg1
import proofs.«413272_j14783277433402_2_alg».proof.Proof.K.Reg2
import proofs.«413272_j14783277433402_2_alg».proof.Proof.K.Reg3
import proofs.«413272_j14783277433402_2_alg».proof.Proof.K.Reg4
import proofs.«413272_j14783277433402_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between two items: a fold through @main -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- A buffer the stretch does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m ρ c)
/-- A buffer the stretch does not write keeps its contents. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m ρ c)
/-- A buffer the stretch does not write keeps its contents. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- Level 3 read at the TensorCore's references. -/
abbrev V3 : (c : Dev nD) → (b : Ref sig .tc) → Buf (Elt F) ((c : Thread nD τ).loc b) := fun c b => W3 m ρ c b
/-- After region 0: its arrays at what the pipeline leaves (an input as entered, the output's write-backs folded), every
    other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
/-- A buffer that is no array of the region keeps its contents. -/
theorem W4_of (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- Level 4 read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
/-- A buffer the stretch does not write keeps its contents. -/
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
/-- Level 5 read at the TensorCore's references. -/
abbrev V5 : (c : Dev nD) → (b : Ref sig .tc) → Buf (Elt F) ((c : Thread nD τ).loc b) := fun c b => W5 m ρ c b
/-- After region 1: its arrays at what the pipeline leaves (an input as entered, the output's write-backs folded), every
    other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
/-- A buffer that is no array of the region keeps its contents. -/
theorem W6_of (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- Level 6 read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of m ρ c b fun w e => hb (Finset.mem_image.mpr ⟨w, Finset.mem_univ _, e⟩)
/-- After the host stretch `hostOps2`. -/
abbrev W7 : Dev nD → Valuation τ sig (Elt F) := fun c => StableHlo.after hostOps2 (W6 m ρ c)
/-- A buffer the stretch does not write keeps its contents. -/
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
/-- Level 7 read at the TensorCore's references. -/
abbrev V7 : (c : Dev nD) → (b : Ref sig .tc) → Buf (Elt F) ((c : Thread nD τ).loc b) := fun c b => W7 m ρ c b
/-- After region 2: its arrays at what the pipeline leaves (an input as entered, the output's write-backs folded), every
    other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
/-- A buffer that is no array of the region keeps its contents. -/
theorem W8_of (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- Level 8 read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of m ρ c b fun w e => hb (Finset.mem_image.mpr ⟨w, Finset.mem_univ _, e⟩)
/-- After the host stretch `hostOps3`. -/
abbrev W9 : Dev nD → Valuation τ sig (Elt F) := fun c => StableHlo.after hostOps3 (W8 m ρ c)
/-- A buffer the stretch does not write keeps its contents. -/
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h
/-- Level 9 read at the TensorCore's references. -/
abbrev V9 : (c : Dev nD) → (b : Ref sig .tc) → Buf (Elt F) ((c : Thread nD τ).loc b) := fun c b => W9 m ρ c b
/-- After region 3: its arrays at what the pipeline leaves (an input as entered, the output's write-backs folded), every
    other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
/-- A buffer that is no array of the region keeps its contents. -/
theorem W10_of (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- Level 10 read at the TensorCore's references. -/
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of m ρ c b fun w e => hb (Finset.mem_image.mpr ⟨w, Finset.mem_univ _, e⟩)
/-- After the host stretch `hostOps4`. -/
abbrev W11 : Dev nD → Valuation τ sig (Elt F) := fun c => StableHlo.after hostOps4 (W10 m ρ c)
/-- A buffer the stretch does not write keeps its contents. -/
theorem W11_of (c : Dev nD) (r : Ref sig .tc) (h : r ∉ hostOps4_W) :
    W11 m ρ c (Proc.devRef .tc r) = W10 m ρ c (Proc.devRef .tc r) :=
  StableHlo.after_of_writes_sub hostOps4 _ hostOps4_writes h
/-- Level 11 read at the TensorCore's references. -/
abbrev V11 : (c : Dev nD) → (b : Ref sig .tc) → Buf (Elt F) ((c : Thread nD τ).loc b) := fun c b => W11 m ρ c b
/-- After region 4: its arrays at what the pipeline leaves (an input as entered, the output's write-backs folded), every
    other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
/-- A buffer that is no array of the region keeps its contents. -/
theorem W12_of (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
/-- Level 12 read at the TensorCore's references. -/
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of m ρ c b fun w e => hb (Finset.mem_image.mpr ⟨w, Finset.mem_univ _, e⟩)
/-- After the host stretch `hostOps5`. -/
abbrev W13 : Dev nD → Valuation τ sig (Elt F) := fun c => StableHlo.after hostOps5 (W12 m ρ c)
/-- A buffer the stretch does not write keeps its contents. -/
theorem W13_of (c : Dev nD) (r : Ref sig .tc) (h : r ∉ hostOps5_W) :
    W13 m ρ c (Proc.devRef .tc r) = W12 m ρ c (Proc.devRef .tc r) :=
  StableHlo.after_of_writes_sub hostOps5 _ hostOps5_writes h
/-- After the host stretch `hostOps5_1`. -/
abbrev W14 : Dev nD → Valuation τ sig (Elt F) := fun c => StableHlo.after hostOps5_1 (W13 m ρ c)
/-- A buffer the stretch does not write keeps its contents. -/
theorem W14_of (c : Dev nD) (r : Ref sig .tc) (h : r ∉ hostOps5_1_W) :
    W14 m ρ c (Proc.devRef .tc r) = W13 m ρ c (Proc.devRef .tc r) :=
  StableHlo.after_of_writes_sub hostOps5_1 _ hostOps5_1_writes h

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last level, the generator register at some state. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 over the thread state: entered from every unscoped buffer at level 3, left at level 4. Its arrays are
    split out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at level 5, left at level 6. Its arrays are
    split out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at level 7, left at level 8. Its arrays are
    split out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at level 9, left at level 10. Its arrays are
    split out of the unscoped buffers and put back at the exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at level 11, left at level 12. Its arrays are
    split out of the unscoped buffers and put back at the exit contents; the generator register goes into the region's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V11 m ρ) c
    unfold Pipeline.ΦA at h
    rw [show (pdats m ρ 4 c).Φ 0 = (dat4 (V11 m ρ) c).Φ 0 from rfl]
    iintro ⟨Hp, -, Hr⟩
    iapply h
    isplitl [Hr]; · iexact Hr
    iexact Hp
  hout c := by
    rw [Pipeline.ownSems0_none]
    have h := hout4 (V11 m ρ) c
    unfold Pipeline.ΦA at h
    rw [show (pdats m ρ 4 c).Φ (Fin.last _) = (dat4 (V11 m ρ) c).Φ (Fin.last cfg4.N) from rfl]
    iintro Hq
    ihave H := h $$ Hq
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's fourteen segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .host (hseg hostOps5_1 hostOps5_1_sub hostOps5_1_fresh (W13 m ρ)) ]

/-- @main is the run of the segments: the chain of its items is the chain of the segments' fragments. -/
theorem main_run (c : Dev nD) : main (F := F) c = Pipeline.Seg.run (segs m ρ) := by
  rw [main_chain c, Pipeline.Seg.run_eq_chain]; rfl

set_option backward.isDefEq.respectTransparency.types false in
/-- THE RUN: from any memory with zero counters, every weakly fair execution of @main on the TensorCores terminates,
    nothing faulting, and every final state has every unscoped buffer at the fold's last level. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W14 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-! ## The arguments end as launched -/

/-- A buffer no host stretch writes and no region has among its arrays keeps its launch contents to the end. -/
theorem W14_kept (c : Dev nD) (r : Ref sig .tc)
    (h1 : r ∉ hostOps0_W) (h2 : r ∉ hostOps0_1_W) (h3 : r ∉ hostOps0_2_W) (h4 : ∀ w, Pipeline.arrRef spec0 w ≠ r)
    (h5 : r ∉ hostOps1_W) (h6 : ∀ w, Pipeline.arrRef spec1 w ≠ r) (h7 : r ∉ hostOps2_W) (h8 : ∀ w, Pipeline.arrRef spec2 w ≠ r)
    (h9 : r ∉ hostOps3_W) (h10 : ∀ w, Pipeline.arrRef spec3 w ≠ r) (h11 : r ∉ hostOps4_W) (h12 : ∀ w, Pipeline.arrRef spec4 w ≠ r)
    (h13 : r ∉ hostOps5_W) (h14 : r ∉ hostOps5_1_W) :
    W14 m ρ c (Proc.devRef .tc r) = m ((c : Thread nD τ).loc r) :=
  (W14_of m ρ c r h14).trans <| (W13_of m ρ c r h13).trans <| (W12_of m ρ c r h12).trans <| (W11_of m ρ c r h11).trans <|
    (W10_of m ρ c r h10).trans <| (W9_of m ρ c r h9).trans <| (W8_of m ρ c r h8).trans <| (W7_of m ρ c r h7).trans <|
    (W6_of m ρ c r h6).trans <| (W5_of m ρ c r h5).trans <| (W4_of m ρ c r h4).trans <| (W3_of m ρ c r h3).trans <|
    (W2_of m ρ c r h2).trans <| (W1_of m ρ c r h1).trans rfl
theorem W14_main_arg0 (c : Dev nD) : W14 m ρ c (Proc.devRef .tc main_arg0) = m ((c : Thread nD τ).loc main_arg0) :=
  W14_kept m ρ c main_arg0 (by decide) (by decide) (by decide) (by decide) (by decide) (by decide) (by decide) (by decide) (by decide) (by decide) (by decide) (by decide) (by decide) (by decide)
theorem W14_main_arg2 (c : Dev nD) : W14 m ρ c (Proc.devRef .tc main_arg2) = m ((c : Thread nD τ).loc main_arg2) :=
  W14_kept m ρ c main_arg2 (by decide) (by decide) (by decide) (by decide) (by decide) (by decide) (by decide) (by decide) (by decide) (by decide) (by decide) (by decide) (by decide) (by decide)
theorem W14_main_arg3 (c : Dev nD) : W14 m ρ c (Proc.devRef .tc main_arg3) = m ((c : Thread nD τ).loc main_arg3) :=
  W14_kept m ρ c main_arg3 (by decide) (by decide) (by decide) (by decide) (by decide) (by decide) (by decide) (by decide) (by decide) (by decide) (by decide) (by decide) (by decide) (by decide)
theorem W14_main_arg4 (c : Dev nD) : W14 m ρ c (Proc.devRef .tc main_arg4) = m ((c : Thread nD τ).loc main_arg4) :=
  W14_kept m ρ c main_arg4 (by decide) (by decide) (by decide) (by decide) (by decide) (by decide) (by decide) (by decide) (by decide) (by decide) (by decide) (by decide) (by decide) (by decide)
theorem W14_main_arg5 (c : Dev nD) : W14 m ρ c (Proc.devRef .tc main_arg5) = m ((c : Thread nD τ).loc main_arg5) :=
  W14_kept m ρ c main_arg5 (by decide) (by decide) (by decide) (by decide) (by decide) (by decide) (by decide) (by decide) (by decide) (by decide) (by decide) (by decide) (by decide) (by decide)
theorem W14_main_arg6 (c : Dev nD) : W14 m ρ c (Proc.devRef .tc main_arg6) = m ((c : Thread nD τ).loc main_arg6) :=
  W14_kept m ρ c main_arg6 (by decide) (by decide) (by decide) (by decide) (by decide) (by decide) (by decide) (by decide) (by decide) (by decide) (by decide) (by decide) (by decide) (by decide)
theorem W14_main_arg7 (c : Dev nD) : W14 m ρ c (Proc.devRef .tc main_arg7) = m ((c : Thread nD τ).loc main_arg7) :=
  W14_kept m ρ c main_arg7 (by decide) (by decide) (by decide) (by decide) (by decide) (by decide) (by decide) (by decide) (by decide) (by decide) (by decide) (by decide) (by decide) (by decide)
theorem W14_main_arg8 (c : Dev nD) : W14 m ρ c (Proc.devRef .tc main_arg8) = m ((c : Thread nD τ).loc main_arg8) :=
  W14_kept m ρ c main_arg8 (by decide) (by decide) (by decide) (by decide) (by decide) (by decide) (by decide) (by decide) (by decide) (by decide) (by decide) (by decide) (by decide) (by decide)
theorem W14_main_arg9 (c : Dev nD) : W14 m ρ c (Proc.devRef .tc main_arg9) = m ((c : Thread nD τ).loc main_arg9) :=
  W14_kept m ρ c main_arg9 (by decide) (by decide) (by decide) (by decide) (by decide) (by decide) (by decide) (by decide) (by decide) (by decide) (by decide) (by decide) (by decide) (by decide)
theorem W14_main_arg10 (c : Dev nD) : W14 m ρ c (Proc.devRef .tc main_arg10) = m ((c : Thread nD τ).loc main_arg10) :=
  W14_kept m ρ c main_arg10 (by decide) (by decide) (by decide) (by decide) (by decide) (by decide) (by decide) (by decide) (by decide) (by decide) (by decide) (by decide) (by decide) (by decide)
theorem W14_main_arg11 (c : Dev nD) : W14 m ρ c (Proc.devRef .tc main_arg11) = m ((c : Thread nD τ).loc main_arg11) :=
  W14_kept m ρ c main_arg11 (by decide) (by decide) (by decide) (by decide) (by decide) (by decide) (by decide) (by decide) (by decide) (by decide) (by decide) (by decide) (by decide) (by decide)
/-- The edge attributes are an input window's array of regions 0 and 2: an input array leaves a region as it entered. -/
theorem W14_main_arg1 (c : Dev nD) : W14 m ρ c (Proc.devRef .tc main_arg1) = m ((c : Thread nD τ).loc main_arg1) :=
  (W14_of m ρ c main_arg1 (by decide)).trans <| (W13_of m ρ c main_arg1 (by decide)).trans <| (W12_of m ρ c main_arg1 (by decide)).trans <|
    (W11_of m ρ c main_arg1 (by decide)).trans <| (W10_of m ρ c main_arg1 (by decide)).trans <| (W9_of m ρ c main_arg1 (by decide)).trans <|
    ((W8_arr m ρ c 0).trans (((dat2 (V7 m ρ) c).arrAt_in 0 rfl _).trans (A_eq2 (V7 m ρ) c 0))).trans <|
    (W7_of m ρ c main_arg1 (by decide)).trans <| (W6_of m ρ c main_arg1 (by decide)).trans <| (W5_of m ρ c main_arg1 (by decide)).trans <|
    ((W4_arr m ρ c 0).trans (((dat0 (V3 m ρ) c).arrAt_in 0 rfl _).trans (A_eq0 (V3 m ρ) c 0))).trans <|
    (W3_of m ρ c main_arg1 (by decide)).trans <| (W2_of m ρ c main_arg1 (by decide)).trans <| (W1_of m ρ c main_arg1 (by decide)).trans rfl

/-! ## The frame -/

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c)⟩) (run_all m ρ)

end Cert.Kernel.Hand

end
-- ==== Proof.KI.Reg0.lean ====
/-
  Region 0: the edge transform, one block of 16000 edges per grid point — the block's rows times the whole
  4 x 128 weight. What each point leaves in the output window's buffer, the body's triple, and the pipeline's
  proof data at the contents V the region is entered with.
-/
import proofs.«413272_j14783277433402_2_alg».proof.Proof.Gen.KernelIdeal.Launch
import proofs.«413272_j14783277433402_2_alg».proof.Proof.Gen.KernelIdeal.Skeleton
import proofs.«413272_j14783277433402_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows and columns of its array, as the region finds it, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The edge block's buffer holds the block of point `t` when the body runs there, for any proof data over the
    entry contents whose body leaves that buffer as it found it: the window is an input, never idle, never cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's buffer holds the whole weight at every point, although it is copied in at the first point only:
    its block index never moves, so what an unfetched point finds is the previous point's block, which is its own. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S16000x4 := Rect.unit (s := S16000x4) ![0, 0] S16000x4.size inb_S16000x4_S16000x4_0_0
abbrev r0_1 : Rect S4x128 := Rect.unit (s := S4x128) ![0, 0] S4x128.size inb_S4x128_S4x128_0_0
abbrev r0_2 : Rect S16000x128 := Rect.unit (s := S16000x128) ![0, 0] S16000x128.size inb_S16000x128_S16000x128_0_0

/-! ## What the body leaves in the output window's buffer -/

/-- The output buffer after the body, from the two input blocks: one store over the whole buffer, of the product
    of the edge block (rounded to bf16) with the weight (rounded to bf16), accumulated from zero. -/
def out0_2 (x0 : Vec F S16000x4 .f32) (x1 : Vec F S4x128 .f32) : Vec F S16000x128 .f32 :=
  View.canon [⟨r0_2, k0_pay1 (View.ld x0 r0_0) (View.ld x1 r0_1)⟩]

/-- The one store is over the whole buffer, so it covers it. -/
theorem cover0_2 (p0 : Vec F S16000x128 .f32) (y : S16000x128.Idx) :
    ∃ pc ∈ ([⟨r0_2, p0⟩] : List (View.Piece (Elt F) S16000x128 .f32)), y ∈ pc.1.set :=
  View.cover_of_tiled [⟨r0_2, p0⟩] S16000x128.size (by rfl) y

/-! ## The body's triple -/

set_option maxHeartbeats 1000000 in
/-- The kernel body on whole staging memrefs, the two inputs' at read contents `x0`, `x1` and the output's at anything,
    runs to the continuation holding the inputs' as they were and the output's at `out0_2 x0 x1`: the two loads, the
    load of the output buffer (its value is not used), then the one store over the whole buffer. -/
theorem sound_kernel0 (c : Dev nD) (E : Set ℕ) (i : grid0.Coords) (arg1 : Memref sig .tc .vmem S16000x4 .f32) (harg1 : arg1.IsWhole) (arg2 : Memref sig .tc .vmem S4x128 .f32) (harg2 : arg2.IsWhole) (arg3 : Memref sig .tc .vmem S16000x128 .f32) (harg3 : arg3.IsWhole)
    (x0 : Vec F S16000x4 .f32) (x1 : Vec F S4x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__plain_matmul_kernel i arg1 harg1 arg2 harg2 arg3 harg3) K := by
  simp only [cc0__plain_matmul_kernel_eq_skeleton]; unfold cc0__plain_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them (`V`); after the body at point
    `t` each input's buffer still at its block and the output's at `out0_2` of the two input blocks; the invariant is
    the rest of the core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, copied in there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1: the node transform of the first layer, one block of 2000 nodes per grid point — the block's rows
  times the whole 18 x 128 weight, plus the bias row, plus the block of the edge aggregate, clipped below at zero.
  What each point leaves in the output window's buffer, the body's triple, and the pipeline's proof data at the
  contents V the region is entered with.
-/
import proofs.«413272_j14783277433402_2_alg».proof.Proof.Gen.KernelIdeal.Launch
import proofs.«413272_j14783277433402_2_alg».proof.Proof.Gen.KernelIdeal.Skeleton
import proofs.«413272_j14783277433402_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): a point that does not
    fetch the window has the block index of the point before it, so the buffer still holds this point's block. The
    window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): a point that does not
    fetch the window has the block index of the point before it, so the buffer still holds this point's block. The
    window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): a point that does not
    fetch the window has the block index of the point before it, so the buffer still holds this point's block. The
    window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): a point that does not
    fetch the window has the block index of the point before it, so the buffer still holds this point's block. The
    window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output's written, through its whole extent -/

abbrev r1_0 : Rect S2000x18 := Rect.unit (s := S2000x18) ![0, 0] S2000x18.size inb_S2000x18_S2000x18_0_0
abbrev r1_1 : Rect S18x128 := Rect.unit (s := S18x128) ![0, 0] S18x128.size inb_S18x128_S18x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

/-! ## What the body leaves in the output window's buffer -/

/-- Window 4's staging buffer after the body, from the input windows' blocks: its one store, through the whole
    extent, of the clipped sum computed from the four blocks as loaded. -/
def out1_4 (x0 : Vec F S2000x18 .f32) (x1 : Vec F S18x128 .f32) (x2 : Vec F S1x128 .f32) (x3 : Vec F S2000x128 .f32) : Vec F S2000x128 .f32 :=
  View.canon [⟨r1_3, k1_pay1 (View.ld x0 r1_0) (View.ld x1 r1_1) (View.ld x2 r1_2) (View.ld x3 r1_3)⟩]

/-- The store's rectangle is the whole buffer, so it covers it. -/
theorem cover1_4 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

/-! ## The body's triple -/

set_option maxHeartbeats 1000000 in
/-- The kernel body on whole staging memrefs, the inputs' at read contents `xW` and the output's at anything, runs to
    the continuation holding the inputs' as they were and the output's at `out1_4` of the inputs'. The body reads the
    output's buffer once before it writes it; the value read is not used. -/
theorem sound_kernel1 (c : Dev nD) (E : Set ℕ) (i : grid1.Coords)
    (arg0 : Memref sig .tc .vmem S2000x18 .f32) (harg0 : arg0.IsWhole) (arg1 : Memref sig .tc .vmem S18x128 .f32) (harg1 : arg1.IsWhole)
    (arg2 : Memref sig .tc .vmem S1x128 .f32) (harg2 : arg2.IsWhole) (arg3 : Memref sig .tc .vmem S2000x128 .f32) (harg3 : arg3.IsWhole)
    (arg4 : Memref sig .tc .vmem S2000x128 .f32) (harg4 : arg4.IsWhole)
    (x0 : Vec F S2000x18 .f32) (x1 : Vec F S18x128 .f32) (x2 : Vec F S1x128 .f32) (x3 : Vec F S2000x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__node_kernel i arg0 harg0 arg1 harg1 arg2 harg2 arg3 harg3 arg4 harg4) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the region's pipeline on core `c`: the arrays as the region finds them (`V`); after the body at
    point `t` each input's buffer at its block and the output's at `out1_4` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2: the edge transform, one block of 16000 edges per grid point — the block's rows times the whole
  4 x 128 weight. What each point leaves in the output window's buffer, the body's triple, and the pipeline's
  proof data at the contents V the region is entered with.
-/
import proofs.«413272_j14783277433402_2_alg».proof.Proof.Gen.KernelIdeal.Launch
import proofs.«413272_j14783277433402_2_alg».proof.Proof.Gen.KernelIdeal.Skeleton
import proofs.«413272_j14783277433402_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows and columns of its array, as the region finds it, that the
    window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The edge block's buffer holds the block of point `t` when the body runs there, for any proof data over the
    entry contents whose body leaves that buffer as it found it: the window is an input, never idle, never cut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's buffer holds the whole weight at every point, although it is copied in at the first point only:
    its block index never moves, so what an unfetched point finds is the previous point's block, which is its own. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S16000x4 := Rect.unit (s := S16000x4) ![0, 0] S16000x4.size inb_S16000x4_S16000x4_0_0
abbrev r2_1 : Rect S4x128 := Rect.unit (s := S4x128) ![0, 0] S4x128.size inb_S4x128_S4x128_0_0
abbrev r2_2 : Rect S16000x128 := Rect.unit (s := S16000x128) ![0, 0] S16000x128.size inb_S16000x128_S16000x128_0_0

/-! ## What the body leaves in the output window's buffer -/

/-- The output buffer after the body, from the two input blocks: one store over the whole buffer, of the product
    of the edge block (rounded to bf16) with the weight (rounded to bf16), accumulated from zero. -/
def out2_2 (x0 : Vec F S16000x4 .f32) (x1 : Vec F S4x128 .f32) : Vec F S16000x128 .f32 :=
  View.canon [⟨r2_2, k2_pay1 (View.ld x0 r2_0) (View.ld x1 r2_1)⟩]

/-- The one store is over the whole buffer, so it covers it. -/
theorem cover2_2 (p0 : Vec F S16000x128 .f32) (y : S16000x128.Idx) :
    ∃ pc ∈ ([⟨r2_2, p0⟩] : List (View.Piece (Elt F) S16000x128 .f32)), y ∈ pc.1.set :=
  View.cover_of_tiled [⟨r2_2, p0⟩] S16000x128.size (by rfl) y

/-! ## The body's triple -/

set_option maxHeartbeats 1000000 in
/-- The kernel body on whole staging memrefs, the two inputs' at read contents `x0`, `x1` and the output's at anything,
    runs to the continuation holding the inputs' as they were and the output's at `out2_2 x0 x1`: the two loads, the
    load of the output buffer (its value is not used), then the one store over the whole buffer. -/
theorem sound_kernel2 (c : Dev nD) (E : Set ℕ) (i : grid2.Coords) (arg1 : Memref sig .tc .vmem S16000x4 .f32) (harg1 : arg1.IsWhole) (arg2 : Memref sig .tc .vmem S4x128 .f32) (harg2 : arg2.IsWhole) (arg3 : Memref sig .tc .vmem S16000x128 .f32) (harg3 : arg3.IsWhole)
    (x0 : Vec F S16000x4 .f32) (x1 : Vec F S4x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__plain_matmul_kernel i arg1 harg1 arg2 harg2 arg3 harg3) K := by
  simp only [cc2__plain_matmul_kernel_eq_skeleton]; unfold cc2__plain_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them (`V`); after the body at point
    `t` each input's buffer still at its block and the output's at `out2_2` of the two input blocks; the invariant is
    the rest of the core's scoped memory and its generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, copied in there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3: the node transform of the second layer, one block of 2000 nodes per grid point — the block's rows
  times the whole 256 x 128 weight, plus the bias row, plus the block of the edge aggregate, clipped below at zero.
  What each point leaves in the output window's buffer, the body's triple, and the pipeline's proof data at the
  contents V the region is entered with.
-/
import proofs.«413272_j14783277433402_2_alg».proof.Proof.Gen.KernelIdeal.Launch
import proofs.«413272_j14783277433402_2_alg».proof.Proof.Gen.KernelIdeal.Skeleton
import proofs.«413272_j14783277433402_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): a point that does not
    fetch the window has the block index of the point before it, so the buffer still holds this point's block. The
    window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): a point that does not
    fetch the window has the block index of the point before it, so the buffer still holds this point's block. The
    window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): a point that does not
    fetch the window has the block index of the point before it, so the buffer still holds this point's block. The
    window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): a point that does not
    fetch the window has the block index of the point before it, so the buffer still holds this point's block. The
    window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read, and the output's written, through its whole extent -/

abbrev r3_0 : Rect S2000x256 := Rect.unit (s := S2000x256) ![0, 0] S2000x256.size inb_S2000x256_S2000x256_0_0
abbrev r3_1 : Rect S256x128 := Rect.unit (s := S256x128) ![0, 0] S256x128.size inb_S256x128_S256x128_0_0
abbrev r3_2 : Rect S1x128 := Rect.unit (s := S1x128) ![0, 0] S1x128.size inb_S1x128_S1x128_0_0
abbrev r3_3 : Rect S2000x128 := Rect.unit (s := S2000x128) ![0, 0] S2000x128.size inb_S2000x128_S2000x128_0_0

/-! ## What the body leaves in the output window's buffer -/

/-- Window 4's staging buffer after the body, from the input windows' blocks: its one store, through the whole
    extent, of the clipped sum computed from the four blocks as loaded. -/
def out3_4 (x0 : Vec F S2000x256 .f32) (x1 : Vec F S256x128 .f32) (x2 : Vec F S1x128 .f32) (x3 : Vec F S2000x128 .f32) : Vec F S2000x128 .f32 :=
  View.canon [⟨r3_3, k3_pay1 (View.ld x0 r3_0) (View.ld x1 r3_1) (View.ld x2 r3_2) (View.ld x3 r3_3)⟩]

/-- The store's rectangle is the whole buffer, so it covers it. -/
theorem cover3_4 (p0 : Vec F S2000x128 .f32) (y : S2000x128.Idx) :
    ∃ pc ∈ ([⟨r3_3, p0⟩] : List (View.Piece (Elt F) S2000x128 .f32)), y ∈ pc.1.set :=
  View.cover_of_tiled [⟨r3_3, p0⟩] S2000x128.size (by rfl) y

/-! ## The body's triple -/

set_option maxHeartbeats 1000000 in
/-- The kernel body on whole staging memrefs, the inputs' at read contents `xW` and the output's at anything, runs to
    the continuation holding the inputs' as they were and the output's at `out3_4` of the inputs'. The body reads the
    output's buffer once before it writes it; the value read is not used. -/
theorem sound_kernel3 (c : Dev nD) (E : Set ℕ) (i : grid3.Coords)
    (arg0 : Memref sig .tc .vmem S2000x256 .f32) (harg0 : arg0.IsWhole) (arg1 : Memref sig .tc .vmem S256x128 .f32) (harg1 : arg1.IsWhole)
    (arg2 : Memref sig .tc .vmem S1x128 .f32) (harg2 : arg2.IsWhole) (arg3 : Memref sig .tc .vmem S2000x128 .f32) (harg3 : arg3.IsWhole)
    (arg4 : Memref sig .tc .vmem S2000x128 .f32) (harg4 : arg4.IsWhole)
    (x0 : Vec F S2000x256 .f32) (x1 : Vec F S256x128 .f32) (x2 : Vec F S1x128 .f32) (x3 : Vec F S2000x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__node_kernel i arg0 harg0 arg1 harg1 arg2 harg2 arg3 harg3 arg4 harg4) K := by
  simp only [cc3__node_kernel_eq_skeleton]; unfold cc3__node_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the region's pipeline on core `c`: the arrays as the region finds them (`V`); after the body at
    point `t` each input's buffer at its block and the output's at `out3_4` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4: the mean pool's sums as a product with the one-hot matrix, accumulated over 25 blocks of 2000 nodes in a
  scratch block that is zeroed at the first point and copied to the output at the last. What each point leaves in
  the scratch and in the output window's buffer, the body's triple case by case, and the pipeline's proof data at
  the contents V the region is entered with.
-/
import proofs.«413272_j14783277433402_2_alg».proof.Proof.Gen.KernelIdeal.Launch
import proofs.«413272_j14783277433402_2_alg».proof.Proof.Gen.KernelIdeal.Skeleton
import proofs.«413272_j14783277433402_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The one-hot window's current staging buffer holds its block at every point, for any proof data whose array is
    `V`'s and whose body leaves the block in place: an input window, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same of the feature window. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional (the zeroing of the scratch), from the grid coordinate. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The condition of the body's second conditional (the copy of the scratch to the output block). -/
abbrev cond4_1 (i : grid4.Coords) : Prop := k4_cond2 i = 1#1
/-- It holds at the last point only. -/
theorem hcond4_1 : ∀ t : Fin cfg4.N, cond4_1 (grid4.coords t) ↔ t.val = 24 :=
  (by decide +kernel : ∀ t : Fin grid4.N, cond4_1 (grid4.coords t) ↔ t.val = 24)

/-! ## Where the windows are idle -/

/-- The two input windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Off the last point the output window is idle: the body stores nothing into its buffer there, -/
theorem idleAt4_2 : ∀ t : Fin cfg4.N, ¬cond4_1 (grid4.coords t) → cfg4.idle 2 (grid4.coords t) = true := by decide +kernel
/-- and the pipeline does not write its block back. -/
theorem noFlush4_2 : ∀ t : Fin cfg4.N, ¬cond4_1 (grid4.coords t) → (cfg4.win 2).flush t = false := by decide +kernel
/-- At the last point it is live: the body copies the scratch into it. -/
theorem liveAt4_2 : ∀ t : Fin cfg4.N, cond4_1 (grid4.coords t) → cfg4.idle 2 (grid4.coords t) = false := by decide +kernel

/-! ## The scratch block and the region's invariant -/

/-- The scratch operand: a whole scoped block of the kernel's own, passed beside the windows. -/
abbrev scM4_0 : Memref sig .tc .vmem S64x128 .f32 := Memref.whole cc4_scratch0

/-- The region's invariant with the scratch block as a memref owned at some contents, the other scoped blocks
    unopened, and the generator register at some state. -/
theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-! ## The body's accesses -/

abbrev r4_0 : Rect S2000x64 := Rect.unit (s := S2000x64) ![0, 0] S2000x64.size inb_S2000x64_S2000x64_0_0
abbrev r4_1 : Rect S2000x128 := Rect.unit (s := S2000x128) ![0, 0] S2000x128.size inb_S2000x128_S2000x128_0_0
abbrev r4_2 : Rect S64x128 := Rect.unit (s := S64x128) ![0, 0] S64x128.size inb_S64x128_S64x128_0_0

/-- The two zero offsets, as the constant function. -/
theorem hz4 : (![0, 0] : Fin 2 → Nat) = fun _ => 0 := funext fun a => by fin_cases a <;> rfl

/-- One store through the whole block covers it, -/
theorem cover4_1 (p : Vec F S64x128 .f32) (y : S64x128.Idx) :
    ∃ pc ∈ ([⟨r4_2, p⟩] : List (View.Piece (Elt F) S64x128 .f32)), y ∈ pc.1.set :=
  ⟨_, List.mem_singleton_self _, View.mem_set_unit_zero hz4 inb_S64x128_S64x128_0_0 y⟩

/-- and so do two, the later over the earlier. -/
theorem cover4_2 (p q : Vec F S64x128 .f32) (y : S64x128.Idx) :
    ∃ pc ∈ ([⟨r4_2, p⟩, ⟨r4_2, q⟩] : List (View.Piece (Elt F) S64x128 .f32)), y ∈ pc.1.set :=
  ⟨_, List.mem_cons_self, View.mem_set_unit_zero hz4 inb_S64x128_S64x128_0_0 y⟩

/-! ## The body's triple, case by case

On whole memrefs — the two input blocks at read contents `x0`, `x1` — the body runs to the continuation holding the
inputs as they were and the scratch at `k4_pay2 x0 x1 s`, where `s` is what the scratch held when the accumulation
read it: the zero block `k4_pay1` at the first point (the body has just stored it), else what the point before left.
The output block's buffer is handed back untouched except at the last point, where the scratch is copied into it. -/

set_option maxHeartbeats 1000000 in
/-- The first point: the zero block is stored into the scratch, read back, and the product of the transposed one-hot
    block with the feature block is added to it. -/
theorem sound_kernel4_A (c : Dev nD) (E : Set ℕ) (i : grid4.Coords) (arg1 : Memref sig .tc .vmem S2000x64 .f32) (harg1 : arg1.IsWhole) (arg2 : Memref sig .tc .vmem S2000x128 .f32) (harg2 : arg2.IsWhole) (arg3 : Memref sig .tc .vmem S64x128 .f32) (harg3 : arg3.IsWhole) (arg4 : Memref sig .tc .vmem S64x128 .f32) (harg4 : arg4.IsWhole)
    (hc0 : cond4_0 i) (hc1 : ¬cond4_1 i)
    (x0 : Vec F S2000x64 .f32) (x1 : Vec F S2000x128 .f32) (xi2 : Vec F S64x128 .f32) (K : PUnit → sProp 𝕄) :
    iprop(owns (c : Thread nD τ) arg1 fullShare x0 ∗ owns (c : Thread nD τ) arg2 fullShare x1 ∗ owns (c : Thread nD τ) arg3 fullShare xi2 ∗ (∃ d, owns (c : Thread nD τ) arg4 fullShare d)
        ∗ (iprop(owns (c : Thread nD τ) arg1 fullShare x0 ∗ owns (c : Thread nD τ) arg2 fullShare x1 ∗ owns (c : Thread nD τ) arg3 fullShare xi2 ∗ owns (c : Thread nD τ) arg4 fullShare (k4_pay2 x0 x1 (k4_pay1 (F := F)))) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (cover4_2 _ _), View.canon_cons_unit_zero hz4, View.readCov_unit_zero _ hz4]
  simp only [View.readAt_eq_ld, View.ld_unit_zero (S := S2000x64) hz4, View.ld_unit_zero (S := S2000x128) hz4]

set_option maxHeartbeats 1000000 in
/-- A point strictly between the first and the last: the product is added to what the point before left. -/
theorem sound_kernel4_B (c : Dev nD) (E : Set ℕ) (i : grid4.Coords) (arg1 : Memref sig .tc .vmem S2000x64 .f32) (harg1 : arg1.IsWhole) (arg2 : Memref sig .tc .vmem S2000x128 .f32) (harg2 : arg2.IsWhole) (arg3 : Memref sig .tc .vmem S64x128 .f32) (harg3 : arg3.IsWhole) (arg4 : Memref sig .tc .vmem S64x128 .f32) (harg4 : arg4.IsWhole)
    (hc0 : ¬cond4_0 i) (hc1 : ¬cond4_1 i)
    (x0 : Vec F S2000x64 .f32) (x1 : Vec F S2000x128 .f32) (xi2 : Vec F S64x128 .f32) (xs : Vec F S64x128 .f32) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xs
        ∗ (iprop(owns (c : Thread nD τ) arg1 fullShare x0 ∗ owns (c : Thread nD τ) arg2 fullShare x1 ∗ owns (c : Thread nD τ) arg3 fullShare xi2 ∗ owns (c : Thread nD τ) arg4 fullShare (k4_pay2 x0 x1 xs)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [View.read_writes_eq_canon _ _ _ (cover4_1 _), View.canon_unit_zero hz4]
  simp only [View.readAt_eq_ld, View.ld_unit_zero (S := S2000x64) hz4, View.ld_unit_zero (S := S2000x128) hz4, View.ld_unit_zero (S := S64x128) hz4]

set_option maxHeartbeats 1000000 in
/-- The last point: the product is added to what the point before left, and the scratch is copied to the output block's buffer. -/
theorem sound_kernel4_C (c : Dev nD) (E : Set ℕ) (i : grid4.Coords) (arg1 : Memref sig .tc .vmem S2000x64 .f32) (harg1 : arg1.IsWhole) (arg2 : Memref sig .tc .vmem S2000x128 .f32) (harg2 : arg2.IsWhole) (arg3 : Memref sig .tc .vmem S64x128 .f32) (harg3 : arg3.IsWhole) (arg4 : Memref sig .tc .vmem S64x128 .f32) (harg4 : arg4.IsWhole)
    (hc0 : ¬cond4_0 i) (hc1 : cond4_1 i)
    (x0 : Vec F S2000x64 .f32) (x1 : Vec F S2000x128 .f32) (xs : Vec F S64x128 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k4_pay2 x0 x1 xs) ∗ owns (c : Thread nD τ) arg4 fullShare (k4_pay2 x0 x1 xs)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover4_1 _), View.canon_unit_zero hz4, View.readCov_unit_zero _ hz4]
    simp only [View.readAt_eq_ld, View.ld_unit_zero (S := S2000x64) hz4, View.ld_unit_zero (S := S2000x128) hz4, View.ld_unit_zero (S := S64x128) hz4]
  iexists _; isplitr
  swap; · iexact HS
  ipureintro
  sl_unfold_words
  rw [View.read_writes_eq_canon _ _ _ (cover4_1 _), View.canon_unit_zero hz4]
  simp only [View.readAt_eq_ld, View.ld_unit_zero (S := S2000x64) hz4, View.ld_unit_zero (S := S2000x128) hz4, View.ld_unit_zero (S := S64x128) hz4]

/-! ## What each point leaves in the scratch -/

/-- THE ACCUMULATION. What the scratch holds after the body at position `n`: at the first point the product of the
    transposed one-hot block with the feature block added to the zero block; afterwards that point's product added
    to what the point before left. -/
def accAt4 (c : Dev nD) : (n : ℕ) → n < cfg4.N → Vec F S64x128 .f32
  | 0, h => k4_pay2 (iblk4 V c 0 ⟨0, h⟩) (iblk4 V c 1 ⟨0, h⟩) (k4_pay1 (F := F))
  | n + 1, h => k4_pay2 (iblk4 V c 0 ⟨n + 1, h⟩) (iblk4 V c 1 ⟨n + 1, h⟩) (accAt4 c n (Nat.lt_of_succ_lt h))

theorem accAt4_zero (c : Dev nD) (h : 0 < cfg4.N) :
    accAt4 V c 0 h = k4_pay2 (iblk4 V c 0 ⟨0, h⟩) (iblk4 V c 1 ⟨0, h⟩) (k4_pay1 (F := F)) := rfl

theorem accAt4_succ (c : Dev nD) (n : ℕ) (h : n + 1 < cfg4.N) :
    accAt4 V c (n + 1) h = k4_pay2 (iblk4 V c 0 ⟨n + 1, h⟩) (iblk4 V c 1 ⟨n + 1, h⟩) (accAt4 V c n (Nat.lt_of_succ_lt h)) := rfl

/-- The same two equations at a point of the grid: the first point, -/
theorem accAt4_first (c : Dev nD) (t : Fin cfg4.N) (h0 : t.val = 0) :
    accAt4 V c t.val t.isLt = k4_pay2 (iblk4 V c 0 t) (iblk4 V c 1 t) (k4_pay1 (F := F)) := by
  obtain ⟨n, hn⟩ := t
  cases n with
  | zero => rfl
  | succ n => exact absurd h0 (Nat.succ_ne_zero n)

/-- and a later one, over what the point before left. -/
theorem accAt4_next (c : Dev nD) (t : Fin cfg4.N) (h0 : t.val ≠ 0) :
    accAt4 V c t.val t.isLt = k4_pay2 (iblk4 V c 0 t) (iblk4 V c 1 t) (accAt4 V c (t.val - 1) (Nat.lt_of_le_of_lt (Nat.sub_le _ _) t.isLt)) := by
  obtain ⟨n, hn⟩ := t
  cases n with
  | zero => exact absurd rfl h0
  | succ n => rfl

/-! ## The invariant from point to point -/

/-- The region's invariant before position `n`: before the first point the class's (the scratch at anything);
    afterwards the scratch owned at what the point before left in it, the other scoped blocks unopened, and the
    generator register at some state. -/
def PhiS4 (c : Dev nD) : (n : ℕ) → n ≤ cfg4.N → sProp 𝕄
  | 0, _ => Pipeline.ΦA spec4 c
  | n + 1, hn => iprop(iprop(owns (c : Thread nD τ) scM4_0 fullShare (accAt4 V c n hn)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the scratch at that point's contents. -/
theorem PhiS4_succ (c : Dev nD) (n : ℕ) (hn : n < cfg4.N) :
    PhiS4 V c (n + 1) hn = iprop(iprop(owns (c : Thread nD τ) scM4_0 fullShare (accAt4 V c n hn)
      ∗ Pipeline.scopedRestBut (Ix := Unit) (Name := ℕ) (U := UR sig nD τ) (Lvl := ℕ) (Val := Elt F) spec4 c [cc4_scratch0]) ∗ (∃ r, prngReg c r)) := rfl

/-- Before a point that is not the first: the scratch at what the point before left. -/
theorem PhiS4_pos (c : Dev nD) (n : ℕ) (h : n ≤ cfg4.N) (hz : n ≠ 0) :
    PhiS4 V c n h = iprop(iprop(owns (c : Thread nD τ) scM4_0 fullShare (accAt4 V c (n - 1) (by omega))
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The proof data of the pooling pipeline on core `c`: the arrays as the region finds them (`V`); after the body at
    point `t` each input's buffer at its block and the output's at the scratch's contents there (what the last point
    copies into it; at the other points, where the window is idle, a value nothing reads); the invariant `PhiS4`;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt4 V c t.val t.isLt
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at the point's position. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accAt4 V c t.val t.isLt := by dsimp only [dat4]
/-- At the last point the output block's buffer holds the whole accumulation. -/
theorem after4_2_last (c : Dev nD) (t : Fin cfg4.N) (ht : t.val = 24) : (dat4 V c).after 2 t = accAt4 V c t.val t.isLt :=
  after4_2 V c t

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point. The inputs' memrefs hold their blocks; the point's position says which case it is in. The
    invariant hands the body the scratch — at anything at the first point, else at what the point before left — and
    takes it back at this point's contents; the other scoped blocks, the generator register and what the core owes
    pass through unread. Off the last point the output block's buffer is handed back as found; at the last it holds
    the accumulation. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 25 := lt_of_lt_of_eq t.isLt (show cfg4.N = 25 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  by_cases h0 : t.val = 0
  · have h1 : ¬t.val = 24 := by omega
    rw [Dat.leavesExact_idle (dat4 V c) 2 t (idleAt4_2 t (fun h => h1 ((hcond4_1 t).mp h))) (noFlush4_2 t (fun h => h1 ((hcond4_1 t).mp h)))]
    rw [accAt4_first V c t h0]
    rw [PhiS4_castSucc V c t, PhiS4_zero V c _ _ h0, PhiA4_eq]
    iintro ⟨⟨⟨HS, HR⟩, Hg⟩, Ho, ⟨%d0, H0⟩, ⟨%d1, H1⟩, ⟨%d2, H2⟩⟩
    iapply (sound_kernel4_A c Set.univ (grid4.coords t) _ _ _ _ _ _ _ _ ((hcond4_0 t).mpr h0) (fun h => h1 ((hcond4_1 t).mp h)) (iblk4 V c 0 t) (iblk4 V c 1 t) ((dat4 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h1 : t.val = 24
    · rw [show (dat4 V c).leavesExact 2 t = owns (c : Thread nD τ) (st4_2 t) fullShare ((dat4 V c).after 2 t) from by
        unfold Dat.leavesExact; rw [liveAt4_2 t ((hcond4_1 t).mpr h1)], after4_2]
      rw [accAt4_next V c t h0]
      rw [PhiS4_castSucc V c t, PhiS4_pos V c _ _ h0]
      iintro ⟨⟨⟨HS, HR⟩, Hg⟩, Ho, ⟨%d0, H0⟩, ⟨%d1, H1⟩, ⟨%d2, H2⟩⟩
      iapply (sound_kernel4_C c Set.univ (grid4.coords t) _ _ _ _ _ _ _ _ (fun h => h0 ((hcond4_0 t).mp h)) ((hcond4_1 t).mpr h1) (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat4 V c) 2 t (idleAt4_2 t (fun h => h1 ((hcond4_1 t).mp h))) (noFlush4_2 t (fun h => h1 ((hcond4_1 t).mp h)))]
      rw [accAt4_next V c t h0]
      rw [PhiS4_castSucc V c t, PhiS4_pos V c _ _ h0]
      iintro ⟨⟨⟨HS, HR⟩, Hg⟩, Ho, ⟨%d0, H0⟩, ⟨%d1, H1⟩, ⟨%d2, H2⟩⟩
      iapply (sound_kernel4_B c Set.univ (grid4.coords t) _ _ _ _ _ _ _ _ (fun h => h0 ((hcond4_0 t).mp h)) (fun h => h1 ((hcond4_1 t).mp h)) (iblk4 V c 0 t) (iblk4 V c 1 t) ((dat4 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 (F := F) V c).Φ 0 := by
  rw [show (dat4 V c).Φ 0 = PhiS4 V c 0 (Nat.zero_le _) from rfl, PhiS4_zero V c 0 _ rfl]
  try exact Idealize.SL.BI.Entails.refl _

/-- After any point but the first the invariant gives the class's back: the scratch's named contents are forgotten. -/
theorem Phi_out4 (c : Dev nD) (t : Fin (cfg4.N + 1)) (ht : t.val ≠ 0) : (dat4 (F := F) V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, HR⟩, Hg⟩
  isplitl [HS HR]
  · isplitl [HS]
    · iexists _; iexact HS
    iexact HR
  iexact Hg

/-- The same after the last point. -/
theorem hout4 (c : Dev nD) : (dat4 (F := F) V c).Φ (Fin.last cfg4.N) ⊢ Pipeline.ΦA spec4 c :=
  Phi_out4 V c _ (by rw [Fin.val_last]; have : cfg4.N = 25 := N_4; omega)

end Cert.KernelIdeal.Hand

end
-- ==== Proof.KI.Run.lean ====
/-
  The whole program's run. @main is fourteen items in order — stretches of host operations and the five kernel
  regions — and the contents of the TensorCore's buffers between two items are a fold from the launch memory: a host
  stretch applies its operations; a region leaves its input arrays as it found them and its output array at what its
  write-backs leave, every other buffer untouched. Every weakly fair execution of @main terminates, without a fault,
  with every unscoped buffer at the fold's last level; the argument arrays are written by no item, so they end as
  launched.
-/
import proofs.«413272_j14783277433402_2_alg».proof.Proof.KI.Reg0
import proofs.«413272_j14783277433402_2_alg».proof.Proof.KI.Reg1
import proofs.«413272_j14783277433402_2_alg».proof.Proof.KI.Reg2
import proofs.«413272_j14783277433402_2_alg».proof.Proof.KI.Reg3
import proofs.«413272_j14783277433402_2_alg».proof.Proof.KI.Reg4
import proofs.«413272_j14783277433402_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between two items: a fold through @main -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- A buffer the stretch does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m ρ c)
/-- A buffer the stretch does not write keeps its contents. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m ρ c)
/-- A buffer the stretch does not write keeps its contents. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- Level 3 read at the TensorCore's references. -/
abbrev V3 : (c : Dev nD) → (b : Ref sig .tc) → Buf (Elt F) ((c : Thread nD τ).loc b) := fun c b => W3 m ρ c b
/-- After region 0: its arrays at what the pipeline leaves (an input as entered, the output's write-backs folded), every
    other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
/-- A buffer that is no array of the region keeps its contents. -/
theorem W4_of (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- Level 4 read at the TensorCore's references. -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
/-- A buffer the stretch does not write keeps its contents. -/
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
/-- Level 5 read at the TensorCore's references. -/
abbrev V5 : (c : Dev nD) → (b : Ref sig .tc) → Buf (Elt F) ((c : Thread nD τ).loc b) := fun c b => W5 m ρ c b
/-- After region 1: its arrays at what the pipeline leaves (an input as entered, the output's write-backs folded), every
    other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
/-- A buffer that is no array of the region keeps its contents. -/
theorem W6_of (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- Level 6 read at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of m ρ c b fun w e => hb (Finset.mem_image.mpr ⟨w, Finset.mem_univ _, e⟩)
/-- After the host stretch `hostOps2`. -/
abbrev W7 : Dev nD → Valuation τ sig (Elt F) := fun c => StableHlo.after hostOps2 (W6 m ρ c)
/-- A buffer the stretch does not write keeps its contents. -/
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
/-- Level 7 read at the TensorCore's references. -/
abbrev V7 : (c : Dev nD) → (b : Ref sig .tc) → Buf (Elt F) ((c : Thread nD τ).loc b) := fun c b => W7 m ρ c b
/-- After region 2: its arrays at what the pipeline leaves (an input as entered, the output's write-backs folded), every
    other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
/-- A buffer that is no array of the region keeps its contents. -/
theorem W8_of (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- Level 8 read at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of m ρ c b fun w e => hb (Finset.mem_image.mpr ⟨w, Finset.mem_univ _, e⟩)
/-- After the host stretch `hostOps3`. -/
abbrev W9 : Dev nD → Valuation τ sig (Elt F) := fun c => StableHlo.after hostOps3 (W8 m ρ c)
/-- A buffer the stretch does not write keeps its contents. -/
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h
/-- Level 9 read at the TensorCore's references. -/
abbrev V9 : (c : Dev nD) → (b : Ref sig .tc) → Buf (Elt F) ((c : Thread nD τ).loc b) := fun c b => W9 m ρ c b
/-- After region 3: its arrays at what the pipeline leaves (an input as entered, the output's write-backs folded), every
    other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
/-- A buffer that is no array of the region keeps its contents. -/
theorem W10_of (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- Level 10 read at the TensorCore's references. -/
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of m ρ c b fun w e => hb (Finset.mem_image.mpr ⟨w, Finset.mem_univ _, e⟩)
/-- After the host stretch `hostOps4`. -/
abbrev W11 : Dev nD → Valuation τ sig (Elt F) := fun c => StableHlo.after hostOps4 (W10 m ρ c)
/-- A buffer the stretch does not write keeps its contents. -/
theorem W11_of (c : Dev nD) (r : Ref sig .tc) (h : r ∉ hostOps4_W) :
    W11 m ρ c (Proc.devRef .tc r) = W10 m ρ c (Proc.devRef .tc r) :=
  StableHlo.after_of_writes_sub hostOps4 _ hostOps4_writes h
/-- Level 11 read at the TensorCore's references. -/
abbrev V11 : (c : Dev nD) → (b : Ref sig .tc) → Buf (Elt F) ((c : Thread nD τ).loc b) := fun c b => W11 m ρ c b
/-- After region 4: its arrays at what the pipeline leaves (an input as entered, the output's write-backs folded), every
    other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
/-- A buffer that is no array of the region keeps its contents. -/
theorem W12_of (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
/-- Level 12 read at the TensorCore's references. -/
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of m ρ c b fun w e => hb (Finset.mem_image.mpr ⟨w, Finset.mem_univ _, e⟩)
/-- After the host stretch `hostOps5`. -/
abbrev W13 : Dev nD → Valuation τ sig (Elt F) := fun c => StableHlo.after hostOps5 (W12 m ρ c)
/-- A buffer the stretch does not write keeps its contents. -/
theorem W13_of (c : Dev nD) (r : Ref sig .tc) (h : r ∉ hostOps5_W) :
    W13 m ρ c (Proc.devRef .tc r) = W12 m ρ c (Proc.devRef .tc r) :=
  StableHlo.after_of_writes_sub hostOps5 _ hostOps5_writes h
/-- After the host stretch `hostOps5_1`. -/
abbrev W14 : Dev nD → Valuation τ sig (Elt F) := fun c => StableHlo.after hostOps5_1 (W13 m ρ c)
/-- A buffer the stretch does not write keeps its contents. -/
theorem W14_of (c : Dev nD) (r : Ref sig .tc) (h : r ∉ hostOps5_1_W) :
    W14 m ρ c (Proc.devRef .tc r) = W13 m ρ c (Proc.devRef .tc r) :=
  StableHlo.after_of_writes_sub hostOps5_1 _ hostOps5_1_writes h

/-! ## The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment, from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last level, the generator register at some state. -/
abbrev Tₙ (c : Dev nD) : sProp 𝕄 := iprop(StableHlo.held (c : Thread nD τ) (Pipeline.ucRefs τ sig) (W14 m ρ c) ∗ ∃ r, prngReg c r)

/-! ## The regions as segments -/

set_option backward.isDefEq.respectTransparency.types false in
/-- Region 0 over the thread state: entered from every unscoped buffer at level 3, left at level 4. Its arrays are
    split out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at level 5, left at level 6. Its arrays are
    split out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at level 7, left at level 8. Its arrays are
    split out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at level 9, left at level 10. Its arrays are
    split out of the unscoped buffers and put back at the exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at level 11, left at level 12. Its arrays are
    split out of the unscoped buffers and put back at the exit contents; the generator register goes into the region's
    invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V11 m ρ) c
    unfold Pipeline.ΦA at h
    rw [show (pdats m ρ 4 c).Φ 0 = (dat4 (V11 m ρ) c).Φ 0 from rfl]
    iintro ⟨Hp, -, Hr⟩
    iapply h
    isplitl [Hr]; · iexact Hr
    iexact Hp
  hout c := by
    rw [Pipeline.ownSems0_none]
    have h := hout4 (V11 m ρ) c
    unfold Pipeline.ΦA at h
    rw [show (pdats m ρ 4 c).Φ (Fin.last _) = (dat4 (V11 m ρ) c).Φ (Fin.last cfg4.N) from rfl]
    iintro Hq
    ihave H := h $$ Hq
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's fourteen segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ),
    .host (hseg hostOps5 hostOps5_sub hostOps5_fresh (W12 m ρ)),
    .host (hseg hostOps5_1 hostOps5_1_sub hostOps5_1_fresh (W13 m ρ)) ]

/-- @main is the run of the segments: the chain of its items is the chain of the segments' fragments. -/
theorem main_run (c : Dev nD) : main (F := F) c = Pipeline.Seg.run (segs m ρ) := by
  rw [main_chain c, Pipeline.Seg.run_eq_chain]; rfl

set_option backward.isDefEq.respectTransparency.types false in
/-- THE RUN: from any memory with zero counters, every weakly fair execution of @main on the TensorCores terminates,
    nothing faulting, and every final state has every unscoped buffer at the fold's last level. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (W14 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-! ## The arguments end as launched -/

/-- A buffer no host stretch writes and no region has among its arrays keeps its launch contents to the end. -/
theorem W14_kept (c : Dev nD) (r : Ref sig .tc)
    (h1 : r ∉ hostOps0_W) (h2 : r ∉ hostOps0_1_W) (h3 : r ∉ hostOps0_2_W) (h4 : ∀ w, Pipeline.arrRef spec0 w ≠ r)
    (h5 : r ∉ hostOps1_W) (h6 : ∀ w, Pipeline.arrRef spec1 w ≠ r) (h7 : r ∉ hostOps2_W) (h8 : ∀ w, Pipeline.arrRef spec2 w ≠ r)
    (h9 : r ∉ hostOps3_W) (h10 : ∀ w, Pipeline.arrRef spec3 w ≠ r) (h11 : r ∉ hostOps4_W) (h12 : ∀ w, Pipeline.arrRef spec4 w ≠ r)
    (h13 : r ∉ hostOps5_W) (h14 : r ∉ hostOps5_1_W) :
    W14 m ρ c (Proc.devRef .tc r) = m ((c : Thread nD τ).loc r) :=
  (W14_of m ρ c r h14).trans <| (W13_of m ρ c r h13).trans <| (W12_of m ρ c r h12).trans <| (W11_of m ρ c r h11).trans <|
    (W10_of m ρ c r h10).trans <| (W9_of m ρ c r h9).trans <| (W8_of m ρ c r h8).trans <| (W7_of m ρ c r h7).trans <|
    (W6_of m ρ c r h6).trans <| (W5_of m ρ c r h5).trans <| (W4_of m ρ c r h4).trans <| (W3_of m ρ c r h3).trans <|
    (W2_of m ρ c r h2).trans <| (W1_of m ρ c r h1).trans rfl
theorem W14_main_arg0 (c : Dev nD) : W14 m ρ c (Proc.devRef .tc main_arg0) = m ((c : Thread nD τ).loc main_arg0) :=
  W14_kept m ρ c main_arg0 (by decide) (by decide) (by decide) (by decide) (by decide) (by decide) (by decide) (by decide) (by decide) (by decide) (by decide) (by decide) (by decide) (by decide)
theorem W14_main_arg2 (c : Dev nD) : W14 m ρ c (Proc.devRef .tc main_arg2) = m ((c : Thread nD τ).loc main_arg2) :=
  W14_kept m ρ c main_arg2 (by decide) (by decide) (by decide) (by decide) (by decide) (by decide) (by decide) (by decide) (by decide) (by decide) (by decide) (by decide) (by decide) (by decide)
theorem W14_main_arg3 (c : Dev nD) : W14 m ρ c (Proc.devRef .tc main_arg3) = m ((c : Thread nD τ).loc main_arg3) :=
  W14_kept m ρ c main_arg3 (by decide) (by decide) (by decide) (by decide) (by decide) (by decide) (by decide) (by decide) (by decide) (by decide) (by decide) (by decide) (by decide) (by decide)
theorem W14_main_arg4 (c : Dev nD) : W14 m ρ c (Proc.devRef .tc main_arg4) = m ((c : Thread nD τ).loc main_arg4) :=
  W14_kept m ρ c main_arg4 (by decide) (by decide) (by decide) (by decide) (by decide) (by decide) (by decide) (by decide) (by decide) (by decide) (by decide) (by decide) (by decide) (by decide)
theorem W14_main_arg5 (c : Dev nD) : W14 m ρ c (Proc.devRef .tc main_arg5) = m ((c : Thread nD τ).loc main_arg5) :=
  W14_kept m ρ c main_arg5 (by decide) (by decide) (by decide) (by decide) (by decide) (by decide) (by decide) (by decide) (by decide) (by decide) (by decide) (by decide) (by decide) (by decide)
theorem W14_main_arg6 (c : Dev nD) : W14 m ρ c (Proc.devRef .tc main_arg6) = m ((c : Thread nD τ).loc main_arg6) :=
  W14_kept m ρ c main_arg6 (by decide) (by decide) (by decide) (by decide) (by decide) (by decide) (by decide) (by decide) (by decide) (by decide) (by decide) (by decide) (by decide) (by decide)
theorem W14_main_arg7 (c : Dev nD) : W14 m ρ c (Proc.devRef .tc main_arg7) = m ((c : Thread nD τ).loc main_arg7) :=
  W14_kept m ρ c main_arg7 (by decide) (by decide) (by decide) (by decide) (by decide) (by decide) (by decide) (by decide) (by decide) (by decide) (by decide) (by decide) (by decide) (by decide)
theorem W14_main_arg8 (c : Dev nD) : W14 m ρ c (Proc.devRef .tc main_arg8) = m ((c : Thread nD τ).loc main_arg8) :=
  W14_kept m ρ c main_arg8 (by decide) (by decide) (by decide) (by decide) (by decide) (by decide) (by decide) (by decide) (by decide) (by decide) (by decide) (by decide) (by decide) (by decide)
theorem W14_main_arg9 (c : Dev nD) : W14 m ρ c (Proc.devRef .tc main_arg9) = m ((c : Thread nD τ).loc main_arg9) :=
  W14_kept m ρ c main_arg9 (by decide) (by decide) (by decide) (by decide) (by decide) (by decide) (by decide) (by decide) (by decide) (by decide) (by decide) (by decide) (by decide) (by decide)
theorem W14_main_arg10 (c : Dev nD) : W14 m ρ c (Proc.devRef .tc main_arg10) = m ((c : Thread nD τ).loc main_arg10) :=
  W14_kept m ρ c main_arg10 (by decide) (by decide) (by decide) (by decide) (by decide) (by decide) (by decide) (by decide) (by decide) (by decide) (by decide) (by decide) (by decide) (by decide)
theorem W14_main_arg11 (c : Dev nD) : W14 m ρ c (Proc.devRef .tc main_arg11) = m ((c : Thread nD τ).loc main_arg11) :=
  W14_kept m ρ c main_arg11 (by decide) (by decide) (by decide) (by decide) (by decide) (by decide) (by decide) (by decide) (by decide) (by decide) (by decide) (by decide) (by decide) (by decide)
/-- The edge attributes are an input window's array of regions 0 and 2: an input array leaves a region as it entered. -/
theorem W14_main_arg1 (c : Dev nD) : W14 m ρ c (Proc.devRef .tc main_arg1) = m ((c : Thread nD τ).loc main_arg1) :=
  (W14_of m ρ c main_arg1 (by decide)).trans <| (W13_of m ρ c main_arg1 (by decide)).trans <| (W12_of m ρ c main_arg1 (by decide)).trans <|
    (W11_of m ρ c main_arg1 (by decide)).trans <| (W10_of m ρ c main_arg1 (by decide)).trans <| (W9_of m ρ c main_arg1 (by decide)).trans <|
    ((W8_arr m ρ c 0).trans (((dat2 (V7 m ρ) c).arrAt_in 0 rfl _).trans (A_eq2 (V7 m ρ) c 0))).trans <|
    (W7_of m ρ c main_arg1 (by decide)).trans <| (W6_of m ρ c main_arg1 (by decide)).trans <| (W5_of m ρ c main_arg1 (by decide)).trans <|
    ((W4_arr m ρ c 0).trans (((dat0 (V3 m ρ) c).arrAt_in 0 rfl _).trans (A_eq0 (V3 m ρ) c 0))).trans <|
    (W3_of m ρ c main_arg1 (by decide)).trans <| (W2_of m ρ c main_arg1 (by decide)).trans <| (W1_of m ρ c main_arg1 (by decide)).trans rfl

/-! ## The frame -/

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c)⟩) (run_all m ρ)

end Cert.KernelIdeal.Hand

end
-- ==== Proof.Spec.lean ====
/-
  The specification: what each of the kernel's five regions computes, as one function of whole arrays over the
  extended reals, index by index; and the laws that join the kernel's arrangement of a layer to the reference's.

  A layer of the network maps node features `x` (finite) to
  `max (x·w₀ + x·w₁ + T·w₂ + b + a) 0`, where `T` and `a` are aggregates computed on the host. The kernel
  computes the three products as ONE product of the concatenated features `[x | T]` with the stacked weight
  `[w₀ + w₁ ; w₂]`; the two agree because a finite `x` distributes over the sum `w₀ + w₁` of finite weights
  (on the extended reals distributivity fails at the infinities, so finiteness is used exactly there).
-/
import Idealize.ShloMosaic.Lib.ValueIdx
import Idealize.ShloMosaic.PureOps.Ideal

noncomputable section

namespace Spec

open Idealize.ShloMosaic Idealize.ShloMosaic.ValueIdx

/-- A matrix of extended reals, indexed as the printed programs index a rank-2 array. -/
abbrev Mat (M N : Nat) : Type := (⟨2, ![M, N]⟩ : Shape).Idx → EReal

/-- The row and the column of an index of a rank-2 array. -/
abbrev row {M N : Nat} (i : (⟨2, ![M, N]⟩ : Shape).Idx) : Fin M := ⟨(i 0).val, idx2_lt0 i⟩
abbrev col {M N : Nat} (i : (⟨2, ![M, N]⟩ : Shape).Idx) : Fin N := ⟨(i 1).val, idx2_lt1 i⟩

/-- The matrix product: entry `(r, j)` is the sum over `k` of `a (r, k) * w (k, j)`. -/
def mm {M K N : Nat} (a : Mat M K) (w : Mat K N) : Mat M N :=
  fun i => ∑ k : Fin K, a (ix2 (row i) k) * w (ix2 k (col i))

/-- A node transform: the product with the weight, plus the bias row, plus the aggregate, clipped below at zero. -/
def node {M K N : Nat} (feat : Mat M K) (w : Mat K N) (b : Mat 1 N) (ea : Mat M N) : Mat M N :=
  fun i => max ((mm feat w i + b (ix2 (0 : Fin 1) (col i))) + ea i) 0

/-- The pooled sums: entry `(g, j)` is the sum over the 25 blocks of 2000 nodes of `oh (n, g) * h (n, j)`. -/
def pool (oh : Mat 50000 64) (h : Mat 50000 128) : Mat 64 128 :=
  fun i => ∑ t : Fin 25, ∑ r : Fin 2000,
    oh (ix2 (⟨2000 * t.val + r.val, by have := t.isLt; have := r.isLt; omega⟩ : Fin 50000) (row i))
      * h (ix2 (⟨2000 * t.val + r.val, by have := t.isLt; have := r.isLt; omega⟩ : Fin 50000) (col i))

end Spec

end
-- ==== Proof.KI.HostDefs.lean ====
/-
  The host's computations between the kernel regions, as named functions of whole arrays, generic in the float
  values: each is the program's own operations composed, in the program's order. The edge list's two rows; the
  symmetric normalisation of an edge from the degrees of its ends; the aggregate of a layer (twice the normalised
  sum over incoming edges of the source's features, minus the node's own features); the concatenated features and
  stacked weights a node transform reads; the summed edge weight; the edge aggregate scattered to the source
  nodes; the bias as a row; the graph membership as a 0/1 matrix and the graphs' sizes; and the tail: the pooled
  sums divided by the sizes (at least one), the last linear map, and the log-softmax over its four columns.
-/
import proofs.«413272_j14783277433402_2_alg».proof.Proof.Gen.KernelIdeal
import proofs.«413272_j14783277433402_2_alg».proof.Proof.Spec

noncomputable section

namespace Cert.KernelIdeal.Hand

open Cert.KernelIdeal Cert.KernelIdeal.Gen
open Idealize.ShloMosaic Idealize.ShloMosaic.TcCoe Idealize.SL.Sem

variable {F : FTy → Type} [FloatOps F]

/-! ## The edge list and the normalisation -/

/-- The edges' first row: row 0 of the 2 x 800000 edge index, as a vector. -/
def hSrc (x10 : (⟨S2x800000, .i32⟩ : BufTy).Contents (Elt F)) : (⟨S800000, .i32⟩ : BufTy).Contents (Elt F) :=
  shapeCast S800000 (extractStridedSlice S1x800000 ![0, 0] x10 slices_S2x800000_S1x800000_0_0) shapeCasts_S1x800000_S800000

/-- The edges' second row: row 1 of the edge index, as a vector. -/
def hDst (x10 : (⟨S2x800000, .i32⟩ : BufTy).Contents (Elt F)) : (⟨S800000, .i32⟩ : BufTy).Contents (Elt F) :=
  shapeCast S800000 (extractStridedSlice S1x800000 ![1, 0] x10 slices_S2x800000_S1x800000_1_0) shapeCasts_S1x800000_S800000

/-- A node's degree: ones added at the edges' first-row nodes, into zeros. -/
def hDeg (src : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant (F := F) S_ .f32 0x00000000#32))
    (broadcastInDim S800000x1 ![0] bcast_S800000_S800000x1_0 src)
    (broadcastInDim S800000 ![] bcast_S_S800000 (constant (F := F) S_ .f32 0x3F800000#32))

/-- The degree to the power -1/2 where the degree is positive, zero elsewhere. -/
def hDinv (src : (⟨S800000, .i32⟩ : BufTy).Contents (Elt F)) : (⟨S50000, .f32⟩ : BufTy).Contents (Elt F) :=
  select (cmpf .ogt (hDeg src) (broadcastInDim S50000 ![] bcast_S_S50000 (constant (F := F) S_ .f32 0x00000000#32)))
    (Host.powf (hDeg src) (broadcastInDim S50000 ![] bcast_S_S50000 (constant (F := F) S_ .f32 0xBF000000#32)))
    (broadcastInDim S50000 ![] bcast_S_S50000 (id (constant (F := F) S_ .f32 0x00000000#32)))

/-- A vector of node indices as a column of gather indices: a negative index counted from the end (50000 added). -/
def hWrap (idx : (⟨S800000, .i32⟩ : BufTy).Contents (Elt F)) : (⟨S800000x1, .i32⟩ : BufTy).Contents (Elt F) :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32)))
      idx)

/-- An edge's normalisation: the product of the two ends' degree^(-1/2). -/
def hNormE (x10 : (⟨S2x800000, .i32⟩ : BufTy).Contents (Elt F)) : (⟨S800000, .f32⟩ : BufTy).Contents (Elt F) :=
  mulf (Host.gather gather_S50000_S800000x1_S800000_n_0_n_n_0_1_1 (hDinv (hSrc x10)) (hWrap (hSrc x10)))
    (Host.gather gather_S50000_S800000x1_S800000_n_0_n_n_0_1_1 (hDinv (hSrc x10)) (hWrap (hDst x10)))

/-! ## A layer's aggregate -/

/-- The first layer's aggregate, at width 9: twice the sum, into node `dst e`, of `nE e` times the features of node
    `src e`, minus the node's own features. -/
def hT1 (feat : (⟨S50000x9, .f32⟩ : BufTy).Contents (Elt F)) (nE : (⟨S800000, .f32⟩ : BufTy).Contents (Elt F))
    (src dst : (⟨S800000, .i32⟩ : BufTy).Contents (Elt F)) : (⟨S50000x9, .f32⟩ : BufTy).Contents (Elt F) :=
  subf (mulf (broadcastInDim S50000x9 ![] bcast_S_S50000x9 (constant (F := F) S_ .f32 0x40000000#32))
      (Host.scatterAdd scatter_S50000x9_S800000x1_S800000x9_1_0_0_1
        (broadcastInDim S50000x9 ![] bcast_S_S50000x9 (constant (F := F) S_ .f32 0x00000000#32))
        (broadcastInDim S800000x1 ![0] bcast_S800000_S800000x1_0 dst)
        (mulf (broadcastInDim S800000x9 ![0, 1] bcast_S800000x1_S800000x9_0_1 (broadcastInDim S800000x1 ![0] bcast_S800000_S800000x1_0 nE))
          (Host.gather gather_S50000x9_S800000x1_S800000x9_1_0_n_n_0_1_19 feat (hWrap src)))))
    feat

/-- The second layer's aggregate, the same at width 128. -/
def hT2 (feat : (⟨S50000x128, .f32⟩ : BufTy).Contents (Elt F)) (nE : (⟨S800000, .f32⟩ : BufTy).Contents (Elt F))
    (src dst : (⟨S800000, .i32⟩ : BufTy).Contents (Elt F)) : (⟨S50000x128, .f32⟩ : BufTy).Contents (Elt F) :=
  subf (mulf (broadcastInDim S50000x128 ![] bcast_S_S50000x128 (constant (F := F) S_ .f32 0x40000000#32))
      (Host.scatterAdd scatter_S50000x128_S800000x1_S800000x128_1_0_0_1
        (broadcastInDim S50000x128 ![] bcast_S_S50000x128 (constant (F := F) S_ .f32 0x00000000#32))
        (broadcastInDim S800000x1 ![0] bcast_S800000_S800000x1_0 dst)
        (mulf (broadcastInDim S800000x128 ![0, 1] bcast_S800000x1_S800000x128_0_1 (broadcastInDim S800000x1 ![0] bcast_S800000_S800000x1_0 nE))
          (Host.gather gather_S50000x128_S800000x1_S800000x128_1_0_n_n_0_1_1128 feat (hWrap src)))))
    feat

/-! ## What the node transforms read -/

/-- The first layer's features beside their aggregate: 9 + 9 columns. -/
def hFeat1 (x0 : (⟨S50000x9, .f32⟩ : BufTy).Contents (Elt F)) (x10 : (⟨S2x800000, .i32⟩ : BufTy).Contents (Elt F)) :
    (⟨S50000x18, .f32⟩ : BufTy).Contents (Elt F) :=
  concatenate S50000x18 1 [⟨S50000x9, x0⟩, ⟨S50000x9, hT1 x0 (hNormE x10) (hSrc x10) (hDst x10)⟩] concatenates_S50000x9_S50000x9_S50000x18_d1

/-- The first layer's three 9 x 128 weights. -/
def hW1_0 (x2 : (⟨S3x9x128, .f32⟩ : BufTy).Contents (Elt F)) : (⟨S9x128, .f32⟩ : BufTy).Contents (Elt F) :=
  shapeCast S9x128 (extractStridedSlice S1x9x128 ![0, 0, 0] x2 slices_S3x9x128_S1x9x128_0_0_0) shapeCasts_S1x9x128_S9x128
def hW1_1 (x2 : (⟨S3x9x128, .f32⟩ : BufTy).Contents (Elt F)) : (⟨S9x128, .f32⟩ : BufTy).Contents (Elt F) :=
  shapeCast S9x128 (extractStridedSlice S1x9x128 ![1, 0, 0] x2 slices_S3x9x128_S1x9x128_1_0_0) shapeCasts_S1x9x128_S9x128
def hW1_2 (x2 : (⟨S3x9x128, .f32⟩ : BufTy).Contents (Elt F)) : (⟨S9x128, .f32⟩ : BufTy).Contents (Elt F) :=
  shapeCast S9x128 (extractStridedSlice S1x9x128 ![2, 0, 0] x2 slices_S3x9x128_S1x9x128_2_0_0) shapeCasts_S1x9x128_S9x128

/-- The first layer's stacked weight: the sum of the first two over the third, 18 rows. -/
def hWcat1 (x2 : (⟨S3x9x128, .f32⟩ : BufTy).Contents (Elt F)) : (⟨S18x128, .f32⟩ : BufTy).Contents (Elt F) :=
  concatenate S18x128 0 [⟨S9x128, addf (hW1_0 x2) (hW1_1 x2)⟩, ⟨S9x128, hW1_2 x2⟩] concatenates_S9x128_S9x128_S18x128_d0

/-- The three 4 x 128 edge weights summed. -/
def hEws (x3 : (⟨S3x4x128, .f32⟩ : BufTy).Contents (Elt F)) : (⟨S4x128, .f32⟩ : BufTy).Contents (Elt F) :=
  Host.reduceAdd x3 (constant (F := F) S_ .f32 0x00000000#32) reducesTo_S3x4x128_S4x128_d0 h_S_

/-- The edges' messages added at the edges' first-row nodes, into zeros. -/
def hEa (src : (⟨S800000, .i32⟩ : BufTy).Contents (Elt F)) (em : (⟨S800000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 src)
    em

/-- A bias vector as a 1 x 128 row. -/
def hBias (x4 : (⟨S128, .f32⟩ : BufTy).Contents (Elt F)) : (⟨S1x128, .f32⟩ : BufTy).Contents (Elt F) :=
  shapeCast S1x128 x4 shapeCasts_S128_S1x128

/-- The second layer's features beside their aggregate: 128 + 128 columns. -/
def hFeat2 (h1 : (⟨S50000x128, .f32⟩ : BufTy).Contents (Elt F)) (nE : (⟨S800000, .f32⟩ : BufTy).Contents (Elt F))
    (src dst : (⟨S800000, .i32⟩ : BufTy).Contents (Elt F)) : (⟨S50000x256, .f32⟩ : BufTy).Contents (Elt F) :=
  concatenate S50000x256 1 [⟨S50000x128, h1⟩, ⟨S50000x128, hT2 h1 nE src dst⟩] concatenates_S50000x128_S50000x128_S50000x256_d1

/-- The second layer's three 128 x 128 weights. -/
def hW2_0 (x5 : (⟨S3x128x128, .f32⟩ : BufTy).Contents (Elt F)) : (⟨S128x128, .f32⟩ : BufTy).Contents (Elt F) :=
  shapeCast S128x128 (extractStridedSlice S1x128x128 ![0, 0, 0] x5 slices_S3x128x128_S1x128x128_0_0_0) shapeCasts_S1x128x128_S128x128
def hW2_1 (x5 : (⟨S3x128x128, .f32⟩ : BufTy).Contents (Elt F)) : (⟨S128x128, .f32⟩ : BufTy).Contents (Elt F) :=
  shapeCast S128x128 (extractStridedSlice S1x128x128 ![1, 0, 0] x5 slices_S3x128x128_S1x128x128_1_0_0) shapeCasts_S1x128x128_S128x128
def hW2_2 (x5 : (⟨S3x128x128, .f32⟩ : BufTy).Contents (Elt F)) : (⟨S128x128, .f32⟩ : BufTy).Contents (Elt F) :=
  shapeCast S128x128 (extractStridedSlice S1x128x128 ![2, 0, 0] x5 slices_S3x128x128_S1x128x128_2_0_0) shapeCasts_S1x128x128_S128x128

/-- The second layer's stacked weight: the sum of the first two over the third, 256 rows. -/
def hWcat2 (x5 : (⟨S3x128x128, .f32⟩ : BufTy).Contents (Elt F)) : (⟨S256x128, .f32⟩ : BufTy).Contents (Elt F) :=
  concatenate S256x128 0 [⟨S128x128, addf (hW2_0 x5) (hW2_1 x5)⟩, ⟨S128x128, hW2_2 x5⟩] concatenates_S128x128_S128x128_S256x128_d0

/-! ## The graphs -/

/-- A node's graph number repeated over 64 columns. -/
def hBat (x11 : (⟨S50000, .i32⟩ : BufTy).Contents (Elt F)) : (⟨S50000x64, .i32⟩ : BufTy).Contents (Elt F) :=
  broadcastInDim S50000x64 ![0, 1] bcast_S50000x1_S50000x64_0_1 (broadcastInDim S50000x1 ![0] bcast_S50000_S50000x1_0 x11)

/-- The column's number 0 … 63 repeated over the 50000 rows. -/
def hIota : (⟨S50000x64, .i32⟩ : BufTy).Contents (Elt F) :=
  broadcastInDim S50000x64 ![0, 1] bcast_S1x64_S50000x64_0_1 (broadcastInDim S1x64 ![1] bcast_S64_S1x64_1 (iotaInDim S64 32 0))

/-- The membership matrix: 1 where the node's graph is the column's, else 0. -/
def hOnehot (x11 : (⟨S50000, .i32⟩ : BufTy).Contents (Elt F)) : (⟨S50000x64, .f32⟩ : BufTy).Contents (Elt F) :=
  uitofp (F := F) .f32 (cmpi .eq (hBat (F := F) x11) (hIota (F := F)))

/-- The graphs' sizes: the membership matrix summed over the nodes. -/
def hCounts (x11 : (⟨S50000, .i32⟩ : BufTy).Contents (Elt F)) : (⟨S64, .f32⟩ : BufTy).Contents (Elt F) :=
  Host.reduceAdd (hOnehot x11) (constant (F := F) S_ .f32 0x00000000#32) reducesTo_S50000x64_S64_d0 h_S_

/-! ## The tail -/

/-- The pooled sums divided by the graphs' sizes, a size below one counted as one. -/
def hMean (P : (⟨S64x128, .f32⟩ : BufTy).Contents (Elt F)) (C : (⟨S64, .f32⟩ : BufTy).Contents (Elt F)) :
    (⟨S64x128, .f32⟩ : BufTy).Contents (Elt F) :=
  Host.divf P (broadcastInDim S64x128 ![0, 1] bcast_S64x1_S64x128_0_1 (broadcastInDim S64x1 ![0] bcast_S64_S64x1_0
    (maximumf C (broadcastInDim S64 ![] bcast_S_S64 (constant (F := F) S_ .f32 0x3F800000#32)))))

/-- The last linear map: the means times the 128 x 4 weight, plus the bias on every row. -/
def hLogits (P : (⟨S64x128, .f32⟩ : BufTy).Contents (Elt F)) (C : (⟨S64, .f32⟩ : BufTy).Contents (Elt F))
    (x8 : (⟨S128x4, .f32⟩ : BufTy).Contents (Elt F)) (x9 : (⟨S4, .f32⟩ : BufTy).Contents (Elt F)) :
    (⟨S64x4, .f32⟩ : BufTy).Contents (Elt F) :=
  addf (Host.dotGeneral dot_S64x128_S128x4_S64x4_1_0_0_1_n_n none (hMean P C) x8)
    (broadcastInDim S64x4 ![0, 1] bcast_S1x4_S64x4_0_1 (broadcastInDim S1x4 ![1] bcast_S4_S1x4_1 x9))

/-- A row shifted by its maximum (the maximum taken against minus infinity). -/
def hShift (z : (⟨S64x4, .f32⟩ : BufTy).Contents (Elt F)) : (⟨S64x4, .f32⟩ : BufTy).Contents (Elt F) :=
  subf z (broadcastInDim S64x4 ![0, 1] bcast_S64x1_S64x4_0_1 (broadcastInDim S64x1 ![0] bcast_S64_S64x1_0
    (maximumf (broadcastInDim S64 ![] bcast_S_S64 (constant (F := F) S_ .f32 0xFF800000#32))
      (Host.reduce FloatOps.maximumf z (constant (F := F) S_ .f32 0xFF800000#32) reducesTo_S64x4_S64_d1 h_S_))))

/-- The log-softmax over the four columns: the shifted row minus the logarithm of the sum of its exponentials. -/
def hLogSoftmax (z : (⟨S64x4, .f32⟩ : BufTy).Contents (Elt F)) : (⟨S64x4, .f32⟩ : BufTy).Contents (Elt F) :=
  subf (hShift z) (broadcastInDim S64x4 ![0, 1] bcast_S64x1_S64x4_0_1 (Host.log (broadcastInDim S64x1 ![0] bcast_S64_S64x1_0
    (Host.reduceAdd (Host.exp (hShift z)) (constant (F := F) S_ .f32 0x00000000#32) reducesTo_S64x4_S64_d1 h_S_))))

/-- The tail: from the pooled sums and the graphs' sizes to the result. -/
def hTail (P : (⟨S64x128, .f32⟩ : BufTy).Contents (Elt F)) (C : (⟨S64, .f32⟩ : BufTy).Contents (Elt F))
    (x8 : (⟨S128x4, .f32⟩ : BufTy).Contents (Elt F)) (x9 : (⟨S4, .f32⟩ : BufTy).Contents (Elt F)) :
    (⟨S64x4, .f32⟩ : BufTy).Contents (Elt F) :=
  hLogSoftmax (hLogits P C x8 x9)

/-! ## The kernel program's result as one function of the launch arguments, at the extended reals -/

/-- The first layer's output: the node transform of the concatenated features, the stacked weight, the bias row
    and the scattered edge messages (the edge attributes times the summed edge weight). -/
def h1K (x0 : (⟨S50000x9, .f32⟩ : BufTy).Contents (Elt Ideal)) (x1 : (⟨S800000x4, .f32⟩ : BufTy).Contents (Elt Ideal))
    (x2 : (⟨S3x9x128, .f32⟩ : BufTy).Contents (Elt Ideal)) (x3 : (⟨S3x4x128, .f32⟩ : BufTy).Contents (Elt Ideal))
    (x4 : (⟨S128, .f32⟩ : BufTy).Contents (Elt Ideal)) (x10 : (⟨S2x800000, .i32⟩ : BufTy).Contents (Elt Ideal)) : Spec.Mat 50000 128 :=
  Spec.node (M := 50000) (K := 18) (N := 128) (hFeat1 x0 x10) (hWcat1 x2) (hBias x4)
    (hEa (hSrc x10) (Spec.mm (M := 800000) (K := 4) (N := 128) x1 (hEws x3)))

/-- The second layer's output, from the first layer's. -/
def h2K (h1 : Spec.Mat 50000 128) (x1 : (⟨S800000x4, .f32⟩ : BufTy).Contents (Elt Ideal))
    (x5 : (⟨S3x128x128, .f32⟩ : BufTy).Contents (Elt Ideal)) (x6 : (⟨S3x4x128, .f32⟩ : BufTy).Contents (Elt Ideal))
    (x7 : (⟨S128, .f32⟩ : BufTy).Contents (Elt Ideal)) (x10 : (⟨S2x800000, .i32⟩ : BufTy).Contents (Elt Ideal)) : Spec.Mat 50000 128 :=
  Spec.node (M := 50000) (K := 256) (N := 128) (hFeat2 h1 (hNormE x10) (hSrc x10) (hDst x10)) (hWcat2 x5) (hBias x7)
    (hEa (hSrc x10) (Spec.mm (M := 800000) (K := 4) (N := 128) x1 (hEws x6)))

/-- The kernel program's result: the tail of the pooled second-layer output. -/
def resK (x0 : (⟨S50000x9, .f32⟩ : BufTy).Contents (Elt Ideal)) (x1 : (⟨S800000x4, .f32⟩ : BufTy).Contents (Elt Ideal))
    (x2 : (⟨S3x9x128, .f32⟩ : BufTy).Contents (Elt Ideal)) (x3 : (⟨S3x4x128, .f32⟩ : BufTy).Contents (Elt Ideal))
    (x4 : (⟨S128, .f32⟩ : BufTy).Contents (Elt Ideal)) (x5 : (⟨S3x128x128, .f32⟩ : BufTy).Contents (Elt Ideal))
    (x6 : (⟨S3x4x128, .f32⟩ : BufTy).Contents (Elt Ideal)) (x7 : (⟨S128, .f32⟩ : BufTy).Contents (Elt Ideal))
    (x8 : (⟨S128x4, .f32⟩ : BufTy).Contents (Elt Ideal)) (x9 : (⟨S4, .f32⟩ : BufTy).Contents (Elt Ideal))
    (x10 : (⟨S2x800000, .i32⟩ : BufTy).Contents (Elt Ideal)) (x11 : (⟨S50000, .i32⟩ : BufTy).Contents (Elt Ideal)) :
    (⟨S64x4, .f32⟩ : BufTy).Contents (Elt Ideal) :=
  hTail (Spec.pool (hOnehot x11) (h2K (h1K x0 x1 x2 x3 x4 x10) x1 x5 x6 x7 x10)) (hCounts x11) x8 x9

end Cert.KernelIdeal.Hand

end
-- ==== Proof.KI.HostStretch.lean ====
/-
  The host stretches of the kernel program, read: what each stretch leaves in the buffers a later item reads, as the
  named functions of the arrays it starts from — over ANY contents of the buffers at the stretch's start, so that the
  run's levels can be substituted afterwards. Each is the stretch's operations composed in order; a buffer written
  by no operation of the stretch is read as found.
-/
import proofs.«413272_j14783277433402_2_alg».proof.Proof.KI.HostDefs
import proofs.«413272_j14783277433402_2_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

section Stretches
variable (W : Valuation τ sig (Elt F))

/-! ### The first stretch: the edge list's rows, the degrees, and the operands of the guarded power -/

theorem s0_v1 : StableHlo.after hostOps0 W (Proc.devRef .tc main_v1) = hSrc (F := F) (W (Proc.devRef .tc main_arg10)) := by
  after_results <;> rfl
theorem s0_v3 : StableHlo.after hostOps0 W (Proc.devRef .tc main_v3) = hDst (F := F) (W (Proc.devRef .tc main_arg10)) := by
  after_results <;> rfl
theorem s0_v9 : StableHlo.after hostOps0 W (Proc.devRef .tc main_v9)
    = cmpf .ogt (hDeg (F := F) (hSrc (W (Proc.devRef .tc main_arg10)))) (broadcastInDim S50000 ![] bcast_S_S50000 (constant (F := F) S_ .f32 0x00000000#32)) := by
  after_results <;> rfl
theorem s0_v11 : StableHlo.after hostOps0 W (Proc.devRef .tc main_v11)
    = Host.powf (hDeg (F := F) (hSrc (W (Proc.devRef .tc main_arg10)))) (broadcastInDim S50000 ![] bcast_S_S50000 (constant (F := F) S_ .f32 0xBF000000#32)) := by
  after_results <;> rfl
theorem s0_cst_3 : StableHlo.after hostOps0 W (Proc.devRef .tc main_cst_3) = constant (F := F) S_ .f32 0x00000000#32 := by
  after_results <;> rfl

/-! ### The guarded power: the select, with zero where the degree is not positive -/

theorem s0_1_v12 : StableHlo.after hostOps0_1 W (Proc.devRef .tc main_v12)
    = select (W (Proc.devRef .tc main_v9)) (W (Proc.devRef .tc main_v11))
        (broadcastInDim S50000 ![] bcast_S_S50000 (id (W (Proc.devRef .tc main_cst_3)))) := by
  after_results <;> rfl

/-! ### The third stretch: the edges' normalisation, the first layer's features, weight and edge weight -/

set_option maxHeartbeats 4000000 in
theorem s0_2_v27 : StableHlo.after hostOps0_2 W (Proc.devRef .tc main_v27)
    = mulf (Host.gather gather_S50000_S800000x1_S800000_n_0_n_n_0_1_1 (W (Proc.devRef .tc main_v12)) (hWrap (F := F) (W (Proc.devRef .tc main_v1))))
        (Host.gather gather_S50000_S800000x1_S800000_n_0_n_n_0_1_1 (W (Proc.devRef .tc main_v12)) (hWrap (F := F) (W (Proc.devRef .tc main_v3)))) := by
  after_results_simp <;> rfl
set_option maxHeartbeats 4000000 in
theorem s0_2_v49 : StableHlo.after hostOps0_2 W (Proc.devRef .tc main_v49)
    = concatenate S50000x18 1 [⟨S50000x9, W (Proc.devRef .tc main_arg0)⟩,
        ⟨S50000x9, hT1 (F := F) (W (Proc.devRef .tc main_arg0))
          (mulf (Host.gather gather_S50000_S800000x1_S800000_n_0_n_n_0_1_1 (W (Proc.devRef .tc main_v12)) (hWrap (F := F) (W (Proc.devRef .tc main_v1))))
            (Host.gather gather_S50000_S800000x1_S800000_n_0_n_n_0_1_1 (W (Proc.devRef .tc main_v12)) (hWrap (F := F) (W (Proc.devRef .tc main_v3)))))
          (W (Proc.devRef .tc main_v1)) (W (Proc.devRef .tc main_v3))⟩] concatenates_S50000x9_S50000x9_S50000x18_d1 := by
  after_results_simp <;> rfl
set_option maxHeartbeats 4000000 in
theorem s0_2_v52 : StableHlo.after hostOps0_2 W (Proc.devRef .tc main_v52) = hWcat1 (F := F) (W (Proc.devRef .tc main_arg2)) := by
  after_results_simp <;> rfl
set_option maxHeartbeats 4000000 in
theorem s0_2_v53 : StableHlo.after hostOps0_2 W (Proc.devRef .tc main_v53) = hEws (F := F) (W (Proc.devRef .tc main_arg3)) := by
  after_results <;> rfl

/-! ### Before the first node transform: the scattered edge messages and the bias row -/

theorem s1_v57 : StableHlo.after hostOps1 W (Proc.devRef .tc main_v57)
    = hEa (F := F) (W (Proc.devRef .tc main_v1)) (W (Proc.devRef .tc main_v54)) := by
  after_results <;> rfl
theorem s1_v58 : StableHlo.after hostOps1 W (Proc.devRef .tc main_v58) = hBias (F := F) (W (Proc.devRef .tc main_arg4)) := by
  after_results <;> rfl

/-! ### Between the layers: the second layer's features, weight and edge weight -/

set_option maxHeartbeats 4000000 in
theorem s2_v81 : StableHlo.after hostOps2 W (Proc.devRef .tc main_v81)
    = hFeat2 (F := F) (W (Proc.devRef .tc main_v59)) (W (Proc.devRef .tc main_v27)) (W (Proc.devRef .tc main_v1)) (W (Proc.devRef .tc main_v3)) := by
  after_results_simp <;> rfl
set_option maxHeartbeats 4000000 in
theorem s2_v84 : StableHlo.after hostOps2 W (Proc.devRef .tc main_v84) = hWcat2 (F := F) (W (Proc.devRef .tc main_arg5)) := by
  after_results_simp <;> rfl
set_option maxHeartbeats 4000000 in
theorem s2_v85 : StableHlo.after hostOps2 W (Proc.devRef .tc main_v85) = hEws (F := F) (W (Proc.devRef .tc main_arg6)) := by
  after_results <;> rfl

/-! ### Before the second node transform -/

theorem s3_v89 : StableHlo.after hostOps3 W (Proc.devRef .tc main_v89)
    = hEa (F := F) (W (Proc.devRef .tc main_v1)) (W (Proc.devRef .tc main_v86)) := by
  after_results <;> rfl
theorem s3_v90 : StableHlo.after hostOps3 W (Proc.devRef .tc main_v90) = hBias (F := F) (W (Proc.devRef .tc main_arg7)) := by
  after_results <;> rfl

/-! ### Before the pooling: the membership matrix and the graphs' sizes -/

theorem s4_v98 : StableHlo.after hostOps4 W (Proc.devRef .tc main_v98) = hOnehot (F := F) (W (Proc.devRef .tc main_arg11)) := by
  after_results <;> rfl
theorem s4_v99 : StableHlo.after hostOps4 W (Proc.devRef .tc main_v99) = hCounts (F := F) (W (Proc.devRef .tc main_arg11)) := by
  after_results <;> rfl

/-! ### The tail -/

theorem s5_v109 : StableHlo.after hostOps5 W (Proc.devRef .tc main_v109)
    = hLogits (F := F) (W (Proc.devRef .tc main_v100)) (W (Proc.devRef .tc main_v99)) (W (Proc.devRef .tc main_arg8)) (W (Proc.devRef .tc main_arg9)) := by
  after_results <;> rfl
theorem s5_1_v110 : StableHlo.after hostOps5_1 W (Proc.devRef .tc main_v110) = hLogSoftmax (F := F) (W (Proc.devRef .tc main_v109)) := by
  after_results <;> rfl

end Stretches

end Cert.KernelIdeal.Hand

end
-- ==== Proof.KI.Host.lean ====
/-
  The kernel program's host stretches along the run: what the buffers a later item reads hold at the levels of the
  run's fold, as the named functions of the launch arguments — with each region's output left as the level's
  buffer. A buffer an item neither writes nor has among its arrays is carried across it unchanged; an input array
  leaves a region as it entered.
-/
import proofs.«413272_j14783277433402_2_alg».proof.Proof.KI.HostStretch
import proofs.«413272_j14783277433402_2_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

/-! ## Buffers an item leaves alone -/

/-- A buffer the first two stretches do not write holds its launch contents at level 2. -/
theorem W2_kept (c : Dev nD) (r : Ref sig .tc) (h1 : r ∉ hostOps0_W) (h2 : r ∉ hostOps0_1_W) :
    W2 m ρ c (Proc.devRef .tc r) = m ((c : Thread nD τ).loc r) :=
  (W2_of m ρ c r h2).trans <| (W1_of m ρ c r h1).trans rfl
/-- Through the third stretch and region 0. -/
theorem W4_from2 (c : Dev nD) (r : Ref sig .tc) (h3 : r ∉ hostOps0_2_W) (h4 : ∀ w, Pipeline.arrRef spec0 w ≠ r) :
    W4 m ρ c (Proc.devRef .tc r) = W2 m ρ c (Proc.devRef .tc r) :=
  (W4_of m ρ c r h4).trans (W3_of m ρ c r h3)
/-- Through the stretch before region 1 and region 1. -/
theorem W6_from4 (c : Dev nD) (r : Ref sig .tc) (h5 : r ∉ hostOps1_W) (h6 : ∀ w, Pipeline.arrRef spec1 w ≠ r) :
    W6 m ρ c (Proc.devRef .tc r) = W4 m ρ c (Proc.devRef .tc r) :=
  (W6_of m ρ c r h6).trans (W5_of m ρ c r h5)
/-- Through the stretch between the layers and region 2. -/
theorem W8_from6 (c : Dev nD) (r : Ref sig .tc) (h7 : r ∉ hostOps2_W) (h8 : ∀ w, Pipeline.arrRef spec2 w ≠ r) :
    W8 m ρ c (Proc.devRef .tc r) = W6 m ρ c (Proc.devRef .tc r) :=
  (W8_of m ρ c r h8).trans (W7_of m ρ c r h7)
/-- Through the stretch before region 3 and region 3. -/
theorem W10_from8 (c : Dev nD) (r : Ref sig .tc) (h9 : r ∉ hostOps3_W) (h10 : ∀ w, Pipeline.arrRef spec3 w ≠ r) :
    W10 m ρ c (Proc.devRef .tc r) = W8 m ρ c (Proc.devRef .tc r) :=
  (W10_of m ρ c r h10).trans (W9_of m ρ c r h9)
/-- Through the stretch before region 4 and region 4. -/
theorem W12_from10 (c : Dev nD) (r : Ref sig .tc) (h11 : r ∉ hostOps4_W) (h12 : ∀ w, Pipeline.arrRef spec4 w ≠ r) :
    W12 m ρ c (Proc.devRef .tc r) = W10 m ρ c (Proc.devRef .tc r) :=
  (W12_of m ρ c r h12).trans (W11_of m ρ c r h11)

/-! ## The first three stretches: levels 1 to 3 -/

theorem W1_v1 (c : Dev nD) : W1 m ρ c (Proc.devRef .tc main_v1) = hSrc (m ((c : Thread nD τ).loc main_arg10)) := s0_v1 (W0 m ρ c)
theorem W1_v3 (c : Dev nD) : W1 m ρ c (Proc.devRef .tc main_v3) = hDst (m ((c : Thread nD τ).loc main_arg10)) := s0_v3 (W0 m ρ c)
theorem W2_v1 (c : Dev nD) : W2 m ρ c (Proc.devRef .tc main_v1) = hSrc (m ((c : Thread nD τ).loc main_arg10)) :=
  (W2_of m ρ c main_v1 (by decide)).trans (W1_v1 m ρ c)
theorem W2_v3 (c : Dev nD) : W2 m ρ c (Proc.devRef .tc main_v3) = hDst (m ((c : Thread nD τ).loc main_arg10)) :=
  (W2_of m ρ c main_v3 (by decide)).trans (W1_v3 m ρ c)
/-- The degree^(-1/2), through the guarded power's three pieces. -/
theorem W2_v12 (c : Dev nD) : W2 m ρ c (Proc.devRef .tc main_v12) = hDinv (hSrc (m ((c : Thread nD τ).loc main_arg10))) := by
  refine (s0_1_v12 (W1 m ρ c)).trans ?_
  rw [show W1 m ρ c (Proc.devRef .tc main_v9) = _ from s0_v9 (W0 m ρ c), show W1 m ρ c (Proc.devRef .tc main_v11) = _ from s0_v11 (W0 m ρ c),
    show W1 m ρ c (Proc.devRef .tc main_cst_3) = _ from s0_cst_3 (W0 m ρ c)]
  rfl
theorem W3_v1 (c : Dev nD) : W3 m ρ c (Proc.devRef .tc main_v1) = hSrc (m ((c : Thread nD τ).loc main_arg10)) :=
  (W3_of m ρ c main_v1 (by decide)).trans (W2_v1 m ρ c)
theorem W3_v3 (c : Dev nD) : W3 m ρ c (Proc.devRef .tc main_v3) = hDst (m ((c : Thread nD τ).loc main_arg10)) :=
  (W3_of m ρ c main_v3 (by decide)).trans (W2_v3 m ρ c)
theorem W3_v27 (c : Dev nD) : W3 m ρ c (Proc.devRef .tc main_v27) = hNormE (m ((c : Thread nD τ).loc main_arg10)) := by
  refine (s0_2_v27 (W2 m ρ c)).trans ?_
  rw [W2_v12, W2_v1, W2_v3]
  rfl
theorem W3_v49 (c : Dev nD) : W3 m ρ c (Proc.devRef .tc main_v49) = hFeat1 (m ((c : Thread nD τ).loc main_arg0)) (m ((c : Thread nD τ).loc main_arg10)) := by
  refine (s0_2_v49 (W2 m ρ c)).trans ?_
  rw [W2_v12, W2_v1, W2_v3, W2_kept m ρ c main_arg0 (by decide) (by decide)]
  rfl
theorem W3_v52 (c : Dev nD) : W3 m ρ c (Proc.devRef .tc main_v52) = hWcat1 (m ((c : Thread nD τ).loc main_arg2)) :=
  (s0_2_v52 (W2 m ρ c)).trans (congrArg hWcat1 (W2_kept m ρ c main_arg2 (by decide) (by decide)))
theorem W3_v53 (c : Dev nD) : W3 m ρ c (Proc.devRef .tc main_v53) = hEws (m ((c : Thread nD τ).loc main_arg3)) :=
  (s0_2_v53 (W2 m ρ c)).trans (congrArg hEws (W2_kept m ρ c main_arg3 (by decide) (by decide)))

/-- Region 0's inputs at its entry: the summed edge weight, and the edge attributes as launched. -/
theorem V3_v53 (c : Dev nD) : V3 m ρ c main_v53 = hEws (m ((c : Thread nD τ).loc main_arg3)) := W3_v53 m ρ c
theorem V3_arg1 (c : Dev nD) : V3 m ρ c main_arg1 = m ((c : Thread nD τ).loc main_arg1) :=
  (W3_of m ρ c main_arg1 (by decide)).trans (W2_kept m ρ c main_arg1 (by decide) (by decide))

/-! ## Region 1's inputs at its entry: level 5 -/

theorem W4_v1 (c : Dev nD) : W4 m ρ c (Proc.devRef .tc main_v1) = hSrc (m ((c : Thread nD τ).loc main_arg10)) :=
  (W4_from2 m ρ c main_v1 (by decide) (by decide)).trans (W2_v1 m ρ c)
theorem W4_v3 (c : Dev nD) : W4 m ρ c (Proc.devRef .tc main_v3) = hDst (m ((c : Thread nD τ).loc main_arg10)) :=
  (W4_from2 m ρ c main_v3 (by decide) (by decide)).trans (W2_v3 m ρ c)
theorem W4_v27 (c : Dev nD) : W4 m ρ c (Proc.devRef .tc main_v27) = hNormE (m ((c : Thread nD τ).loc main_arg10)) :=
  (W4_of m ρ c main_v27 (by decide)).trans (W3_v27 m ρ c)
theorem W4_kept (c : Dev nD) (r : Ref sig .tc) (h1 : r ∉ hostOps0_W) (h2 : r ∉ hostOps0_1_W) (h3 : r ∉ hostOps0_2_W)
    (h4 : ∀ w, Pipeline.arrRef spec0 w ≠ r) : W4 m ρ c (Proc.devRef .tc r) = m ((c : Thread nD τ).loc r) :=
  (W4_from2 m ρ c r h3 h4).trans (W2_kept m ρ c r h1 h2)
theorem V5_v49 (c : Dev nD) : V5 m ρ c main_v49 = hFeat1 (m ((c : Thread nD τ).loc main_arg0)) (m ((c : Thread nD τ).loc main_arg10)) :=
  (W5_of m ρ c main_v49 (by decide)).trans <| (W4_of m ρ c main_v49 (by decide)).trans (W3_v49 m ρ c)
theorem V5_v52 (c : Dev nD) : V5 m ρ c main_v52 = hWcat1 (m ((c : Thread nD τ).loc main_arg2)) :=
  (W5_of m ρ c main_v52 (by decide)).trans <| (W4_of m ρ c main_v52 (by decide)).trans (W3_v52 m ρ c)
theorem V5_v58 (c : Dev nD) : V5 m ρ c main_v58 = hBias (m ((c : Thread nD τ).loc main_arg4)) :=
  (s1_v58 (W4 m ρ c)).trans (congrArg hBias (W4_kept m ρ c main_arg4 (by decide) (by decide) (by decide) (by decide)))
/-- The scattered edge messages, region 0's output left as the level's buffer. -/
theorem V5_v57 (c : Dev nD) : V5 m ρ c main_v57 = hEa (hSrc (m ((c : Thread nD τ).loc main_arg10))) (W4 m ρ c (Proc.devRef .tc main_v54)) := by
  refine (s1_v57 (W4 m ρ c)).trans ?_
  rw [W4_v1]

/-! ## Region 2's inputs at its entry: level 7 -/

theorem W6_kept (c : Dev nD) (r : Ref sig .tc) (h1 : r ∉ hostOps0_W) (h2 : r ∉ hostOps0_1_W) (h3 : r ∉ hostOps0_2_W)
    (h4 : ∀ w, Pipeline.arrRef spec0 w ≠ r) (h5 : r ∉ hostOps1_W) (h6 : ∀ w, Pipeline.arrRef spec1 w ≠ r) :
    W6 m ρ c (Proc.devRef .tc r) = m ((c : Thread nD τ).loc r) :=
  (W6_from4 m ρ c r h5 h6).trans (W4_kept m ρ c r h1 h2 h3 h4)
theorem W6_v1 (c : Dev nD) : W6 m ρ c (Proc.devRef .tc main_v1) = hSrc (m ((c : Thread nD τ).loc main_arg10)) :=
  (W6_from4 m ρ c main_v1 (by decide) (by decide)).trans (W4_v1 m ρ c)
theorem W6_v3 (c : Dev nD) : W6 m ρ c (Proc.devRef .tc main_v3) = hDst (m ((c : Thread nD τ).loc main_arg10)) :=
  (W6_from4 m ρ c main_v3 (by decide) (by decide)).trans (W4_v3 m ρ c)
theorem W6_v27 (c : Dev nD) : W6 m ρ c (Proc.devRef .tc main_v27) = hNormE (m ((c : Thread nD τ).loc main_arg10)) :=
  (W6_from4 m ρ c main_v27 (by decide) (by decide)).trans (W4_v27 m ρ c)
/-- The edge attributes are an input window's array of region 0: an input array leaves a region as it entered. -/
theorem W4_arg1 (c : Dev nD) : W4 m ρ c (Proc.devRef .tc main_arg1) = m ((c : Thread nD τ).loc main_arg1) :=
  ((W4_arr m ρ c 0).trans (((dat0 (V3 m ρ) c).arrAt_in 0 rfl _).trans (A_eq0 (V3 m ρ) c 0))).trans (V3_arg1 m ρ c)
theorem V7_arg1 (c : Dev nD) : V7 m ρ c main_arg1 = m ((c : Thread nD τ).loc main_arg1) :=
  (W7_of m ρ c main_arg1 (by decide)).trans <| (W6_from4 m ρ c main_arg1 (by decide) (by decide)).trans (W4_arg1 m ρ c)
theorem V7_v85 (c : Dev nD) : V7 m ρ c main_v85 = hEws (m ((c : Thread nD τ).loc main_arg6)) :=
  (s2_v85 (W6 m ρ c)).trans (congrArg hEws (W6_kept m ρ c main_arg6 (by decide) (by decide) (by decide) (by decide) (by decide) (by decide)))
/-- The second layer's features, region 1's output left as the level's buffer. -/
theorem W7_v81 (c : Dev nD) : W7 m ρ c (Proc.devRef .tc main_v81)
    = hFeat2 (W6 m ρ c (Proc.devRef .tc main_v59)) (hNormE (m ((c : Thread nD τ).loc main_arg10))) (hSrc (m ((c : Thread nD τ).loc main_arg10))) (hDst (m ((c : Thread nD τ).loc main_arg10))) := by
  refine (s2_v81 (W6 m ρ c)).trans ?_
  rw [W6_v27, W6_v1, W6_v3]
theorem W7_v84 (c : Dev nD) : W7 m ρ c (Proc.devRef .tc main_v84) = hWcat2 (m ((c : Thread nD τ).loc main_arg5)) :=
  (s2_v84 (W6 m ρ c)).trans (congrArg hWcat2 (W6_kept m ρ c main_arg5 (by decide) (by decide) (by decide) (by decide) (by decide) (by decide)))

/-! ## Region 3's inputs at its entry: level 9 -/

theorem W8_kept (c : Dev nD) (r : Ref sig .tc) (h1 : r ∉ hostOps0_W) (h2 : r ∉ hostOps0_1_W) (h3 : r ∉ hostOps0_2_W)
    (h4 : ∀ w, Pipeline.arrRef spec0 w ≠ r) (h5 : r ∉ hostOps1_W) (h6 : ∀ w, Pipeline.arrRef spec1 w ≠ r)
    (h7 : r ∉ hostOps2_W) (h8 : ∀ w, Pipeline.arrRef spec2 w ≠ r) :
    W8 m ρ c (Proc.devRef .tc r) = m ((c : Thread nD τ).loc r) :=
  (W8_from6 m ρ c r h7 h8).trans (W6_kept m ρ c r h1 h2 h3 h4 h5 h6)
theorem W8_v1 (c : Dev nD) : W8 m ρ c (Proc.devRef .tc main_v1) = hSrc (m ((c : Thread nD τ).loc main_arg10)) :=
  (W8_from6 m ρ c main_v1 (by decide) (by decide)).trans (W6_v1 m ρ c)
theorem V9_v81 (c : Dev nD) : V9 m ρ c main_v81
    = hFeat2 (W6 m ρ c (Proc.devRef .tc main_v59)) (hNormE (m ((c : Thread nD τ).loc main_arg10))) (hSrc (m ((c : Thread nD τ).loc main_arg10))) (hDst (m ((c : Thread nD τ).loc main_arg10))) :=
  (W9_of m ρ c main_v81 (by decide)).trans <| (W8_of m ρ c main_v81 (by decide)).trans (W7_v81 m ρ c)
theorem V9_v84 (c : Dev nD) : V9 m ρ c main_v84 = hWcat2 (m ((c : Thread nD τ).loc main_arg5)) :=
  (W9_of m ρ c main_v84 (by decide)).trans <| (W8_of m ρ c main_v84 (by decide)).trans (W7_v84 m ρ c)
theorem V9_v90 (c : Dev nD) : V9 m ρ c main_v90 = hBias (m ((c : Thread nD τ).loc main_arg7)) :=
  (s3_v90 (W8 m ρ c)).trans (congrArg hBias (W8_kept m ρ c main_arg7 (by decide) (by decide) (by decide) (by decide) (by decide) (by decide) (by decide) (by decide)))
/-- The scattered edge messages of the second layer, region 2's output left as the level's buffer. -/
theorem V9_v89 (c : Dev nD) : V9 m ρ c main_v89 = hEa (hSrc (m ((c : Thread nD τ).loc main_arg10))) (W8 m ρ c (Proc.devRef .tc main_v86)) := by
  refine (s3_v89 (W8 m ρ c)).trans ?_
  rw [W8_v1]

/-! ## Region 4's inputs at its entry: level 11 -/

theorem W10_kept (c : Dev nD) (r : Ref sig .tc) (h1 : r ∉ hostOps0_W) (h2 : r ∉ hostOps0_1_W) (h3 : r ∉ hostOps0_2_W)
    (h4 : ∀ w, Pipeline.arrRef spec0 w ≠ r) (h5 : r ∉ hostOps1_W) (h6 : ∀ w, Pipeline.arrRef spec1 w ≠ r)
    (h7 : r ∉ hostOps2_W) (h8 : ∀ w, Pipeline.arrRef spec2 w ≠ r) (h9 : r ∉ hostOps3_W) (h10 : ∀ w, Pipeline.arrRef spec3 w ≠ r) :
    W10 m ρ c (Proc.devRef .tc r) = m ((c : Thread nD τ).loc r) :=
  (W10_from8 m ρ c r h9 h10).trans (W8_kept m ρ c r h1 h2 h3 h4 h5 h6 h7 h8)
theorem W11_v98 (c : Dev nD) : W11 m ρ c (Proc.devRef .tc main_v98) = hOnehot (m ((c : Thread nD τ).loc main_arg11)) :=
  (s4_v98 (W10 m ρ c)).trans (congrArg hOnehot (W10_kept m ρ c main_arg11 (by decide) (by decide) (by decide) (by decide) (by decide) (by decide) (by decide) (by decide) (by decide) (by decide)))
theorem W11_v99 (c : Dev nD) : W11 m ρ c (Proc.devRef .tc main_v99) = hCounts (m ((c : Thread nD τ).loc main_arg11)) :=
  (s4_v99 (W10 m ρ c)).trans (congrArg hCounts (W10_kept m ρ c main_arg11 (by decide) (by decide) (by decide) (by decide) (by decide) (by decide) (by decide) (by decide) (by decide) (by decide)))
theorem V11_v98 (c : Dev nD) : V11 m ρ c main_v98 = hOnehot (m ((c : Thread nD τ).loc main_arg11)) := W11_v98 m ρ c
/-- Region 3's output reaches region 4 as region 3 left it. -/
theorem V11_v91 (c : Dev nD) : V11 m ρ c main_v91 = W10 m ρ c (Proc.devRef .tc main_v91) :=
  W11_of m ρ c main_v91 (by decide)

/-! ## The result: level 14 -/

theorem W12_kept (c : Dev nD) (r : Ref sig .tc) (h1 : r ∉ hostOps0_W) (h2 : r ∉ hostOps0_1_W) (h3 : r ∉ hostOps0_2_W)
    (h4 : ∀ w, Pipeline.arrRef spec0 w ≠ r) (h5 : r ∉ hostOps1_W) (h6 : ∀ w, Pipeline.arrRef spec1 w ≠ r)
    (h7 : r ∉ hostOps2_W) (h8 : ∀ w, Pipeline.arrRef spec2 w ≠ r) (h9 : r ∉ hostOps3_W) (h10 : ∀ w, Pipeline.arrRef spec3 w ≠ r)
    (h11 : r ∉ hostOps4_W) (h12 : ∀ w, Pipeline.arrRef spec4 w ≠ r) :
    W12 m ρ c (Proc.devRef .tc r) = m ((c : Thread nD τ).loc r) :=
  (W12_from10 m ρ c r h11 h12).trans (W10_kept m ρ c r h1 h2 h3 h4 h5 h6 h7 h8 h9 h10)
theorem W12_v99 (c : Dev nD) : W12 m ρ c (Proc.devRef .tc main_v99) = hCounts (m ((c : Thread nD τ).loc main_arg11)) :=
  (W12_of m ρ c main_v99 (by decide)).trans (W11_v99 m ρ c)
/-- The result: the tail of region 4's output (left as the level's buffer), the graphs' sizes and the last layer's
    weight and bias. -/
theorem W14_v110 (c : Dev nD) : W14 m ρ c (Proc.devRef .tc main_v110)
    = hTail (W12 m ρ c (Proc.devRef .tc main_v100)) (hCounts (m ((c : Thread nD τ).loc main_arg11))) (m ((c : Thread nD τ).loc main_arg8)) (m ((c : Thread nD τ).loc main_arg9)) := by
  refine (s5_1_v110 (W13 m ρ c)).trans ?_
  rw [show W13 m ρ c (Proc.devRef .tc main_v109) = _ from s5_v109 (W12 m ρ c), W12_v99,
    W12_kept m ρ c main_arg8 (by decide) (by decide) (by decide) (by decide) (by decide) (by decide) (by decide) (by decide) (by decide) (by decide) (by decide) (by decide),
    W12_kept m ρ c main_arg9 (by decide) (by decide) (by decide) (by decide) (by decide) (by decide) (by decide) (by decide) (by decide) (by decide) (by decide) (by decide)]
  rfl

end Cert.KernelIdeal.Hand

end
-- ==== Proof.KI.Val0.lean ====
/-
  Region 0's value on the extended reals: after the region, the edge transform's output array is the matrix
  product of the edge array with the weight — entry (r, j) is the sum over the 4 edge features k of
  edge (r, k) * weight (k, j). Each grid point writes back the 16000 rows of that product that its block covers;
  row r is covered by point r / 16000, so the 50 blocks fill the array.
-/
import proofs.«413272_j14783277433402_2_alg».proof.Proof.KI.Reg0
import proofs.«413272_j14783277433402_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-! ## The payload at an index -/

/-- The operand indices of the block's product at output index `i` and contraction index `q`: the left operand is
    read at (row of `i`, `q`), the right one at (`q`, column of `i`). -/
theorem lhs_pay0_0 (i : S16000x128.Idx) (q : dot_S16000x4_S4x128_S16000x128_1_0_0_1_n_n.contr.Idx) :
    (dot_S16000x4_S4x128_S16000x128_1_0_0_1_n_n.lhsIdx i q 0).val = (i 0).val := by
  unfold DotDims.lhsIdx
  rw [dif_neg (show ¬(0 : Fin S16000x4.rank) ∈ dot_S16000x4_S4x128_S16000x128_1_0_0_1_n_n.lhsBatch by decide), dif_pos (show (0 : Fin S16000x4.rank) ∈ dot_S16000x4_S4x128_S16000x128_1_0_0_1_n_n.lhsNonContracting by decide)]
  rfl
theorem lhs_pay0_1 (i : S16000x128.Idx) (q : dot_S16000x4_S4x128_S16000x128_1_0_0_1_n_n.contr.Idx) :
    (dot_S16000x4_S4x128_S16000x128_1_0_0_1_n_n.lhsIdx i q 1).val = (q ⟨0, by decide⟩).val :=
  dot_S16000x4_S4x128_S16000x128_1_0_0_1_n_n.lhsIdx_val_of_single rfl i q
theorem rhs_pay0_0 (i : S16000x128.Idx) (q : dot_S16000x4_S4x128_S16000x128_1_0_0_1_n_n.contr.Idx) :
    (dot_S16000x4_S4x128_S16000x128_1_0_0_1_n_n.rhsIdx i q 0).val = (q ⟨0, by decide⟩).val :=
  dot_S16000x4_S4x128_S16000x128_1_0_0_1_n_n.rhsIdx_val_of_single rfl i q
theorem rhs_pay0_1 (i : S16000x128.Idx) (q : dot_S16000x4_S4x128_S16000x128_1_0_0_1_n_n.contr.Idx) :
    (dot_S16000x4_S4x128_S16000x128_1_0_0_1_n_n.rhsIdx i q 1).val = (i 1).val := by
  unfold DotDims.rhsIdx
  rw [dif_neg (show ¬(1 : Fin S4x128.rank) ∈ dot_S16000x4_S4x128_S16000x128_1_0_0_1_n_n.rhsBatch by decide), dif_pos (show (1 : Fin S4x128.rank) ∈ dot_S16000x4_S4x128_S16000x128_1_0_0_1_n_n.rhsNonContracting by decide)]
  rfl

/-- Where the block's product reads its left operand for output index `i` and feature `k`: (row of `i`, `k`). -/
abbrev lidx_pay0 (i : S16000x128.Idx) (k : Fin 4) : S16000x4.Idx := fun a => match a with
  | ⟨0, _⟩ => ⟨(i 0).val, (i 0).isLt⟩
  | ⟨1, _⟩ => ⟨k.val, k.isLt⟩
/-- Where it reads its right operand: (`k`, column of `i`). -/
abbrev ridx_pay0 (i : S16000x128.Idx) (k : Fin 4) : S4x128.Idx := fun a => match a with
  | ⟨0, _⟩ => ⟨k.val, k.isLt⟩
  | ⟨1, _⟩ => ⟨(i 1).val, (i 1).isLt⟩

/-- The body's payload at an index, on the extended reals: rounding to bf16 and the cast to the same shape are the
    identity there, and the product into a zero accumulator is the plain sum over the 4 features. -/
theorem pay0_apply (x0 : Vec Ideal S16000x4 .f32) (x1 : Vec Ideal S4x128 .f32) (i : S16000x128.Idx) :
    k0_pay1 (F := Ideal) x0 x1 i = ∑ k : Fin 4, x0 (lidx_pay0 i k) * x1 (ridx_pay0 i k) := by
  unfold k0_pay1
  simp only [matmul]
  rw [Ideal.matmul_constant_zero_apply, ← Equiv.sum_comp (ValueIdx.contrEquiv1 dot_S16000x4_S4x128_S16000x128_1_0_0_1_n_n 4 rfl rfl).symm]
  refine Finset.sum_congr rfl fun k _ => ?_
  have hk := ValueIdx.contrEquiv1_symm_val dot_S16000x4_S4x128_S16000x128_1_0_0_1_n_n 4 rfl rfl k
  have el : dot_S16000x4_S4x128_S16000x128_1_0_0_1_n_n.lhsIdx i ((ValueIdx.contrEquiv1 dot_S16000x4_S4x128_S16000x128_1_0_0_1_n_n 4 rfl rfl).symm k) = lidx_pay0 i k := funext fun a => Fin.ext (by
    match a with
    | ⟨0, _⟩ => exact lhs_pay0_0 _ _
    | ⟨1, _⟩ => exact (lhs_pay0_1 _ _).trans hk)
  have er : dot_S16000x4_S4x128_S16000x128_1_0_0_1_n_n.rhsIdx i ((ValueIdx.contrEquiv1 dot_S16000x4_S4x128_S16000x128_1_0_0_1_n_n 4 rfl rfl).symm k) = ridx_pay0 i k := funext fun a => Fin.ext (by
    match a with
    | ⟨0, _⟩ => exact (rhs_pay0_0 _ _).trans hk
    | ⟨1, _⟩ => exact rhs_pay0_1 _ _)
  rw [el, er, truncf_apply, truncf_apply, shapeCast_self]

/-! ## From blocks to the array -/

theorem hz0 : (![0, 0] : Fin 2 → Nat) = fun _ => 0 := funext fun a => by fin_cases a <;> rfl

/-- The printed index maps, decided over the 50 grid points: point `t` stages the `t`-th block of edge rows and
    writes back the `t`-th block of output rows; the weight's one block is the whole weight. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the edge array with the weight, both as the region
    finds them: entry (r, j) of the block is the sum over k of the edge block's (r, k), which is the edge array's
    (16000 t + r, k), times the weight's (k, j). -/
theorem flushed0_2_eq (c : Dev nD) (t : Fin cfg0.N) :
    (dat0 V c).flushed 2 t = ((cfg0.win 2).blk t).view.read (Elt Ideal) (Spec.mm (M := 800000) (K := 4) (N := 128) (V c main_arg1) (V c main_v53)) := by
  show (cfg0.win 2).cut (grid0.coords t) ((dat0 V c).after 2 t) = _
  rw [after0_2]
  unfold out0_2
  rw [View.canon_unit_zero hz0]
  simp only [View.ld_unit_zero (S := S16000x4) hz0, View.ld_unit_zero (S := S4x128) hz0]
  obtain ⟨e0, e1, e2, e3, e4, e5⟩ := idx_facts0 t
  funext j
  show k0_pay1 (F := Ideal) (iblk0 V c 0 t) (iblk0 V c 1 t) j = Spec.mm (M := 800000) (K := 4) (N := 128) (V c main_arg1) (V c main_v53) (((cfg0.win 2).blk t).view.emb j)
  rw [pay0_apply]
  unfold Spec.mm
  refine Finset.sum_congr rfl fun k _ => ?_
  refine congrArg₂ (· * ·) ?_ ?_
  · show (V c main_arg1 : S800000x4.Idx → EReal) (((cfg0.win 0).blk t).view.emb (lidx_pay0 j k)) = (V c main_arg1 : S800000x4.Idx → EReal) _
    refine congrArg (V c main_arg1 : S800000x4.Idx → EReal) (funext fun a => Fin.ext ?_)
    match a with
    | ⟨0, _⟩ => show win0_0.index t (0 : Fin 2) * 16000 + 1 * (j 0).val = win0_2.index t (0 : Fin 2) * 16000 + 1 * (j 0).val; omega
    | ⟨1, _⟩ => show win0_0.index t (1 : Fin 2) * 4 + 1 * k.val = k.val; omega
  · show (V c main_v53 : S4x128.Idx → EReal) (((cfg0.win 1).blk t).view.emb (ridx_pay0 j k)) = (V c main_v53 : S4x128.Idx → EReal) _
    refine congrArg (V c main_v53 : S4x128.Idx → EReal) (funext fun a => Fin.ext ?_)
    match a with
    | ⟨0, _⟩ => show win0_1.index t (0 : Fin 2) * 4 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_blk0_2 (t : Fin cfg0.N) (i : S800000x128.Idx) :
    i ∈ ((cfg0.win 2).blk t).view.set ↔ ∀ a : Fin 2, win0_2.index t a * S16000x128.size a ≤ (i a).val ∧ (i a).val < win0_2.index t a * S16000x128.size a + S16000x128.size a := by
  show i ∈ ((View.whole main_v54).slice (win0_2.rect t)).set ↔ _
  rw [View.set_slice_whole, Rect.mem_set_unit]
  exact Iff.rfl

/-- Every index of the output array is in some point's block: row r is in the block of point r / 16000. -/
theorem covered0_2 (i : S800000x128.Idx) :
    ∃ t : Fin cfg0.N, (cfg0.win 2).flush t = true ∧ i ∈ ((cfg0.win 2).blk t).view.set := by
  have hi0 : (i 0).val < 800000 := (i 0).isLt
  have hi1 : (i 1).val < 128 := (i 1).isLt
  have hN : (i 0).val / 16000 < cfg0.N := by show _ < grid0.N; rw [N_0]; omega
  obtain ⟨e0, e1, e2, e3, e4, e5⟩ := idx_facts0 ⟨(i 0).val / 16000, hN⟩
  have q4 : win0_2.index ⟨(i 0).val / 16000, hN⟩ (0 : Fin 2) = (i 0).val / 16000 := e4
  refine ⟨⟨(i 0).val / 16000, hN⟩, flush0_2 _, ?_⟩
  rw [mem_blk0_2]
  intro a
  match a with
  | ⟨0, _⟩ => show win0_2.index ⟨(i 0).val / 16000, hN⟩ (0 : Fin 2) * 16000 ≤ (i 0).val ∧ (i 0).val < win0_2.index ⟨(i 0).val / 16000, hN⟩ (0 : Fin 2) * 16000 + 16000; omega
  | ⟨1, _⟩ => show win0_2.index ⟨(i 0).val / 16000, hN⟩ (1 : Fin 2) * 128 ≤ (i 1).val ∧ (i 1).val < win0_2.index ⟨(i 0).val / 16000, hN⟩ (1 : Fin 2) * 128 + 128; omega

/-- The output array after the region: the product of the edge array with the weight. -/
theorem arr0 (c : Dev nD) : (dat0 (F := Ideal) V c).arrAt 2 cfg0.N = Spec.mm (M := 800000) (K := 4) (N := 128) (V c main_arg1) (V c main_v53) :=
  (dat0 V c).arrAt_eq_of_cover 2 _ (fun t _ => flushed0_2_eq V c t) covered0_2

end Cert.KernelIdeal.Hand

end
-- ==== Proof.KI.Val1.lean ====
/-
  Region 1's value at the extended reals: the array the node transform of the first layer leaves, as one function
  of the four arrays it reads — every entry is the clipped sum of the node's row times the weight's column, the bias
  at the column, and the edge aggregate's entry. The body's arithmetic on a block is the same transform of the
  block; block t of the output is rows 2000 t .. 2000 t + 1999, read against the same rows of the features and of
  the aggregate and the whole weight and bias; the 25 blocks cover the array.
-/
import proofs.«413272_j14783277433402_2_alg».proof.Proof.KI.Reg1
import proofs.«413272_j14783277433402_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The product's operand indices -/

theorem lhs1_0 (j : S2000x128.Idx) (q : dot_S2000x18_S18x128_S2000x128_1_0_0_1_n_n.contr.Idx) :
    (dot_S2000x18_S18x128_S2000x128_1_0_0_1_n_n.lhsIdx j q 0).val = (j 0).val := by
  unfold DotDims.lhsIdx
  rw [dif_neg (show ¬(0 : Fin S2000x18.rank) ∈ dot_S2000x18_S18x128_S2000x128_1_0_0_1_n_n.lhsBatch by decide), dif_pos (show (0 : Fin S2000x18.rank) ∈ dot_S2000x18_S18x128_S2000x128_1_0_0_1_n_n.lhsNonContracting by decide)]
  rfl
theorem lhs1_1 (j : S2000x128.Idx) (q : dot_S2000x18_S18x128_S2000x128_1_0_0_1_n_n.contr.Idx) :
    (dot_S2000x18_S18x128_S2000x128_1_0_0_1_n_n.lhsIdx j q 1).val = (q ⟨0, by decide⟩).val :=
  dot_S2000x18_S18x128_S2000x128_1_0_0_1_n_n.lhsIdx_val_of_single rfl j q
theorem rhs1_0 (j : S2000x128.Idx) (q : dot_S2000x18_S18x128_S2000x128_1_0_0_1_n_n.contr.Idx) :
    (dot_S2000x18_S18x128_S2000x128_1_0_0_1_n_n.rhsIdx j q 0).val = (q ⟨0, by decide⟩).val :=
  dot_S2000x18_S18x128_S2000x128_1_0_0_1_n_n.rhsIdx_val_of_single rfl j q
theorem rhs1_1 (j : S2000x128.Idx) (q : dot_S2000x18_S18x128_S2000x128_1_0_0_1_n_n.contr.Idx) :
    (dot_S2000x18_S18x128_S2000x128_1_0_0_1_n_n.rhsIdx j q 1).val = (j 1).val := by
  unfold DotDims.rhsIdx
  rw [dif_neg (show ¬(1 : Fin S18x128.rank) ∈ dot_S2000x18_S18x128_S2000x128_1_0_0_1_n_n.rhsBatch by decide), dif_pos (show (1 : Fin S18x128.rank) ∈ dot_S2000x18_S18x128_S2000x128_1_0_0_1_n_n.rhsNonContracting by decide)]
  rfl

/-- The block's product into the zero accumulator, at an index: row `j 0` of the left operand against column `j 1`
    of the right. -/
theorem mm1_apply (a : FVec Ideal S2000x18 .bf16) (b : FVec Ideal S18x128 .bf16) (j : S2000x128.Idx) :
    matmul dot_S2000x18_S18x128_S2000x128_1_0_0_1_n_n none a b (constant (F := Ideal) S2000x128 .f32 0x00000000#32) j
      = ∑ k : Fin 18, a (ix2 (Spec.row j) k) * b (ix2 k (Spec.col j)) := by
  simp only [matmul]
  rw [Ideal.matmul_constant_zero_apply, ← Equiv.sum_comp (ValueIdx.contrEquiv1 dot_S2000x18_S18x128_S2000x128_1_0_0_1_n_n 18 rfl rfl).symm]
  refine Finset.sum_congr rfl fun k _ => ?_
  have hk := ValueIdx.contrEquiv1_symm_val dot_S2000x18_S18x128_S2000x128_1_0_0_1_n_n 18 rfl rfl k
  have el : dot_S2000x18_S18x128_S2000x128_1_0_0_1_n_n.lhsIdx j ((ValueIdx.contrEquiv1 dot_S2000x18_S18x128_S2000x128_1_0_0_1_n_n 18 rfl rfl).symm k) = ix2 (Spec.row j) k := funext fun ax => Fin.ext (by
    match ax with
    | ⟨0, _⟩ => exact lhs1_0 _ _
    | ⟨1, _⟩ => exact (lhs1_1 _ _).trans hk)
  have er : dot_S2000x18_S18x128_S2000x128_1_0_0_1_n_n.rhsIdx j ((ValueIdx.contrEquiv1 dot_S2000x18_S18x128_S2000x128_1_0_0_1_n_n 18 rfl rfl).symm k) = ix2 k (Spec.col j) := funext fun ax => Fin.ext (by
    match ax with
    | ⟨0, _⟩ => exact (rhs1_0 _ _).trans hk
    | ⟨1, _⟩ => exact rhs1_1 _ _)
  rw [el, er]

/-! ## The body's arithmetic on a block is the node transform of the block -/

/-- What the body stores, from the four blocks as loaded: the node transform of the blocks. At the extended reals
    the narrowing of the product's operands and the casts to the same shape change nothing; the bias row is
    repeated over the block's rows; the literal the sum is clipped at is zero. -/
theorem pay1_node (x0 : Vec Ideal S2000x18 .f32) (x1 : Vec Ideal S18x128 .f32) (x2 : Vec Ideal S1x128 .f32) (x3 : Vec Ideal S2000x128 .f32) :
    k1_pay1 (F := Ideal) x0 x1 x2 x3 = Spec.node (M := 2000) (K := 18) (N := 128) x0 x1 x2 x3 := by
  funext j
  obtain ⟨p, q, rfl⟩ : ∃ (p : Fin 2000) (q : Fin 128), j = ix2 p q := ⟨j 0, j 1, eq_ix2 j⟩
  unfold k1_pay1 Spec.node Spec.mm
  simp only [shapeCast_self]
  rw [maximumf_apply, addf_apply, addf_apply, broadcast_apply, mm1_apply, broadcastTo_1b_ab_apply,
    show (FloatOps.ofBits FTy.f32 0x00000000#32 : Ideal .f32) = 0 from Ideal.ofBits_zero_f32]
  rfl

/-! ## From blocks to the array -/

-- the TensorCore's buffer contents when the region is entered
variable (V : (c : Dev nD) → (b : Ref sig .tc) → Buf (Elt Ideal) ((c : Thread nD τ).loc b))

theorem hz1 : (![0, 0] : Fin 2 → Nat) = fun _ => 0 := funext fun a => by fin_cases a <;> rfl

/-- The windows' block indices over the grid: the feature, aggregate and output windows are at block row `t`, column
    block 0; the weight and the bias are whole, at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the node transform of the four arrays as the region finds them. -/
theorem flushed1_4_eq (c : Dev nD) (t : Fin cfg1.N) :
    (dat1 (F := Ideal) V c).flushed 4 t = ((cfg1.win 4).blk t).view.read (Elt Ideal)
      (Spec.node (M := 50000) (K := 18) (N := 128) (V c main_v49) (V c main_v52) (V c main_v58) (V c main_v57)) := by
  show (cfg1.win 4).cut (grid1.coords t) ((dat1 V c).after 4 t) = _
  rw [after1_4]
  unfold out1_4
  rw [View.canon_unit_zero hz1]
  simp only [View.ld_unit_zero (S := S2000x18) hz1, View.ld_unit_zero (S := S18x128) hz1, View.ld_unit_zero (S := S1x128) hz1,
    View.ld_unit_zero (S := S2000x128) hz1]
  rw [pay1_node]
  obtain ⟨e00, e01, e10, e11, e20, e21, e30, e31, e40, e41⟩ := idx_facts1 t
  funext j
  show Spec.node (M := 2000) (K := 18) (N := 128) (iblk1 V c 0 t) (iblk1 V c 1 t) (iblk1 V c 2 t) (iblk1 V c 3 t) j
    = Spec.node (M := 50000) (K := 18) (N := 128) (V c main_v49) (V c main_v52) (V c main_v58) (V c main_v57) (((cfg1.win 4).blk t).view.emb j)
  have hj0 : (j 0).val < 2000 := (j 0).isLt
  have hj1 : (j 1).val < 128 := (j 1).isLt
  -- a block's coordinate is its block index times the block's extent plus the coordinate inside the block
  have h0 : ∀ k : Fin 18, iblk1 V c 0 t (ix2 (Spec.row j) k) = V c main_v49 (ix2 (Spec.row (((cfg1.win 4).blk t).view.emb j)) k) := fun k => by
    show V c main_v49 (((cfg1.win 0).blk t).view.emb (ix2 (Spec.row j) k)) = _
    refine congrArg _ (funext fun a => Fin.ext ?_)
    have hk : k.val < 18 := k.isLt
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 18 + 1 * k.val = k.val; omega
  have h1 : ∀ k : Fin 18, iblk1 V c 1 t (ix2 k (Spec.col j)) = V c main_v52 (ix2 k (Spec.col (((cfg1.win 4).blk t).view.emb j))) := fun k => by
    show V c main_v52 (((cfg1.win 1).blk t).view.emb (ix2 k (Spec.col j))) = _
    refine congrArg _ (funext fun a => Fin.ext ?_)
    have hk : k.val < 18 := k.isLt
    match a with
    | ⟨0, _⟩ => show win1_1.index t (0 : Fin 2) * 18 + 1 * k.val = k.val; omega
    | ⟨1, _⟩ => show win1_1.index t (1 : Fin 2) * 128 + 1 * (j 1).val = win1_4.index t (1 : Fin 2) * 128 + 1 * (j 1).val; omega
  have h2 : iblk1 V c 2 t (ix2 (0 : Fin 1) (Spec.col j)) = V c main_v58 (ix2 (0 : Fin 1) (Spec.col (((cfg1.win 4).blk t).view.emb j))) := by
    show V c main_v58 (((cfg1.win 2).blk t).view.emb (ix2 (0 : Fin 1) (Spec.col j))) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_4.index t (1 : Fin 2) * 128 + 1 * (j 1).val; omega
  have h3 : iblk1 V c 3 t j = V c main_v57 (((cfg1.win 4).blk t).view.emb j) := by
    show V c main_v57 (((cfg1.win 3).blk t).view.emb j) = _
    refine congrArg _ (funext fun a => Fin.ext ?_)
    match a with
    | ⟨0, _⟩ => show win1_3.index t (0 : Fin 2) * 2000 + 1 * (j 0).val = win1_4.index t (0 : Fin 2) * 2000 + 1 * (j 0).val; omega
    | ⟨1, _⟩ => show win1_3.index t (1 : Fin 2) * 128 + 1 * (j 1).val = win1_4.index t (1 : Fin 2) * 128 + 1 * (j 1).val; omega
  unfold Spec.node Spec.mm
  rw [h2, h3, Finset.sum_congr rfl fun k _ => by rw [h0 k, h1 k]]

/-- An index of the array is in point `t`'s block iff each coordinate is in the block's range on its axis. -/
theorem mem_blk1_4 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v59).slice (win1_4.rect t)).set ↔ _
  rw [View.set_slice_whole, Rect.mem_set_unit]
  exact Iff.rfl

/-- Every index of the array is in some point's block: row `r` is in the block of point `r / 2000`. -/
theorem covered1_4 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by show (i 0).val / 2000 < grid1.N; rw [N_1]; omega⟩, rfl⟩
  obtain ⟨-, -, -, -, -, -, -, -, e40, e41⟩ := idx_facts1 t
  refine ⟨t, flush1_4 t, ?_⟩
  rw [mem_blk1_4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The output array after the region: the node transform of the four arrays the region reads, as it finds them. -/
theorem arr1 (c : Dev nD) : (dat1 (F := Ideal) V c).arrAt 4 cfg1.N
    = Spec.node (M := 50000) (K := 18) (N := 128) (V c main_v49) (V c main_v52) (V c main_v58) (V c main_v57) :=
  (dat1 (F := Ideal) V c).arrAt_eq_of_cover 4 _ (fun t _ => flushed1_4_eq V c t) covered1_4

end Cert.KernelIdeal.Hand

end
-- ==== Proof.KI.Val2.lean ====
/-
  Region 2's value on the extended reals: after the region, the edge transform's output array is the matrix
  product of the edge array with the weight — entry (r, j) is the sum over the 4 edge features k of
  edge (r, k) * weight (k, j). Each grid point writes back the 16000 rows of that product that its block covers;
  row r is covered by point r / 16000, so the 50 blocks fill the array.
-/
import proofs.«413272_j14783277433402_2_alg».proof.Proof.KI.Reg2
import proofs.«413272_j14783277433402_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered
variable (V : (c : Dev nD) → (b : Ref sig .tc) → Buf (Elt Ideal) ((c : Thread nD τ).loc b))

/-! ## The payload at an index -/

/-- The operand indices of the block's product at output index `i` and contraction index `q`: the left operand is
    read at (row of `i`, `q`), the right one at (`q`, column of `i`). -/
theorem lhs_pay2_0 (i : S16000x128.Idx) (q : dot_S16000x4_S4x128_S16000x128_1_0_0_1_n_n.contr.Idx) :
    (dot_S16000x4_S4x128_S16000x128_1_0_0_1_n_n.lhsIdx i q 0).val = (i 0).val := by
  unfold DotDims.lhsIdx
  rw [dif_neg (show ¬(0 : Fin S16000x4.rank) ∈ dot_S16000x4_S4x128_S16000x128_1_0_0_1_n_n.lhsBatch by decide), dif_pos (show (0 : Fin S16000x4.rank) ∈ dot_S16000x4_S4x128_S16000x128_1_0_0_1_n_n.lhsNonContracting by decide)]
  rfl
theorem lhs_pay2_1 (i : S16000x128.Idx) (q : dot_S16000x4_S4x128_S16000x128_1_0_0_1_n_n.contr.Idx) :
    (dot_S16000x4_S4x128_S16000x128_1_0_0_1_n_n.lhsIdx i q 1).val = (q ⟨0, by decide⟩).val :=
  dot_S16000x4_S4x128_S16000x128_1_0_0_1_n_n.lhsIdx_val_of_single rfl i q
theorem rhs_pay2_0 (i : S16000x128.Idx) (q : dot_S16000x4_S4x128_S16000x128_1_0_0_1_n_n.contr.Idx) :
    (dot_S16000x4_S4x128_S16000x128_1_0_0_1_n_n.rhsIdx i q 0).val = (q ⟨0, by decide⟩).val :=
  dot_S16000x4_S4x128_S16000x128_1_0_0_1_n_n.rhsIdx_val_of_single rfl i q
theorem rhs_pay2_1 (i : S16000x128.Idx) (q : dot_S16000x4_S4x128_S16000x128_1_0_0_1_n_n.contr.Idx) :
    (dot_S16000x4_S4x128_S16000x128_1_0_0_1_n_n.rhsIdx i q 1).val = (i 1).val := by
  unfold DotDims.rhsIdx
  rw [dif_neg (show ¬(1 : Fin S4x128.rank) ∈ dot_S16000x4_S4x128_S16000x128_1_0_0_1_n_n.rhsBatch by decide), dif_pos (show (1 : Fin S4x128.rank) ∈ dot_S16000x4_S4x128_S16000x128_1_0_0_1_n_n.rhsNonContracting by decide)]
  rfl

/-- Where the block's product reads its left operand for output index `i` and feature `k`: (row of `i`, `k`). -/
abbrev lidx_pay2 (i : S16000x128.Idx) (k : Fin 4) : S16000x4.Idx := fun a => match a with
  | ⟨0, _⟩ => ⟨(i 0).val, (i 0).isLt⟩
  | ⟨1, _⟩ => ⟨k.val, k.isLt⟩
/-- Where it reads its right operand: (`k`, column of `i`). -/
abbrev ridx_pay2 (i : S16000x128.Idx) (k : Fin 4) : S4x128.Idx := fun a => match a with
  | ⟨0, _⟩ => ⟨k.val, k.isLt⟩
  | ⟨1, _⟩ => ⟨(i 1).val, (i 1).isLt⟩

/-- The body's payload at an index, on the extended reals: rounding to bf16 and the cast to the same shape are the
    identity there, and the product into a zero accumulator is the plain sum over the 4 features. -/
theorem pay2_apply (x0 : Vec Ideal S16000x4 .f32) (x1 : Vec Ideal S4x128 .f32) (i : S16000x128.Idx) :
    k2_pay1 (F := Ideal) x0 x1 i = ∑ k : Fin 4, x0 (lidx_pay2 i k) * x1 (ridx_pay2 i k) := by
  unfold k2_pay1
  simp only [matmul]
  rw [Ideal.matmul_constant_zero_apply, ← Equiv.sum_comp (ValueIdx.contrEquiv1 dot_S16000x4_S4x128_S16000x128_1_0_0_1_n_n 4 rfl rfl).symm]
  refine Finset.sum_congr rfl fun k _ => ?_
  have hk := ValueIdx.contrEquiv1_symm_val dot_S16000x4_S4x128_S16000x128_1_0_0_1_n_n 4 rfl rfl k
  have el : dot_S16000x4_S4x128_S16000x128_1_0_0_1_n_n.lhsIdx i ((ValueIdx.contrEquiv1 dot_S16000x4_S4x128_S16000x128_1_0_0_1_n_n 4 rfl rfl).symm k) = lidx_pay2 i k := funext fun a => Fin.ext (by
    match a with
    | ⟨0, _⟩ => exact lhs_pay2_0 _ _
    | ⟨1, _⟩ => exact (lhs_pay2_1 _ _).trans hk)
  have er : dot_S16000x4_S4x128_S16000x128_1_0_0_1_n_n.rhsIdx i ((ValueIdx.contrEquiv1 dot_S16000x4_S4x128_S16000x128_1_0_0_1_n_n 4 rfl rfl).symm k) = ridx_pay2 i k := funext fun a => Fin.ext (by
    match a with
    | ⟨0, _⟩ => exact (rhs_pay2_0 _ _).trans hk
    | ⟨1, _⟩ => exact rhs_pay2_1 _ _)
  rw [el, er, truncf_apply, truncf_apply, shapeCast_self]

/-! ## From blocks to the array -/

theorem hz2 : (![0, 0] : Fin 2 → Nat) = fun _ => 0 := funext fun a => by fin_cases a <;> rfl

/-- The printed index maps, decided over the 50 grid points: point `t` stages the `t`-th block of edge rows and
    writes back the `t`-th block of output rows; the weight's one block is the whole weight. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the edge array with the weight, both as the region
    finds them: entry (r, j) of the block is the sum over k of the edge block's (r, k), which is the edge array's
    (16000 t + r, k), times the weight's (k, j). -/
theorem flushed2_2_eq (c : Dev nD) (t : Fin cfg2.N) :
    (dat2 V c).flushed 2 t = ((cfg2.win 2).blk t).view.read (Elt Ideal) (Spec.mm (M := 800000) (K := 4) (N := 128) (V c main_arg1) (V c main_v85)) := by
  show (cfg2.win 2).cut (grid2.coords t) ((dat2 V c).after 2 t) = _
  rw [after2_2]
  unfold out2_2
  rw [View.canon_unit_zero hz2]
  simp only [View.ld_unit_zero (S := S16000x4) hz2, View.ld_unit_zero (S := S4x128) hz2]
  obtain ⟨e0, e1, e2, e3, e4, e5⟩ := idx_facts2 t
  funext j
  show k2_pay1 (F := Ideal) (iblk2 V c 0 t) (iblk2 V c 1 t) j = Spec.mm (M := 800000) (K := 4) (N := 128) (V c main_arg1) (V c main_v85) (((cfg2.win 2).blk t).view.emb j)
  rw [pay2_apply]
  unfold Spec.mm
  refine Finset.sum_congr rfl fun k _ => ?_
  refine congrArg₂ (· * ·) ?_ ?_
  · show (V c main_arg1 : S800000x4.Idx → EReal) (((cfg2.win 0).blk t).view.emb (lidx_pay2 j k)) = (V c main_arg1 : S800000x4.Idx → EReal) _
    refine congrArg (V c main_arg1 : S800000x4.Idx → EReal) (funext fun a => Fin.ext ?_)
    match a with
    | ⟨0, _⟩ => show win2_0.index t (0 : Fin 2) * 16000 + 1 * (j 0).val = win2_2.index t (0 : Fin 2) * 16000 + 1 * (j 0).val; omega
    | ⟨1, _⟩ => show win2_0.index t (1 : Fin 2) * 4 + 1 * k.val = k.val; omega
  · show (V c main_v85 : S4x128.Idx → EReal) (((cfg2.win 1).blk t).view.emb (ridx_pay2 j k)) = (V c main_v85 : S4x128.Idx → EReal) _
    refine congrArg (V c main_v85 : S4x128.Idx → EReal) (funext fun a => Fin.ext ?_)
    match a with
    | ⟨0, _⟩ => show win2_1.index t (0 : Fin 2) * 4 + 1 * k.val = k.val; omega
    | ⟨1, _⟩ => show win2_1.index t (1 : Fin 2) * 128 + 1 * (j 1).val = win2_2.index t (1 : Fin 2) * 128 + 1 * (j 1).val; omega

/-- An index of the output array is in point `t`'s block iff each coordinate is in the block's range on its axis. -/
theorem mem_blk2_2 (t : Fin cfg2.N) (i : S800000x128.Idx) :
    i ∈ ((cfg2.win 2).blk t).view.set ↔ ∀ a : Fin 2, win2_2.index t a * S16000x128.size a ≤ (i a).val ∧ (i a).val < win2_2.index t a * S16000x128.size a + S16000x128.size a := by
  show i ∈ ((View.whole main_v86).slice (win2_2.rect t)).set ↔ _
  rw [View.set_slice_whole, Rect.mem_set_unit]
  exact Iff.rfl

/-- Every index of the output array is in some point's block: row r is in the block of point r / 16000. -/
theorem covered2_2 (i : S800000x128.Idx) :
    ∃ t : Fin cfg2.N, (cfg2.win 2).flush t = true ∧ i ∈ ((cfg2.win 2).blk t).view.set := by
  have hi0 : (i 0).val < 800000 := (i 0).isLt
  have hi1 : (i 1).val < 128 := (i 1).isLt
  have hN : (i 0).val / 16000 < cfg2.N := by show _ < grid2.N; rw [N_2]; omega
  obtain ⟨e0, e1, e2, e3, e4, e5⟩ := idx_facts2 ⟨(i 0).val / 16000, hN⟩
  have q4 : win2_2.index ⟨(i 0).val / 16000, hN⟩ (0 : Fin 2) = (i 0).val / 16000 := e4
  refine ⟨⟨(i 0).val / 16000, hN⟩, flush2_2 _, ?_⟩
  rw [mem_blk2_2]
  intro a
  match a with
  | ⟨0, _⟩ => show win2_2.index ⟨(i 0).val / 16000, hN⟩ (0 : Fin 2) * 16000 ≤ (i 0).val ∧ (i 0).val < win2_2.index ⟨(i 0).val / 16000, hN⟩ (0 : Fin 2) * 16000 + 16000; omega
  | ⟨1, _⟩ => show win2_2.index ⟨(i 0).val / 16000, hN⟩ (1 : Fin 2) * 128 ≤ (i 1).val ∧ (i 1).val < win2_2.index ⟨(i 0).val / 16000, hN⟩ (1 : Fin 2) * 128 + 128; omega

/-- The output array after the region: the product of the edge array with the weight. -/
theorem arr2 (c : Dev nD) : (dat2 (F := Ideal) V c).arrAt 2 cfg2.N = Spec.mm (M := 800000) (K := 4) (N := 128) (V c main_arg1) (V c main_v85) :=
  (dat2 V c).arrAt_eq_of_cover 2 _ (fun t _ => flushed2_2_eq V c t) covered2_2

end Cert.KernelIdeal.Hand

end
-- ==== Proof.KI.Val3.lean ====
/-
  Region 3's value at the extended reals: the array the node transform of the second layer leaves, as one function
  of the four arrays it reads — every entry is the clipped sum of the node's row times the weight's column, the bias
  at the column, and the edge aggregate's entry. The body's arithmetic on a block is the same transform of the
  block; block t of the output is rows 2000 t .. 2000 t + 1999, read against the same rows of the features and of
  the aggregate and the whole weight and bias; the 25 blocks cover the array.
-/
import proofs.«413272_j14783277433402_2_alg».proof.Proof.KI.Reg3
import proofs.«413272_j14783277433402_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The product's operand indices -/

theorem lhs3_0 (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs3_1 (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q
theorem rhs3_0 (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q
theorem rhs3_1 (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The block's product into the zero accumulator, at an index: row `j 0` of the left operand against column `j 1`
    of the right. -/
theorem mm3_apply (a : FVec Ideal S2000x256 .bf16) (b : FVec Ideal S256x128 .bf16) (j : S2000x128.Idx) :
    matmul dot_S2000x256_S256x128_S2000x128_1_0_0_1_n_n none a b (constant (F := Ideal) S2000x128 .f32 0x00000000#32) j
      = ∑ k : Fin 256, a (ix2 (Spec.row j) k) * b (ix2 k (Spec.col j)) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = ix2 (Spec.row j) k := funext fun ax => Fin.ext (by
    match ax with
    | ⟨0, _⟩ => exact lhs3_0 _ _
    | ⟨1, _⟩ => exact (lhs3_1 _ _).trans hk)
  have er : dot_S2000x256_S256x128_S2000x128_1_0_0_1_n_n.rhsIdx j ((ValueIdx.contrEquiv1 dot_S2000x256_S256x128_S2000x128_1_0_0_1_n_n 256 rfl rfl).symm k) = ix2 k (Spec.col j) := funext fun ax => Fin.ext (by
    match ax with
    | ⟨0, _⟩ => exact (rhs3_0 _ _).trans hk
    | ⟨1, _⟩ => exact rhs3_1 _ _)
  rw [el, er]

/-! ## The body's arithmetic on a block is the node transform of the block -/

/-- What the body stores, from the four blocks as loaded: the node transform of the blocks. At the extended reals
    the narrowing of the product's operands and the casts to the same shape change nothing; the bias row is
    repeated over the block's rows; the literal the sum is clipped at is zero. -/
theorem pay3_node (x0 : Vec Ideal S2000x256 .f32) (x1 : Vec Ideal S256x128 .f32) (x2 : Vec Ideal S1x128 .f32) (x3 : Vec Ideal S2000x128 .f32) :
    k3_pay1 (F := Ideal) x0 x1 x2 x3 = Spec.node (M := 2000) (K := 256) (N := 128) x0 x1 x2 x3 := by
  funext j
  obtain ⟨p, q, rfl⟩ : ∃ (p : Fin 2000) (q : Fin 128), j = ix2 p q := ⟨j 0, j 1, eq_ix2 j⟩
  unfold k3_pay1 Spec.node Spec.mm
  simp only [shapeCast_self]
  rw [maximumf_apply, addf_apply, addf_apply, broadcast_apply, mm3_apply, broadcastTo_1b_ab_apply,
    show (FloatOps.ofBits FTy.f32 0x00000000#32 : Ideal .f32) = 0 from Ideal.ofBits_zero_f32]
  rfl

/-! ## From blocks to the array -/

-- the TensorCore's buffer contents when the region is entered
variable (V : (c : Dev nD) → (b : Ref sig .tc) → Buf (Elt Ideal) ((c : Thread nD τ).loc b))

theorem hz3 : (![0, 0] : Fin 2 → Nat) = fun _ => 0 := funext fun a => by fin_cases a <;> rfl

/-- The windows' block indices over the grid: the feature, aggregate and output windows are at block row `t`, column
    block 0; the weight and the bias are whole, at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the node transform of the four arrays as the region finds them. -/
theorem flushed3_4_eq (c : Dev nD) (t : Fin cfg3.N) :
    (dat3 (F := Ideal) V c).flushed 4 t = ((cfg3.win 4).blk t).view.read (Elt Ideal)
      (Spec.node (M := 50000) (K := 256) (N := 128) (V c main_v81) (V c main_v84) (V c main_v90) (V c main_v89)) := by
  show (cfg3.win 4).cut (grid3.coords t) ((dat3 V c).after 4 t) = _
  rw [after3_4]
  unfold out3_4
  rw [View.canon_unit_zero hz3]
  simp only [View.ld_unit_zero (S := S2000x256) hz3, View.ld_unit_zero (S := S256x128) hz3, View.ld_unit_zero (S := S1x128) hz3,
    View.ld_unit_zero (S := S2000x128) hz3]
  rw [pay3_node]
  obtain ⟨e00, e01, e10, e11, e20, e21, e30, e31, e40, e41⟩ := idx_facts3 t
  funext j
  show Spec.node (M := 2000) (K := 256) (N := 128) (iblk3 V c 0 t) (iblk3 V c 1 t) (iblk3 V c 2 t) (iblk3 V c 3 t) j
    = Spec.node (M := 50000) (K := 256) (N := 128) (V c main_v81) (V c main_v84) (V c main_v90) (V c main_v89) (((cfg3.win 4).blk t).view.emb j)
  have hj0 : (j 0).val < 2000 := (j 0).isLt
  have hj1 : (j 1).val < 128 := (j 1).isLt
  -- a block's coordinate is its block index times the block's extent plus the coordinate inside the block
  have h0 : ∀ k : Fin 256, iblk3 V c 0 t (ix2 (Spec.row j) k) = V c main_v81 (ix2 (Spec.row (((cfg3.win 4).blk t).view.emb j)) k) := fun k => by
    show V c main_v81 (((cfg3.win 0).blk t).view.emb (ix2 (Spec.row j) k)) = _
    refine congrArg _ (funext fun a => Fin.ext ?_)
    have hk : k.val < 256 := k.isLt
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 256 + 1 * k.val = k.val; omega
  have h1 : ∀ k : Fin 256, iblk3 V c 1 t (ix2 k (Spec.col j)) = V c main_v84 (ix2 k (Spec.col (((cfg3.win 4).blk t).view.emb j))) := fun k => by
    show V c main_v84 (((cfg3.win 1).blk t).view.emb (ix2 k (Spec.col j))) = _
    refine congrArg _ (funext fun a => Fin.ext ?_)
    have hk : k.val < 256 := k.isLt
    match a with
    | ⟨0, _⟩ => show win3_1.index t (0 : Fin 2) * 256 + 1 * k.val = k.val; omega
    | ⟨1, _⟩ => show win3_1.index t (1 : Fin 2) * 128 + 1 * (j 1).val = win3_4.index t (1 : Fin 2) * 128 + 1 * (j 1).val; omega
  have h2 : iblk3 V c 2 t (ix2 (0 : Fin 1) (Spec.col j)) = V c main_v90 (ix2 (0 : Fin 1) (Spec.col (((cfg3.win 4).blk t).view.emb j))) := by
    show V c main_v90 (((cfg3.win 2).blk t).view.emb (ix2 (0 : Fin 1) (Spec.col j))) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * (j 1).val = win3_4.index t (1 : Fin 2) * 128 + 1 * (j 1).val; omega
  have h3 : iblk3 V c 3 t j = V c main_v89 (((cfg3.win 4).blk t).view.emb j) := by
    show V c main_v89 (((cfg3.win 3).blk t).view.emb j) = _
    refine congrArg _ (funext fun a => Fin.ext ?_)
    match a with
    | ⟨0, _⟩ => show win3_3.index t (0 : Fin 2) * 2000 + 1 * (j 0).val = win3_4.index t (0 : Fin 2) * 2000 + 1 * (j 0).val; omega
    | ⟨1, _⟩ => show win3_3.index t (1 : Fin 2) * 128 + 1 * (j 1).val = win3_4.index t (1 : Fin 2) * 128 + 1 * (j 1).val; omega
  unfold Spec.node Spec.mm
  rw [h2, h3, Finset.sum_congr rfl fun k _ => by rw [h0 k, h1 k]]

/-- An index of the array is in point `t`'s block iff each coordinate is in the block's range on its axis. -/
theorem mem_blk3_4 (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v91).slice (win3_4.rect t)).set ↔ _
  rw [View.set_slice_whole, Rect.mem_set_unit]
  exact Iff.rfl

/-- Every index of the array is in some point's block: row `r` is in the block of point `r / 2000`. -/
theorem covered3_4 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, by show (i 0).val / 2000 < grid3.N; rw [N_3]; omega⟩, rfl⟩
  obtain ⟨-, -, -, -, -, -, -, -, e40, e41⟩ := idx_facts3 t
  refine ⟨t, flush3_4 t, ?_⟩
  rw [mem_blk3_4]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- The output array after the region: the node transform of the four arrays the region reads, as it finds them. -/
theorem arr3 (c : Dev nD) : (dat3 (F := Ideal) V c).arrAt 4 cfg3.N
    = Spec.node (M := 50000) (K := 256) (N := 128) (V c main_v81) (V c main_v84) (V c main_v90) (V c main_v89) :=
  (dat3 (F := Ideal) V c).arrAt_eq_of_cover 4 _ (fun t _ => flushed3_4_eq V c t) covered3_4

end Cert.KernelIdeal.Hand

end
-- ==== Proof.KI.Val4.lean ====
/-
  The value of region 4 at the ideal values. The accumulation read at an entry is what the scratch held plus the
  block's sum of products of the one-hot and feature entries; so the scratch after point n holds the partial sums
  over the blocks 0 … n (by induction on the point), each block's entries being the arrays' at node 2000 * t + r;
  the one write-back, at the last point, covers the whole output array, which therefore ends holding the pooled
  sums of the two arrays the region was entered with.
-/
import proofs.«413272_j14783277433402_2_alg».proof.Proof.KI.Reg4
import proofs.«413272_j14783277433402_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

-- the TensorCore's buffer contents when the region is entered, at the ideal values
variable (V : (c : Dev nD) → (b : Ref sig .tc) → Buf (Elt Ideal) ((c : Thread nD τ).loc b))

open Idealize.ShloMosaic.ValueIdx

/-! ## The accumulation's payload at an index

The body's product contracts axis 1 of the transposed one-hot block [64, 2000] with axis 0 of the feature block
[2000, 128]. The four facts below read the product's two operand indices coordinate by coordinate. -/

theorem lhs_pool_0 (i : S64x128.Idx) (q : dot_S64x2000_S2000x128_S64x128_1_0_0_1_n_n.contr.Idx) :
    (dot_S64x2000_S2000x128_S64x128_1_0_0_1_n_n.lhsIdx i q 0).val = (i 0).val := by
  unfold DotDims.lhsIdx
  rw [dif_neg (show ¬(0 : Fin S64x2000.rank) ∈ dot_S64x2000_S2000x128_S64x128_1_0_0_1_n_n.lhsBatch by decide), dif_pos (show (0 : Fin S64x2000.rank) ∈ dot_S64x2000_S2000x128_S64x128_1_0_0_1_n_n.lhsNonContracting by decide)]
  rfl
theorem lhs_pool_1 (i : S64x128.Idx) (q : dot_S64x2000_S2000x128_S64x128_1_0_0_1_n_n.contr.Idx) :
    (dot_S64x2000_S2000x128_S64x128_1_0_0_1_n_n.lhsIdx i q 1).val = (q ⟨0, by decide⟩).val :=
  dot_S64x2000_S2000x128_S64x128_1_0_0_1_n_n.lhsIdx_val_of_single rfl i q
theorem rhs_pool_0 (i : S64x128.Idx) (q : dot_S64x2000_S2000x128_S64x128_1_0_0_1_n_n.contr.Idx) :
    (dot_S64x2000_S2000x128_S64x128_1_0_0_1_n_n.rhsIdx i q 0).val = (q ⟨0, by decide⟩).val :=
  dot_S64x2000_S2000x128_S64x128_1_0_0_1_n_n.rhsIdx_val_of_single rfl i q
theorem rhs_pool_1 (i : S64x128.Idx) (q : dot_S64x2000_S2000x128_S64x128_1_0_0_1_n_n.contr.Idx) :
    (dot_S64x2000_S2000x128_S64x128_1_0_0_1_n_n.rhsIdx i q 1).val = (i 1).val := by
  unfold DotDims.rhsIdx
  rw [dif_neg (show ¬(1 : Fin S2000x128.rank) ∈ dot_S64x2000_S2000x128_S64x128_1_0_0_1_n_n.rhsBatch by decide), dif_pos (show (1 : Fin S2000x128.rank) ∈ dot_S64x2000_S2000x128_S64x128_1_0_0_1_n_n.rhsNonContracting by decide)]
  rfl

/-- At the ideal values the accumulation, read at entry `(g, j)`: what the scratch held there plus the sum over the
    block's 2000 nodes `r` of `onehot (r, g) * feature (r, j)` — the transpose read at an index, the format changes
    and the same-shape casts the identity, the product into the zero block a plain sum. -/
theorem pay4_acc_apply (x0 : Vec Ideal S2000x64 .f32) (x1 : Vec Ideal S2000x128 .f32) (s : Vec Ideal S64x128 .f32) (j : S64x128.Idx) :
    k4_pay2 (F := Ideal) x0 x1 s j = s j + ∑ r : Fin 2000, x0 (ix2 r (Spec.row j)) * x1 (ix2 r (Spec.col j)) := by
  unfold k4_pay2
  simp only [shapeCast_self]
  rw [addf_apply]
  simp only [matmul]
  rw [Ideal.matmul_constant_zero_apply, ← Equiv.sum_comp (contrEquiv1 dot_S64x2000_S2000x128_S64x128_1_0_0_1_n_n 2000 rfl rfl).symm]
  refine congrArg (s j + ·) (Finset.sum_congr rfl fun k _ => ?_)
  have hk := contrEquiv1_symm_val dot_S64x2000_S2000x128_S64x128_1_0_0_1_n_n 2000 rfl rfl k
  rw [truncf_apply, truncf_apply]
  have el : transpose S64x2000 [1, 0] x0 transposes_S2000x64_p1_0_S64x2000 (dot_S64x2000_S2000x128_S64x128_1_0_0_1_n_n.lhsIdx j ((contrEquiv1 dot_S64x2000_S2000x128_S64x128_1_0_0_1_n_n 2000 rfl rfl).symm k)) = x0 (ix2 k (Spec.row j)) :=
    transpose_apply [1, 0] x0 transposes_S2000x64_p1_0_S64x2000 _ (ix2 k (Spec.row j)) (fun b => by
      match b with
      | ⟨0, _⟩ => exact (lhs_pool_0 _ _).symm
      | ⟨1, _⟩ => exact ((lhs_pool_1 _ _).trans hk).symm)
  have er : dot_S64x2000_S2000x128_S64x128_1_0_0_1_n_n.rhsIdx j ((contrEquiv1 dot_S64x2000_S2000x128_S64x128_1_0_0_1_n_n 2000 rfl rfl).symm k) = ix2 k (Spec.col j) := funext fun a => Fin.ext (by
    match a with
    | ⟨0, _⟩ => exact (rhs_pool_0 _ _).trans hk
    | ⟨1, _⟩ => exact rhs_pool_1 _ _)
  rw [el, er]

/-- The block the first point stores is zero everywhere. -/
theorem pay4_zero_apply (j : S64x128.Idx) : k4_pay1 (F := Ideal) j = 0 := by
  unfold k4_pay1
  simp only [shapeCast_self]
  exact Ideal.ofBits_zero_f32

/-! ## The blocks read off the arrays

A block's coordinate is the block index times the block size plus the coordinate inside the block: node `r` of
block `t` is node `2000 * t + r` of the array; the output window's one block is the whole array. -/

/-- The printed index maps, decided over the grid. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

theorem iblk4_0_apply (c : Dev nD) (t : Fin cfg4.N) (r : Fin 2000) (g : Fin 64) (hb : 2000 * t.val + r.val < 50000) :
    iblk4 (F := Ideal) V c 0 t (ix2 r g) = V c main_v98 (ix2 (⟨2000 * t.val + r.val, hb⟩ : Fin 50000) g) := by
  show V c main_v98 (((cfg4.win 0).blk t).view.emb (ix2 r g)) = _
  obtain ⟨e0, e1, -⟩ := idx_facts4 t
  refine congrArg (V c main_v98) (funext fun a => Fin.ext ?_)
  match a with
  | ⟨0, _⟩ => show win4_0.index t (0 : Fin 2) * 2000 + 1 * r.val = 2000 * t.val + r.val; omega
  | ⟨1, _⟩ => show win4_0.index t (1 : Fin 2) * 64 + 1 * g.val = g.val; omega

theorem iblk4_1_apply (c : Dev nD) (t : Fin cfg4.N) (r : Fin 2000) (g : Fin 128) (hb : 2000 * t.val + r.val < 50000) :
    iblk4 (F := Ideal) V c 1 t (ix2 r g) = V c main_v91 (ix2 (⟨2000 * t.val + r.val, hb⟩ : Fin 50000) g) := by
  show V c main_v91 (((cfg4.win 1).blk t).view.emb (ix2 r g)) = _
  obtain ⟨-, -, e0, e1, -⟩ := idx_facts4 t
  refine congrArg (V c main_v91) (funext fun a => Fin.ext ?_)
  match a with
  | ⟨0, _⟩ => show win4_1.index t (0 : Fin 2) * 2000 + 1 * r.val = 2000 * t.val + r.val; omega
  | ⟨1, _⟩ => show win4_1.index t (1 : Fin 2) * 128 + 1 * g.val = g.val; omega

/-! ## The scratch after each point: the partial sum over the blocks so far -/

/-- Block `t`'s share of entry `j` of the pooled sums (zero past the grid). -/
def share4 (oh : Spec.Mat 50000 64) (h : Spec.Mat 50000 128) (j : S64x128.Idx) (t : ℕ) : EReal :=
  if ht : t < 25 then ∑ r : Fin 2000,
    oh (ix2 (⟨2000 * t + r.val, by have := r.isLt; omega⟩ : Fin 50000) (Spec.row j))
      * h (ix2 (⟨2000 * t + r.val, by have := r.isLt; omega⟩ : Fin 50000) (Spec.col j))
  else 0

/-- After point `n` the scratch holds, entry by entry, the sum of the shares of the blocks `0 … n`: by induction on
    the point (`0 + x = x` at the first; afterwards one more term of the sum). -/
theorem accAt4_apply (c : Dev nD) : ∀ (n : ℕ) (h : n < cfg4.N) (j : S64x128.Idx),
    accAt4 (F := Ideal) V c n h j = ∑ t ∈ Finset.range (n + 1), share4 (V c main_v98) (V c main_v91) j t
  | 0, h, j => by
    rw [accAt4_zero, pay4_acc_apply, pay4_zero_apply, zero_add, Finset.sum_range_one]
    unfold share4
    rw [dif_pos (by decide : 0 < 25)]
    exact Finset.sum_congr rfl fun r _ => by rw [iblk4_0_apply, iblk4_1_apply]
  | n + 1, h, j => by
    have hN : n + 1 < 25 := lt_of_lt_of_eq h (show cfg4.N = 25 from N_4)
    rw [accAt4_succ, pay4_acc_apply, accAt4_apply c n _ j, Finset.sum_range_succ _ (n + 1)]
    refine congrArg (_ + ·) ?_
    unfold share4
    rw [dif_pos hN]
    exact Finset.sum_congr rfl fun r _ => by rw [iblk4_0_apply, iblk4_1_apply]

/-! ## The output array after the region -/

/-- The one write-back, at the last point, writes the pooled sums: the output window's one block is the whole array,
    and the scratch after the last point is the sum over all 25 blocks. -/
theorem flushed4_eq (c : Dev nD) (t : Fin cfg4.N) (hf : (cfg4.win 2).flush t = true) :
    (dat4 (F := Ideal) V c).flushed 2 t = ((cfg4.win 2).blk t).view.read (Elt Ideal) (Spec.pool (V c main_v98) (V c main_v91)) := by
  have hN : cfg4.N = 25 := N_4
  have h24 : t.val = 24 := by have := (flush4_2 t).mp hf; have := t.isLt; omega
  show (cfg4.win 2).cut (grid4.coords t) ((dat4 V c).after 2 t) = _
  rw [after4_2_last V c t h24]
  obtain ⟨-, -, -, -, e0, e1⟩ := idx_facts4 t
  funext j
  show accAt4 V c t.val t.isLt j = Spec.pool (V c main_v98) (V c main_v91) (((cfg4.win 2).blk t).view.emb j)
  have hj : ((cfg4.win 2).blk t).view.emb j = j := by
    funext a; apply Fin.ext
    match a with
    | ⟨0, _⟩ => show win4_2.index t (0 : Fin 2) * 64 + 1 * (j 0).val = (j 0).val; omega
    | ⟨1, _⟩ => show win4_2.index t (1 : Fin 2) * 128 + 1 * (j 1).val = (j 1).val; omega
  rw [hj, accAt4_apply]
  simp only [h24]
  unfold Spec.pool
  rw [← Fin.sum_univ_eq_sum_range (fun t => share4 (V c main_v98) (V c main_v91) j t) 25]
  exact Finset.sum_congr rfl fun s _ => by unfold share4; rw [dif_pos s.isLt]

/-- The last point of the grid. -/
abbrev t24 : Fin cfg4.N := ⟨24, by show 24 < grid4.N; rw [N_4]; decide⟩

/-- Every entry of the output array is in the last point's block. -/
theorem cover4 (i : S64x128.Idx) :
    ∃ t : Fin cfg4.N, (cfg4.win 2).flush t = true ∧ i ∈ ((cfg4.win 2).blk t).view.set := by
  refine ⟨t24, (flush4_2 t24).mpr rfl, ?_⟩
  show i ∈ ((View.whole main_v100).slice (win4_2.rect t24)).set
  rw [View.set_slice_whole, Rect.mem_set_unit]
  obtain ⟨-, -, -, -, e0, e1⟩ := idx_facts4 t24
  intro a
  have h0 : (i 0 : Nat) < 64 := (i 0).isLt
  have h1 : (i 1 : Nat) < 128 := (i 1).isLt
  match a with
  | ⟨0, _⟩ => show win4_2.index t24 (0 : Fin 2) * 64 ≤ (i 0 : Nat) ∧ (i 0 : Nat) < win4_2.index t24 (0 : Fin 2) * 64 + 64; omega
  | ⟨1, _⟩ => show win4_2.index t24 (1 : Fin 2) * 128 ≤ (i 1 : Nat) ∧ (i 1 : Nat) < win4_2.index t24 (1 : Fin 2) * 128 + 128; omega

/-- THE VALUE OF REGION 4: after the region the output array holds the pooled sums of the one-hot matrix and the
    feature matrix the region was entered with. -/
theorem arr4 (c : Dev nD) : (dat4 (F := Ideal) V c).arrAt 2 cfg4.N = Spec.pool (V c main_v98) (V c main_v91) :=
  (dat4 (F := Ideal) V c).arrAt_eq_of_cover 2 (Spec.pool (V c main_v98) (V c main_v91)) (flushed4_eq V c) cover4

end Cert.KernelIdeal.Hand

end
-- ==== Proof.KI.HostVal.lean ====
/-
  The kernel program's result at the extended reals, as one function of the launch arguments: each region's output
  array is its specification applied to the arrays it reads; those are the host's named functions of the launch
  arguments and of the earlier regions' outputs; substituting from the first region to the last gives the result.
-/
import proofs.«413272_j14783277433402_2_alg».proof.Proof.KI.Host
import proofs.«413272_j14783277433402_2_alg».proof.Proof.KI.Val0
import proofs.«413272_j14783277433402_2_alg».proof.Proof.KI.Val1
import proofs.«413272_j14783277433402_2_alg».proof.Proof.KI.Val2
import proofs.«413272_j14783277433402_2_alg».proof.Proof.KI.Val3
import proofs.«413272_j14783277433402_2_alg».proof.Proof.KI.Val4

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Region 0's output: the edge attributes times the summed edge weight of the first layer. -/
theorem W4_v54 (c : Dev nD) : W4 m ρ c (Proc.devRef .tc main_v54)
    = Spec.mm (M := 800000) (K := 4) (N := 128) (m ((c : Thread nD τ).loc main_arg1)) (hEws (m ((c : Thread nD τ).loc main_arg3))) := by
  refine (W4_arr m ρ c 2).trans ?_
  rw [arr0, V3_arg1, V3_v53]

/-- Region 1's output: the first layer. -/
theorem W6_v59 (c : Dev nD) : W6 m ρ c (Proc.devRef .tc main_v59)
    = h1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10)) := by
  refine (W6_arr m ρ c 4).trans ?_
  rw [arr1, V5_v49, V5_v52, V5_v58, V5_v57, W4_v54]
  rfl

/-- Region 2's output: the edge attributes times the summed edge weight of the second layer. -/
theorem W8_v86 (c : Dev nD) : W8 m ρ c (Proc.devRef .tc main_v86)
    = Spec.mm (M := 800000) (K := 4) (N := 128) (m ((c : Thread nD τ).loc main_arg1)) (hEws (m ((c : Thread nD τ).loc main_arg6))) := by
  refine (W8_arr m ρ c 2).trans ?_
  rw [arr2, V7_arg1, V7_v85]

/-- Region 3's output: the second layer. -/
theorem W10_v91 (c : Dev nD) : W10 m ρ c (Proc.devRef .tc main_v91)
    = h2K (h1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10))) (m ((c : Thread nD τ).loc main_arg1)) (m ((c : Thread nD τ).loc main_arg5)) (m ((c : Thread nD τ).loc main_arg6)) (m ((c : Thread nD τ).loc main_arg7)) (m ((c : Thread nD τ).loc main_arg10)) := by
  refine (W10_arr m ρ c 4).trans ?_
  rw [arr3, V9_v81, V9_v84, V9_v90, V9_v89, W6_v59, W8_v86]
  rfl

/-- Region 4's output: the pooled sums of the second layer. -/
theorem W12_v100 (c : Dev nD) : W12 m ρ c (Proc.devRef .tc main_v100)
    = Spec.pool (hOnehot (m ((c : Thread nD τ).loc main_arg11))) (h2K (h1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10))) (m ((c : Thread nD τ).loc main_arg1)) (m ((c : Thread nD τ).loc main_arg5)) (m ((c : Thread nD τ).loc main_arg6)) (m ((c : Thread nD τ).loc main_arg7)) (m ((c : Thread nD τ).loc main_arg10))) := by
  refine (W12_arr m ρ c 2).trans ?_
  rw [arr4, V11_v98, V11_v91, W10_v91]

/-- The kernel program's result, as one function of the launch arguments. -/
theorem W14_v110_eq (c : Dev nD) : W14 m ρ c (Proc.devRef .tc main_v110)
    = resK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W14_v110 m ρ c).trans ?_
  rw [W12_v100]
  rfl

end Cert.KernelIdeal.Hand

end
-- ==== Proof.RefSide.lean ====
/-
  The reference's value: its generated run and the read-at-an-index lemmas over it are imported here;
  the statements that read the reference's result as a function of the argument arrays follow below.
-/
import proofs.«413272_j14783277433402_2_alg».proof.Defs
import proofs.«413272_j14783277433402_2_alg».proof.Proof.RefRun
import proofs.«413272_j14783277433402_2_alg».proof.Proof.RefRead

noncomputable section

namespace Cert.ReferenceIdeal.RefSide

end Cert.ReferenceIdeal.RefSide

end
-- ==== Proof.SpecLaws.lean ====
/-
  Laws of the specification over the extended reals.

  An extended real is REAL when it is the image of a real number. The reals are closed under the sum, the product, the
  difference, the maximum, finite sums and the power of two reals; and a real distributes over a sum of two reals, which
  the extended reals as a whole do not allow (at the infinities x * (a + b) and x * a + x * b differ).

  Three laws of whole matrices follow.
  * THE LAYER LAW: the product of the concatenated features [x | T] with the stacked weight [w₀ + w₁ ; w₂] is
    x·w₀ + x·w₁ + T·w₂: the sum over the Fd + Fd columns splits into the left and the right half; on the left half
    the real x (r, k) distributes over the real sum w₀ (k, j) + w₁ (k, j); a sum of sums is the sum of the sums.
  * THE POOLING LAW: with oh (n, g) = 1 when node n has label g and 0 otherwise, the entry (g, j) of
    ohᵀ·h, summed over 25 blocks of 2000 nodes, is the sum of h (n, j) over the nodes labelled g: the double sum
    over (block, offset) is the single sum over the node 2000 * block + offset, 1 * y = y, and 0 * y = 0 for
    EVERY extended real y.
  * THE COUNTS: the column sums of the one-hot matrix count the nodes of each label.
-/
import Mathlib.Data.EReal.Basic
import Mathlib.Data.EReal.Operations
import Mathlib.Algebra.BigOperators.Fin
import Mathlib.Algebra.BigOperators.Group.Finset.Basic
import Idealize.ShloMosaic.Lib.ValueIdx
import Idealize.ShloMosaic.PureOps.Ideal
import Idealize.ShloMosaic.PureOps.Ideal.Laws
import proofs.«413272_j14783277433402_2_alg».proof.Proof.Spec

noncomputable section

namespace Spec

open Idealize.ShloMosaic Idealize.ShloMosaic.ValueIdx

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.add {x y : EReal} (hx : IsReal x) (hy : IsReal y) : IsReal (x + y) := by
  obtain ⟨r, rfl⟩ := hx; obtain ⟨s, rfl⟩ := hy
  exact ⟨r + s, (EReal.coe_add r s).symm⟩

theorem IsReal.mul {x y : EReal} (hx : IsReal x) (hy : IsReal y) : IsReal (x * y) := by
  obtain ⟨r, rfl⟩ := hx; obtain ⟨s, rfl⟩ := hy
  exact ⟨r * s, (EReal.coe_mul r s).symm⟩

theorem IsReal.sub {x y : EReal} (hx : IsReal x) (hy : IsReal y) : IsReal (x - y) := by
  obtain ⟨r, rfl⟩ := hx; obtain ⟨s, rfl⟩ := hy
  exact ⟨r - s, (EReal.coe_sub r s).symm⟩

/-- The maximum of two reals is one of them. -/
theorem IsReal.max {x y : EReal} (hx : IsReal x) (hy : IsReal y) : IsReal (max x y) := by
  rcases le_total x y with h | h
  · rw [max_eq_right h]; exact hy
  · rw [max_eq_left h]; exact hx

/-- A finite sum of reals is real. -/
theorem IsReal.sum {ι : Type} (s : Finset ι) (f : ι → EReal) (h : ∀ i ∈ s, IsReal (f i)) : IsReal (∑ i ∈ s, f i) :=
  Finset.sum_induction f IsReal (fun _ _ ha hb => ha.add hb) isReal_zero h

/-- The power of a real to a real exponent is the real power. -/
theorem IsReal.pow {x y : EReal} (hx : IsReal x) (hy : IsReal y) : IsReal (Idealize.ShloMosaic.Ideal.pow x y) := by
  obtain ⟨r, rfl⟩ := hx; obtain ⟨s, rfl⟩ := hy
  exact ⟨Real.rpow r s, rfl⟩

theorem IsReal.ne_top {x : EReal} (hx : IsReal x) : x ≠ ⊤ := by
  obtain ⟨r, rfl⟩ := hx; exact EReal.coe_ne_top r

theorem IsReal.ne_bot {x : EReal} (hx : IsReal x) : x ≠ ⊥ := by
  obtain ⟨r, rfl⟩ := hx; exact EReal.coe_ne_bot r

/-- An extended real that is neither infinity is a real. -/
theorem isReal_of_ne {x : EReal} (ht : x ≠ ⊤) (hb : x ≠ ⊥) : IsReal x :=
  ⟨x.toReal, (EReal.coe_toReal ht hb).symm⟩

theorem isReal_iff {x : EReal} : IsReal x ↔ x ≠ ⊤ ∧ x ≠ ⊥ :=
  ⟨fun h => ⟨h.ne_top, h.ne_bot⟩, fun h => isReal_of_ne h.1 h.2⟩

/-- A real distributes over a sum of two reals (on the extended reals distributivity fails at the infinities). -/
theorem mul_add_of_isReal {x a b : EReal} (hx : IsReal x) (ha : IsReal a) (hb : IsReal b) :
    x * (a + b) = x * a + x * b := by
  obtain ⟨r, rfl⟩ := hx; obtain ⟨s, rfl⟩ := ha; obtain ⟨t, rfl⟩ := hb
  rw [← EReal.coe_add, ← EReal.coe_mul, ← EReal.coe_mul, ← EReal.coe_mul, ← EReal.coe_add, mul_add]

/-- The product of a matrix of reals with a matrix of reals is a matrix of reals. -/
theorem mm_isReal {M K N : Nat} (a : Mat M K) (w : Mat K N) (ha : ∀ i, IsReal (a i)) (hw : ∀ i, IsReal (w i))
    (i : (⟨2, ![M, N]⟩ : Shape).Idx) : IsReal (mm a w i) :=
  IsReal.sum _ _ fun _ _ => (ha _).mul (hw _)

/-- THE LAYER LAW. A product with the concatenated features [x | T] and the stacked weight [w₀ + w₁ ; w₂] is the sum
    of the three products, when x, w₀, w₁ are real. The matrices cat and wcat are ANY matrices with the stated entries. -/
theorem mm_cat_law {M Fd N : Nat} (x T : Mat M Fd) (w0 w1 w2 : Mat Fd N) (cat : Mat M (Fd + Fd))
    (wcat : Mat (Fd + Fd) N)
    (hcatL : ∀ (r : Fin M) (k : Fin Fd), cat (ix2 r (Fin.castAdd Fd k)) = x (ix2 r k))
    (hcatR : ∀ (r : Fin M) (k : Fin Fd), cat (ix2 r (Fin.natAdd Fd k)) = T (ix2 r k))
    (hwL : ∀ (k : Fin Fd) (j : Fin N), wcat (ix2 (Fin.castAdd Fd k) j) = w0 (ix2 k j) + w1 (ix2 k j))
    (hwR : ∀ (k : Fin Fd) (j : Fin N), wcat (ix2 (Fin.natAdd Fd k) j) = w2 (ix2 k j))
    (hx : ∀ i, IsReal (x i)) (h0 : ∀ i, IsReal (w0 i)) (h1 : ∀ i, IsReal (w1 i))
    (i : (⟨2, ![M, N]⟩ : Shape).Idx) :
    mm cat wcat i = (mm x w0 i + mm x w1 i) + mm T w2 i := by
  unfold mm
  -- the sum over the Fd + Fd columns is the sum over the left half plus the sum over the right half
  rw [Fin.sum_univ_add]
  -- the entries of the two halves
  simp only [hcatL, hcatR, hwL, hwR]
  -- on the left half a real distributes over the sum of two reals, and a sum of sums is the sum of the sums
  congr 1
  rw [← Finset.sum_add_distrib]
  exact Finset.sum_congr rfl fun k _ => mul_add_of_isReal (hx _) (h0 _) (h1 _)

/-- The double sum over 25 blocks of 2000 offsets is the single sum over the 50000 positions 2000 * block + offset:
    (block, offset) ↦ 2000 * block + offset is a bijection, with inverse n ↦ (n / 2000, n % 2000). -/
def blockEquiv : Fin 25 × Fin 2000 ≃ Fin 50000 where
  toFun p := ⟨2000 * p.1.val + p.2.val, by have := p.1.isLt; have := p.2.isLt; omega⟩
  invFun n := (⟨n.val / 2000, by have := n.isLt; omega⟩, ⟨n.val % 2000, by omega⟩)
  left_inv p := by
    have := p.1.isLt; have := p.2.isLt
    refine Prod.ext (Fin.ext ?_) (Fin.ext ?_)
    · show (2000 * p.1.val + p.2.val) / 2000 = p.1.val
      omega
    · show (2000 * p.1.val + p.2.val) % 2000 = p.2.val
      omega
  right_inv n := by
    refine Fin.ext ?_
    show 2000 * (n.val / 2000) + n.val % 2000 = n.val
    omega

theorem sum_blocks {A : Type} [AddCommMonoid A] (f : Fin 50000 → A) :
    (∑ t : Fin 25, ∑ r : Fin 2000,
        f (⟨2000 * t.val + r.val, by have := t.isLt; have := r.isLt; omega⟩ : Fin 50000))
      = ∑ n : Fin 50000, f n := by
  rw [← Fintype.sum_prod_type']
  exact Fintype.sum_equiv blockEquiv _ _ fun _ => rfl

/-- THE POOLING LAW. With oh the one-hot matrix of the integer labels bat, the product ohᵀ·h (summed block by
    block) is, at (g, j), the sum of h (n, j) over the nodes labelled g. -/
theorem pool_law (oh : Mat 50000 64) (h : Mat 50000 128) (bat : Fin 50000 → ℤ)
    (hoh : ∀ (n : Fin 50000) (g : Fin 64), oh (ix2 n g) = if bat n = (g.val : ℤ) then 1 else 0)
    (i : (⟨2, ![64, 128]⟩ : Shape).Idx) :
    pool oh h i
      = ∑ n ∈ Finset.univ.filter (fun n : Fin 50000 => bat n = ((row i).val : ℤ)), h (ix2 n (col i)) := by
  unfold pool
  -- block by block is node by node
  refine (sum_blocks fun n => oh (ix2 n (row i)) * h (ix2 n (col i))).trans ?_
  -- a sum over the nodes of one label is the sum over all nodes of the entry or zero
  rw [Finset.sum_filter]
  refine Finset.sum_congr rfl fun n _ => ?_
  rw [hoh]
  -- 1 * y = y, and 0 * y = 0 for every extended real y
  split_ifs
  · exact one_mul _
  · exact zero_mul _

/-- The counts: the column sums of the one-hot matrix. -/
theorem counts_law (oh : Mat 50000 64) (bat : Fin 50000 → ℤ)
    (hoh : ∀ (n : Fin 50000) (g : Fin 64), oh (ix2 n g) = if bat n = (g.val : ℤ) then 1 else 0) (g : Fin 64) :
    (∑ n : Fin 50000, oh (ix2 n g))
      = ∑ n ∈ Finset.univ.filter (fun n : Fin 50000 => bat n = (g.val : ℤ)), (1 : EReal) := by
  rw [Finset.sum_filter]
  exact Finset.sum_congr rfl fun n _ => hoh n g

end Spec

end
-- ==== Proof.BridgeLayer.lean ====
/-
  The first layer: the kernel's arrangement equals the reference's.

  At an index (n, j) the reference's first layer is
    max ((((∑ k, x (n, k) * w₀ (k, j) + ∑ k, x (n, k) * w₁ (k, j)) + ∑ k, T (n, k) * w₂ (k, j)) + b j) + a (n, j)) 0
  with x the node features, w₀ w₁ w₂ the three 9 x 128 slices of the weight, T the aggregate of the features over the
  edges, b the bias and a the edge messages summed at the edges' first-row nodes. The kernel computes
    max (((∑ k : Fin (9 + 9), [x | T] (n, k) * [w₀ + w₁ ; w₂] (k, j)) + b (0, j)) + a (n, j)) 0.
  The aggregate T, the weight slices, the summed edge weight and the scatter of the edge messages are the same operations
  on the same arguments in both programs; the two concatenations are read at an index; the bias row and the bias
  repeated over the rows have the same entries; and the layer law splits the one product into the three, the features
  and the first two weight slices being real.
-/
import proofs.«413272_j14783277433402_2_alg».proof.Proof.KI.HostDefs
import proofs.«413272_j14783277433402_2_alg».proof.Proof.Spec
import proofs.«413272_j14783277433402_2_alg».proof.Proof.SpecLaws
import proofs.«413272_j14783277433402_2_alg».proof.Proof.RefRead
import Idealize.ShloMosaic.Lib.ValueIdx
import Idealize.ShloMosaic.Lib.Pipeline.Value
import Idealize.ShloMosaic.PureOps.Ideal.Laws

noncomputable section

namespace Cert.Proof.Bridge

open Idealize.ShloMosaic Idealize.ShloMosaic.ValueIdx
open Cert.ReferenceIdeal Cert.ReferenceIdeal.Read
open Cert.KernelIdeal.Hand

/-! ## The reference's products of the first layer are matrix products -/

theorem v30_eq_mm (x0 : (⟨S50000x9, .f32⟩ : BufTy).Contents (Elt Ideal)) (x2 : (⟨S3x9x128, .f32⟩ : BufTy).Contents (Elt Ideal)) :
    val_main_v30 (F := Ideal) x0 x2 = Spec.mm (M := 50000) (K := 9) (N := 128) x0 (val_main_v29 (F := Ideal) x2) := by
  funext i
  rw [val_main_v30_apply]
  unfold Spec.mm
  refine Finset.sum_congr rfl fun k _ => ?_
  have el : lidx_main_v30 i k = ix2 (Spec.row i) k := by
    funext a; match a with | ⟨0, _⟩ => rfl | ⟨1, _⟩ => rfl
  have er : ridx_main_v30 i k = ix2 k (Spec.col i) := by
    funext a; match a with | ⟨0, _⟩ => rfl | ⟨1, _⟩ => rfl
  rw [el, er]

theorem v33_eq_mm (x0 : (⟨S50000x9, .f32⟩ : BufTy).Contents (Elt Ideal)) (x2 : (⟨S3x9x128, .f32⟩ : BufTy).Contents (Elt Ideal)) :
    val_main_v33 (F := Ideal) x0 x2 = Spec.mm (M := 50000) (K := 9) (N := 128) x0 (val_main_v32 (F := Ideal) x2) := by
  funext i
  rw [val_main_v33_apply]
  unfold Spec.mm
  refine Finset.sum_congr rfl fun k _ => ?_
  have el : lidx_main_v33 i k = ix2 (Spec.row i) k := by
    funext a; match a with | ⟨0, _⟩ => rfl | ⟨1, _⟩ => rfl
  have er : ridx_main_v33 i k = ix2 k (Spec.col i) := by
    funext a; match a with | ⟨0, _⟩ => rfl | ⟨1, _⟩ => rfl
  rw [el, er]

theorem v53_eq_mm (x0 : (⟨S50000x9, .f32⟩ : BufTy).Contents (Elt Ideal)) (x2 : (⟨S3x9x128, .f32⟩ : BufTy).Contents (Elt Ideal)) (x10 : (⟨S2x800000, .i32⟩ : BufTy).Contents (Elt Ideal)) :
    val_main_v53 (F := Ideal) x0 x2 x10 = Spec.mm (M := 50000) (K := 9) (N := 128) (val_main_v50 (F := Ideal) x0 x10) (val_main_v52 (F := Ideal) x2) := by
  funext i
  rw [val_main_v53_apply]
  unfold Spec.mm
  refine Finset.sum_congr rfl fun k _ => ?_
  have el : lidx_main_v53 i k = ix2 (Spec.row i) k := by
    funext a; match a with | ⟨0, _⟩ => rfl | ⟨1, _⟩ => rfl
  have er : ridx_main_v53 i k = ix2 k (Spec.col i) := by
    funext a; match a with | ⟨0, _⟩ => rfl | ⟨1, _⟩ => rfl
  rw [el, er]

theorem v59_eq_mm (x1 : (⟨S800000x4, .f32⟩ : BufTy).Contents (Elt Ideal)) (x3 : (⟨S3x4x128, .f32⟩ : BufTy).Contents (Elt Ideal)) :
    val_main_v59 (F := Ideal) x1 x3 = Spec.mm (M := 800000) (K := 4) (N := 128) x1 (val_main_v58 (F := Ideal) x3) := by
  funext i
  rw [val_main_v59_apply]
  unfold Spec.mm
  refine Finset.sum_congr rfl fun k _ => ?_
  have el : lidx_main_v59 i k = ix2 (Spec.row i) k := by
    funext a; match a with | ⟨0, _⟩ => rfl | ⟨1, _⟩ => rfl
  have er : ridx_main_v59 i k = ix2 k (Spec.col i) := by
    funext a; match a with | ⟨0, _⟩ => rfl | ⟨1, _⟩ => rfl
  rw [el, er]

/-- The zero the first layer is clipped at. -/
theorem zero_relu1 (i : S50000x128.Idx) : val_main_call1_v0 (F := Ideal) i = 0 := by
  rw [val_main_call1_v0_apply, val_main_call1_cst_apply]
  exact Ideal.ofBits_zero_f32

/-- The bias repeated over the rows: entry (n, j) is the bias at j. -/
theorem v56_at (x4 : (⟨S128, .f32⟩ : BufTy).Contents (Elt Ideal)) (i : S50000x128.Idx) :
    val_main_v56 (F := Ideal) x4 i = x4 (ix1 (Spec.col i)) := by
  rw [val_main_v56_apply, val_main_v55_apply]
  exact congrArg x4 (funext fun a => match a with | ⟨0, _⟩ => rfl)

/-- The reference's first layer at an index. -/
theorem ref_h1_at (x0 : (⟨S50000x9, .f32⟩ : BufTy).Contents (Elt Ideal)) (x1 : (⟨S800000x4, .f32⟩ : BufTy).Contents (Elt Ideal)) (x2 : (⟨S3x9x128, .f32⟩ : BufTy).Contents (Elt Ideal)) (x3 : (⟨S3x4x128, .f32⟩ : BufTy).Contents (Elt Ideal)) (x4 : (⟨S128, .f32⟩ : BufTy).Contents (Elt Ideal)) (x10 : (⟨S2x800000, .i32⟩ : BufTy).Contents (Elt Ideal)) (i : S50000x128.Idx) :
    val_main_v64 (F := Ideal) x0 x1 x2 x3 x4 x10 i
      = max ((((Spec.mm (M := 50000) (K := 9) (N := 128) x0 (val_main_v29 (F := Ideal) x2) i
              + Spec.mm (M := 50000) (K := 9) (N := 128) x0 (val_main_v32 (F := Ideal) x2) i)
            + Spec.mm (M := 50000) (K := 9) (N := 128) (val_main_v50 (F := Ideal) x0 x10) (val_main_v52 (F := Ideal) x2) i)
          + x4 (ix1 (Spec.col i)))
        + val_main_v62 (F := Ideal) x1 x3 x10 i) 0 := by
  rw [val_main_v64_apply, val_main_v63_apply, val_main_v57_apply, val_main_v54_apply, val_main_v34_apply,
    zero_relu1, v56_at, v30_eq_mm, v33_eq_mm, v53_eq_mm]
  rfl

/-! ## The weights' slices are real when the weights are -/

theorem v29_real (x2 : (⟨S3x9x128, .f32⟩ : BufTy).Contents (Elt Ideal)) (r2 : ∀ i, Spec.IsReal (x2 i)) (i : S9x128.Idx) : Spec.IsReal (val_main_v29 (F := Ideal) x2 i) := by
  rw [val_main_v29_apply, val_main_v28_apply]; exact r2 _

theorem v32_real (x2 : (⟨S3x9x128, .f32⟩ : BufTy).Contents (Elt Ideal)) (r2 : ∀ i, Spec.IsReal (x2 i)) (i : S9x128.Idx) : Spec.IsReal (val_main_v32 (F := Ideal) x2 i) := by
  rw [val_main_v32_apply, val_main_v31_apply]; exact r2 _

/-! ## The same host operations in the two programs

    The aggregate, the three weight slices, the summed edge weight and the scatter of the edge messages are the same
    operations on the same arguments in both programs: the equations hold by unfolding, for any float values. -/

section glue
variable {F : FTy → Type} [FloatOps F]

theorem glue_T1 (x0 : (⟨S50000x9, .f32⟩ : BufTy).Contents (Elt F)) (x10 : (⟨S2x800000, .i32⟩ : BufTy).Contents (Elt F)) :
    hT1 x0 (hNormE x10) (hSrc x10) (hDst x10) = val_main_v50 (F := F) x0 x10 := rfl

theorem glue_W1_0 (x2 : (⟨S3x9x128, .f32⟩ : BufTy).Contents (Elt F)) : hW1_0 x2 = val_main_v29 (F := F) x2 := rfl
theorem glue_W1_1 (x2 : (⟨S3x9x128, .f32⟩ : BufTy).Contents (Elt F)) : hW1_1 x2 = val_main_v32 (F := F) x2 := rfl
theorem glue_W1_2 (x2 : (⟨S3x9x128, .f32⟩ : BufTy).Contents (Elt F)) : hW1_2 x2 = val_main_v52 (F := F) x2 := rfl
theorem glue_Ews1 (x3 : (⟨S3x4x128, .f32⟩ : BufTy).Contents (Elt F)) : hEws x3 = val_main_v58 (F := F) x3 := rfl

theorem glue_Ea1 (x1 : (⟨S800000x4, .f32⟩ : BufTy).Contents (Elt F)) (x3 : (⟨S3x4x128, .f32⟩ : BufTy).Contents (Elt F)) (x10 : (⟨S2x800000, .i32⟩ : BufTy).Contents (Elt F)) :
    hEa (hSrc x10) (val_main_v59 (F := F) x1 x3) = val_main_v62 (F := F) x1 x3 x10 := rfl

end glue

/-! ## The concatenations read at an index -/

/-- The left 9 columns of the concatenated features are the features. -/
theorem feat1_left (x0 : (⟨S50000x9, .f32⟩ : BufTy).Contents (Elt Ideal)) (x10 : (⟨S2x800000, .i32⟩ : BufTy).Contents (Elt Ideal)) (r : Fin 50000) (k : Fin 9) :
    hFeat1 (F := Ideal) x0 x10 (ix2 r (Fin.castAdd 9 k)) = x0 (ix2 r k) := by
  unfold hFeat1
  exact concatenate_pair_apply_left (t := Cert.KernelIdeal.S50000x18) (s₁ := S50000x9) (s₂ := S50000x9) (1 : Fin 2) x0 _ _ (ix2 r (Fin.castAdd 9 k)) rfl (ix2 r k)
    (fun b => match b with | ⟨0, _⟩ => rfl | ⟨1, _⟩ => rfl)

/-- The right 9 columns are the aggregate. -/
theorem feat1_right (x0 : (⟨S50000x9, .f32⟩ : BufTy).Contents (Elt Ideal)) (x10 : (⟨S2x800000, .i32⟩ : BufTy).Contents (Elt Ideal)) (r : Fin 50000) (k : Fin 9) :
    hFeat1 (F := Ideal) x0 x10 (ix2 r (Fin.natAdd 9 k)) = val_main_v50 (F := Ideal) x0 x10 (ix2 r k) := by
  rw [← glue_T1]
  unfold hFeat1
  exact concatenate_pair_apply_right (t := Cert.KernelIdeal.S50000x18) (s₁ := S50000x9) (s₂ := S50000x9) (1 : Fin 2) x0 _ _ (ix2 r (Fin.natAdd 9 k)) rfl rfl (ix2 r k)
    (fun b hb => match b, hb with | ⟨0, _⟩, _ => rfl | ⟨1, _⟩, hb => absurd rfl hb)
    (by show k.val + 9 = 9 + k.val; omega)

/-- The top 9 rows of the stacked weight are the sum of the first two weights. -/
theorem wcat1_top (x2 : (⟨S3x9x128, .f32⟩ : BufTy).Contents (Elt Ideal)) (k : Fin 9) (j : Fin 128) :
    hWcat1 (F := Ideal) x2 (ix2 (Fin.castAdd 9 k) j)
      = val_main_v29 (F := Ideal) x2 (ix2 k j) + val_main_v32 (F := Ideal) x2 (ix2 k j) := by
  rw [← glue_W1_0, ← glue_W1_1]
  unfold hWcat1
  exact concatenate_pair_apply_left (t := Cert.KernelIdeal.S18x128) (s₁ := S9x128) (s₂ := S9x128) (0 : Fin 2) _ _ _ (ix2 (Fin.castAdd 9 k) j) rfl (ix2 k j)
    (fun b => match b with | ⟨0, _⟩ => rfl | ⟨1, _⟩ => rfl)

/-- The bottom 9 rows are the third weight. -/
theorem wcat1_bot (x2 : (⟨S3x9x128, .f32⟩ : BufTy).Contents (Elt Ideal)) (k : Fin 9) (j : Fin 128) :
    hWcat1 (F := Ideal) x2 (ix2 (Fin.natAdd 9 k) j) = val_main_v52 (F := Ideal) x2 (ix2 k j) := by
  rw [← glue_W1_2]
  unfold hWcat1
  exact concatenate_pair_apply_right (t := Cert.KernelIdeal.S18x128) (s₁ := S9x128) (s₂ := S9x128) (0 : Fin 2) _ _ _ (ix2 (Fin.natAdd 9 k) j) rfl rfl (ix2 k j)
    (fun b hb => match b, hb with | ⟨0, _⟩, hb => absurd rfl hb | ⟨1, _⟩, _ => rfl)
    (by show k.val + 9 = 9 + k.val; omega)

/-- The bias as a row: entry (0, j) is the bias at j. -/
theorem bias_at (x4 : (⟨S128, .f32⟩ : BufTy).Contents (Elt Ideal)) (j : Fin 128) : hBias (F := Ideal) x4 (ix2 (0 : Fin 1) j) = x4 (ix1 j) := by
  unfold hBias
  exact shapeCast_apply x4 _ _ (ix1 j)
    (by rewrite [Shape.rowMajor_val_one, Shape.rowMajor_val_two]; show j.val = 0 * 128 + j.val; omega)

/-- The scattered edge messages: the kernel's edge transform is the reference's product. -/
theorem ea1_eq (x1 : (⟨S800000x4, .f32⟩ : BufTy).Contents (Elt Ideal)) (x3 : (⟨S3x4x128, .f32⟩ : BufTy).Contents (Elt Ideal)) (x10 : (⟨S2x800000, .i32⟩ : BufTy).Contents (Elt Ideal)) :
    hEa (hSrc x10) (Spec.mm (M := 800000) (K := 4) (N := 128) x1 (hEws x3)) = val_main_v62 (F := Ideal) x1 x3 x10 := by
  rw [glue_Ews1, ← v59_eq_mm, glue_Ea1]

/-! ## The first layer -/

/-- The kernel's arrangement of the first layer is the reference's: the product with the concatenated features and the
    stacked weight splits into the three products, the features and the first two weights being real. -/
theorem h1_eq (x0 : (⟨S50000x9, .f32⟩ : BufTy).Contents (Elt Ideal)) (x1 : (⟨S800000x4, .f32⟩ : BufTy).Contents (Elt Ideal)) (x2 : (⟨S3x9x128, .f32⟩ : BufTy).Contents (Elt Ideal)) (x3 : (⟨S3x4x128, .f32⟩ : BufTy).Contents (Elt Ideal)) (x4 : (⟨S128, .f32⟩ : BufTy).Contents (Elt Ideal)) (x10 : (⟨S2x800000, .i32⟩ : BufTy).Contents (Elt Ideal))
    (r0 : ∀ i, Spec.IsReal (x0 i)) (r2 : ∀ i, Spec.IsReal (x2 i)) :
    h1K x0 x1 x2 x3 x4 x10 = val_main_v64 (F := Ideal) x0 x1 x2 x3 x4 x10 := by
  funext i
  rw [ref_h1_at]
  unfold h1K Spec.node
  rw [Spec.mm_cat_law (M := 50000) (Fd := 9) (N := 128) x0 (val_main_v50 (F := Ideal) x0 x10)
      (val_main_v29 (F := Ideal) x2) (val_main_v32 (F := Ideal) x2) (val_main_v52 (F := Ideal) x2)
      (hFeat1 x0 x10) (hWcat1 x2) (feat1_left x0 x10) (feat1_right x0 x10) (wcat1_top x2) (wcat1_bot x2)
      r0 (v29_real x2 r2) (v32_real x2 r2) i,
    bias_at, ea1_eq]

end Cert.Proof.Bridge

end
-- ==== Proof.LibGatherScatter.lean ====
/-
  Row gathers and row scatters read at an index.

  `x[idx]` along axis 0 of a matrix `x : [N, D]` (or of a vector `x : [N]`) at start indices `idx : [E, 1]` reads row
  `idx[e, 0]`, taken as a signed integer and clamped into `[0, N - 1]`. The accumulating scatter of updates
  `[E, D]` into `[N, D]` at the same kind of indices adds update row `e` to row `idx[e, 0]`, read signed and NOT
  clamped: a row index outside `[0, N)` drops the update. Both are stated here for any extents.
-/
import Idealize.ShloMosaic.Lib.ValueIdx
import Idealize.ShloMosaic.PureOps.Ideal

noncomputable section

namespace LibGatherScatter

open Idealize.ShloMosaic Idealize.ShloMosaic.ValueIdx

/-- The row a start index word names in an axis of extent `N`: the word as a signed integer, clamped into `[0, N - 1]`. -/
def clampRow (N : Nat) (hN : 0 < N) {w : Nat} (v : BitVec w) : Fin N := ⟨min v.toInt.toNat (N - 1), by omega⟩

section Gather
variable {α : Type}

/-- The dimension numbers of `x[idx]` along axis 0 of a matrix: rows of `D` entries, one start index per result row. -/
abbrev rowsDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry `(e, k)` of the row gather is the matrix at row `clampRow idx[e, 0]`, column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N E D wf) x idx (ix2 e k) = x (ix2 (clampRow N hN (idx (ix2 e (0 : Fin 1)))) k) := by
  unfold Host.gather
  congr 1
  funext a
  refine Fin.ext ?_
  match a with
  | ⟨0, _⟩ =>
    show (rowsDims N E D wf).start (ix2 e k) idx 0 + (rowsDims N E D wf).batchCoord (ix2 e k) 0
      + (rowsDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e k) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E D wf).start (ix2 e k) idx 1 + (rowsDims N E D wf).batchCoord (ix2 e k) 1
      + (rowsDims N E D wf).offCoord (ix2 e k) 1 = k.val
    rw [GatherDims.batchCoord_eq_zero _ _ _ List.not_mem_nil]
    unfold GatherDims.start
    rw [dif_neg (show ¬ (1 : Fin 2) ∈ (rowsDims N E D wf).startIndexMap from (by decide : ¬ (1 : Fin 2) ∈ ([0] : List (Fin 2))))]
    simp only [Nat.add_zero, Nat.zero_add]
    unfold GatherDims.offCoord
    rw [dif_pos (show (1 : Fin 2) ∈ (rowsDims N E D wf).sKept from (GatherDims.mem_sKept _ _).mpr ⟨(by decide : ¬ (1 : Fin 2) ∈ ([0] : List (Fin 2))), List.not_mem_nil⟩)]
    rfl

/-- The dimension numbers of `x[idx]` of a vector: one entry per start index. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the vector gather is the vector at `clampRow idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

section Scatter

/-- The dimension numbers of the accumulating row scatter: update row `e` goes to the row its index word names. -/
abbrev scatRowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

theorem scat_start0 (idx : IVec ⟨2, ![E, 1]⟩ w) (e : Fin E) (k : Fin D) :
    (scatRowsDims N E D wf).start (ix2 e k) idx 0 = (idx (ix2 e (0 : Fin 1))).toInt := by
  unfold ScatterDims.start
  rw [dif_pos (show (0 : Fin 2) ∈ (scatRowsDims N E D wf).scatterDimsToOperandDims from List.mem_singleton.mpr rfl)]
  have hsi : (scatRowsDims N E D wf).siIdx (ix2 e k) ⟨List.idxOf (0 : Fin 2) (scatRowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat_start1 (idx : IVec ⟨2, ![E, 1]⟩ w) (e : Fin E) (k : Fin D) :
    (scatRowsDims N E D wf).start (ix2 e k) idx 1 = 0 := by
  unfold ScatterDims.start
  rw [dif_neg (show ¬ (1 : Fin 2) ∈ (scatRowsDims N E D wf).scatterDimsToOperandDims from
    (by decide : ¬ (1 : Fin 2) ∈ ([0] : List (Fin 2))))]

theorem scat_window0 (e : Fin E) (k : Fin D) : (scatRowsDims N E D wf).window (ix2 e k) 0 = 0 := by
  unfold ScatterDims.window
  rw [dif_neg]
  intro h
  have : (0 : Fin 2) ∈ (⟨2, ![N, D]⟩ : Shape).kept [0] := h
  simp [Shape.kept] at this

theorem scat_window1 (e : Fin E) (k : Fin D) : (scatRowsDims N E D wf).window (ix2 e k) 1 = k.val := by
  unfold ScatterDims.window
  rw [dif_pos (show (1 : Fin 2) ∈ (scatRowsDims N E D wf).sKept by
    show (1 : Fin 2) ∈ (⟨2, ![N, D]⟩ : Shape).kept [0]; simp [Shape.kept])]
  rfl

/-- Update `(e, k)` lands on `(n, k')` exactly when the edge's index word, read signed, is `n` and `k = k'`. -/
theorem scatter_rows_resultIdx (idx : IVec ⟨2, ![E, 1]⟩ w) (e : Fin E) (k : Fin D) (n : Fin N) (k' : Fin D) :
    (scatRowsDims N E D wf).resultIdx? (ix2 e k) idx = some (ix2 n k')
      ↔ (idx (ix2 e (0 : Fin 1))).toInt = (n.val : ℤ) ∧ k = k' := by
  unfold ScatterDims.resultIdx?
  constructor
  · intro h
    split at h
    · rename_i hall
      have h' := Option.some.inj h
      have h0 := congrArg (fun f => (f 0).val) h'
      have h1 := congrArg (fun f => (f 1).val) h'
      simp only [scat_start0, scat_start1, scat_window0, scat_window1] at h0 h1
      have hb := hall 0
      simp only [scat_start0, scat_window0] at hb
      refine ⟨?_, Fin.ext ?_⟩
      · have : ((idx (ix2 e (0 : Fin 1))).toInt + ((0 : Nat) : ℤ)).toNat = n.val := h0
        omega
      · have : ((0 : ℤ) + ((k.val : Nat) : ℤ)).toNat = k'.val := h1
        omega
    · exact absurd h (by simp)
  · rintro ⟨hn, rfl⟩
    have hall : ∀ a, 0 ≤ (scatRowsDims N E D wf).start (ix2 e k) idx a + (scatRowsDims N E D wf).window (ix2 e k) a ∧
        (scatRowsDims N E D wf).start (ix2 e k) idx a + (scatRowsDims N E D wf).window (ix2 e k) a < (⟨2, ![N, D]⟩ : Shape).size a := by
      intro a
      match a with
      | ⟨0, _⟩ =>
        show 0 ≤ (scatRowsDims N E D wf).start (ix2 e k) idx 0 + ((scatRowsDims N E D wf).window (ix2 e k) 0 : ℤ) ∧
          (scatRowsDims N E D wf).start (ix2 e k) idx 0 + ((scatRowsDims N E D wf).window (ix2 e k) 0 : ℤ) < (N : ℤ)
        rw [scat_start0, scat_window0, hn]; have := n.isLt; omega
      | ⟨1, _⟩ =>
        show 0 ≤ (scatRowsDims N E D wf).start (ix2 e k) idx 1 + ((scatRowsDims N E D wf).window (ix2 e k) 1 : ℤ) ∧
          (scatRowsDims N E D wf).start (ix2 e k) idx 1 + ((scatRowsDims N E D wf).window (ix2 e k) 1 : ℤ) < (D : ℤ)
        rw [scat_start1, scat_window1]; have := k.isLt; omega
    rw [dif_pos hall]
    congr 1
    funext a
    refine Fin.ext ?_
    match a with
    | ⟨0, _⟩ =>
      show ((scatRowsDims N E D wf).start (ix2 e k) idx 0 + ((scatRowsDims N E D wf).window (ix2 e k) 0 : ℤ)).toNat = n.val
      rw [scat_start0, scat_window0, hn]; omega
    | ⟨1, _⟩ =>
      show ((scatRowsDims N E D wf).start (ix2 e k) idx 1 + ((scatRowsDims N E D wf).window (ix2 e k) 1 : ℤ)).toNat = k.val
      rw [scat_start1, scat_window1]; omega

/-- THE ACCUMULATING ROW SCATTER READ AT `(n, d)`, on the extended reals: the operand's entry plus the sum, over the
    edges whose index word read signed is `n`, of the update's entry `(e, d)`. -/
theorem scatterAdd_rows_apply (x : (⟨2, ![N, D]⟩ : Shape).Idx → EReal) (idx : IVec ⟨2, ![E, 1]⟩ w)
    (upd : (⟨2, ![E, D]⟩ : Shape).Idx → EReal) (n : Fin N) (d : Fin D) :
    Ideal.hostScatterAdd (scatRowsDims N E D wf) x idx upd (ix2 n d)
      = x (ix2 n d) + ∑ e ∈ Finset.univ.filter (fun e : Fin E => (idx (ix2 e (0 : Fin 1))).toInt = (n.val : ℤ)), upd (ix2 e d) := by
  unfold Ideal.hostScatterAdd
  congr 1
  have key : ∀ j : (⟨2, ![E, D]⟩ : Shape).Idx, (scatRowsDims N E D wf).resultIdx? j idx = some (ix2 n d) →
      (idx (ix2 (⟨(j 0).val, idx2_lt0 j⟩ : Fin E) (0 : Fin 1))).toInt = (n.val : ℤ) ∧ j = ix2 (⟨(j 0).val, idx2_lt0 j⟩ : Fin E) d := by
    intro j hj
    have hj2 := hj
    rw [eq_ix2 j] at hj2
    have h := (scatter_rows_resultIdx wf idx (⟨(j 0).val, idx2_lt0 j⟩ : Fin E) (⟨(j 1).val, idx2_lt1 j⟩ : Fin D) n d).mp hj2
    refine ⟨h.1, ?_⟩
    rw [← h.2]; exact eq_ix2 j
  refine Finset.sum_bij' (fun j _ => (⟨(j 0).val, idx2_lt0 j⟩ : Fin E)) (fun e _ => ix2 e d) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (scatter_rows_resultIdx wf idx e d n d).mpr ⟨(Finset.mem_filter.mp he).2, rfl⟩⟩
  · intro j hj
    exact ((key j (Finset.mem_filter.mp hj).2).2).symm
  · intro e _; rfl
  · intro j hj
    exact congrArg upd (key j (Finset.mem_filter.mp hj).2).2

end Scatter

end LibGatherScatter

end
-- ==== Proof.BridgeLayer2.lean ====
/-
  The second layer: the kernel's arrangement of it is the reference's.

  At (n, j) the kernel's second layer is max (((∑ k over 128 + 128 columns, cat (n, k) * wcat (k, j)) + b j) + a (n, j)) 0
  with cat = [H | T₂] the first layer's output beside its aggregate and wcat = [w₀ + w₁ ; w₂] the stacked weight; the
  reference's is max ((((∑ H w₀ + ∑ H w₁) + ∑ T₂ w₂) + b j) + a (n, j)) 0. The two agree: the sum over the 256 columns
  splits into its halves, and on the left half the real H (n, k) distributes over the sum of the two real weights. The
  aggregate T₂, the bias, the edge aggregate a, and the slices of the weight are the same host operations in both programs;
  the kernel's edge transform is the matrix product the reference computes as a contraction.
-/
import proofs.«413272_j14783277433402_2_alg».proof.Proof.KI.HostDefs
import proofs.«413272_j14783277433402_2_alg».proof.Proof.Spec
import proofs.«413272_j14783277433402_2_alg».proof.Proof.SpecLaws
import proofs.«413272_j14783277433402_2_alg».proof.Proof.RefRead
import proofs.«413272_j14783277433402_2_alg».proof.Proof.LibGatherScatter
import Idealize.ShloMosaic.Lib.Pipeline.Value

noncomputable section

namespace Cert.Proof.Bridge

open Idealize.ShloMosaic Idealize.ShloMosaic.TcCoe Idealize.SL.Sem Idealize.ShloMosaic.StableHlo Idealize.ShloMosaic.ValueIdx
open Cert.ReferenceIdeal Cert.ReferenceIdeal.Read

/-! ## The reference's second layer read at an index -/

section Ref

variable (x0 : (⟨S50000x9, .f32⟩ : BufTy).Contents (Elt Ideal)) (x1 : (⟨S800000x4, .f32⟩ : BufTy).Contents (Elt Ideal))
  (x2 : (⟨S3x9x128, .f32⟩ : BufTy).Contents (Elt Ideal)) (x3 : (⟨S3x4x128, .f32⟩ : BufTy).Contents (Elt Ideal))
  (x4 : (⟨S128, .f32⟩ : BufTy).Contents (Elt Ideal)) (x5 : (⟨S3x128x128, .f32⟩ : BufTy).Contents (Elt Ideal))
  (x6 : (⟨S3x4x128, .f32⟩ : BufTy).Contents (Elt Ideal)) (x7 : (⟨S128, .f32⟩ : BufTy).Contents (Elt Ideal))
  (x10 : (⟨S2x800000, .i32⟩ : BufTy).Contents (Elt Ideal))

/-- The left operand of each of the layer's products is read at (row, k), the right at (k, column). -/
theorem lidx67 (i : S50000x128.Idx) (k : Fin 128) : lidx_main_v67 i k = ix2 (Spec.row i) k := by
  funext a; match a with | ⟨0, _⟩ => rfl | ⟨1, _⟩ => rfl
theorem ridx67 (i : S50000x128.Idx) (k : Fin 128) : ridx_main_v67 i k = ix2 k (Spec.col i) := by
  funext a; match a with | ⟨0, _⟩ => rfl | ⟨1, _⟩ => rfl
theorem lidx70 (i : S50000x128.Idx) (k : Fin 128) : lidx_main_v70 i k = ix2 (Spec.row i) k := by
  funext a; match a with | ⟨0, _⟩ => rfl | ⟨1, _⟩ => rfl
theorem ridx70 (i : S50000x128.Idx) (k : Fin 128) : ridx_main_v70 i k = ix2 k (Spec.col i) := by
  funext a; match a with | ⟨0, _⟩ => rfl | ⟨1, _⟩ => rfl
theorem lidx90 (i : S50000x128.Idx) (k : Fin 128) : lidx_main_v90 i k = ix2 (Spec.row i) k := by
  funext a; match a with | ⟨0, _⟩ => rfl | ⟨1, _⟩ => rfl
theorem ridx90 (i : S50000x128.Idx) (k : Fin 128) : ridx_main_v90 i k = ix2 k (Spec.col i) := by
  funext a; match a with | ⟨0, _⟩ => rfl | ⟨1, _⟩ => rfl
theorem lidx96 (i : S800000x128.Idx) (k : Fin 4) : lidx_main_v96 i k = ix2 (Spec.row i) k := by
  funext a; match a with | ⟨0, _⟩ => rfl | ⟨1, _⟩ => rfl
theorem ridx96 (i : S800000x128.Idx) (k : Fin 4) : ridx_main_v96 i k = ix2 k (Spec.col i) := by
  funext a; match a with | ⟨0, _⟩ => rfl | ⟨1, _⟩ => rfl

/-- The three products of the reference's second layer are matrix products. -/
theorem v67_mm (i : S50000x128.Idx) : val_main_v67 (F := Ideal) x0 x1 x2 x3 x4 x5 x10 i
    = Spec.mm (M := 50000) (K := 128) (N := 128) (val_main_v64 (F := Ideal) x0 x1 x2 x3 x4 x10) (val_main_v66 (F := Ideal) x5) i := by
  rw [val_main_v67_apply]
  exact Finset.sum_congr rfl fun k _ => by rw [lidx67, ridx67]
theorem v70_mm (i : S50000x128.Idx) : val_main_v70 (F := Ideal) x0 x1 x2 x3 x4 x5 x10 i
    = Spec.mm (M := 50000) (K := 128) (N := 128) (val_main_v64 (F := Ideal) x0 x1 x2 x3 x4 x10) (val_main_v69 (F := Ideal) x5) i := by
  rw [val_main_v70_apply]
  exact Finset.sum_congr rfl fun k _ => by rw [lidx70, ridx70]
theorem v90_mm (i : S50000x128.Idx) : val_main_v90 (F := Ideal) x0 x1 x2 x3 x4 x5 x10 i
    = Spec.mm (M := 50000) (K := 128) (N := 128) (val_main_v87 (F := Ideal) x0 x1 x2 x3 x4 x10) (val_main_v89 (F := Ideal) x5) i := by
  rw [val_main_v90_apply]
  exact Finset.sum_congr rfl fun k _ => by rw [lidx90, ridx90]

/-- The edge transform of the reference is the matrix product of the edge attributes with the summed edge weight. -/
theorem v96_mm : val_main_v96 (F := Ideal) x1 x6
    = Spec.mm (M := 800000) (K := 4) (N := 128) x1 (val_main_v95 (F := Ideal) x6) := by
  funext i
  rw [val_main_v96_apply]
  exact Finset.sum_congr rfl fun k _ => by rw [lidx96, ridx96]

/-- The bias broadcast over the rows, at (n, j), is the bias at j. -/
theorem v93_at (i : S50000x128.Idx) : val_main_v93 (F := Ideal) x7 i = x7 (ix1 (Spec.col i)) := by
  rw [val_main_v93_apply, val_main_v92_apply]
  congr 1
  funext a; match a with | ⟨0, _⟩ => rfl

/-- The clip's other operand is zero. -/
theorem call2_zero (i : S50000x128.Idx) : val_main_call2_v0 (F := Ideal) i = 0 := by
  rw [val_main_call2_v0_apply, val_main_call2_cst_apply, Ideal.ofBits_def, Ideal.ofBits_zero_f32]

/-- THE REFERENCE'S SECOND LAYER AT (n, j): the three products summed, plus the bias, plus the edge aggregate,
    clipped below at zero. -/
theorem ref_layer2_at (i : S50000x128.Idx) :
    val_main_v101 (F := Ideal) x0 x1 x2 x3 x4 x5 x6 x7 x10 i
      = max (((((Spec.mm (M := 50000) (K := 128) (N := 128) (val_main_v64 (F := Ideal) x0 x1 x2 x3 x4 x10) (val_main_v66 (F := Ideal) x5) i
          + Spec.mm (M := 50000) (K := 128) (N := 128) (val_main_v64 (F := Ideal) x0 x1 x2 x3 x4 x10) (val_main_v69 (F := Ideal) x5) i)
          + Spec.mm (M := 50000) (K := 128) (N := 128) (val_main_v87 (F := Ideal) x0 x1 x2 x3 x4 x10) (val_main_v89 (F := Ideal) x5) i)
          + x7 (ix1 (Spec.col i))) + val_main_v99 (F := Ideal) x1 x6 x10 i)) 0 := by
  rw [val_main_v101_apply, val_main_v100_apply, val_main_v94_apply, val_main_v91_apply, val_main_v71_apply,
    v67_mm, v70_mm, v90_mm, v93_at, call2_zero]
  rfl

end Ref

/-! ## The host operations the two programs share -/

section Glue

variable {F : FTy → Type} [FloatOps F]

/-- The three slices of the second layer's weight are the reference's. -/
theorem hW2_0_glue (x5 : (⟨S3x128x128, .f32⟩ : BufTy).Contents (Elt F)) :
    Cert.KernelIdeal.Hand.hW2_0 (F := F) x5 = val_main_v66 (F := F) x5 := rfl
theorem hW2_1_glue (x5 : (⟨S3x128x128, .f32⟩ : BufTy).Contents (Elt F)) :
    Cert.KernelIdeal.Hand.hW2_1 (F := F) x5 = val_main_v69 (F := F) x5 := rfl
theorem hW2_2_glue (x5 : (⟨S3x128x128, .f32⟩ : BufTy).Contents (Elt F)) :
    Cert.KernelIdeal.Hand.hW2_2 (F := F) x5 = val_main_v89 (F := F) x5 := rfl

/-- The edge list's rows are the reference's. -/
theorem hSrc_glue (x10 : (⟨S2x800000, .i32⟩ : BufTy).Contents (Elt F)) :
    Cert.KernelIdeal.Hand.hSrc (F := F) x10 = val_main_v1 (F := F) x10 := rfl
theorem hDst_glue (x10 : (⟨S2x800000, .i32⟩ : BufTy).Contents (Elt F)) :
    Cert.KernelIdeal.Hand.hDst (F := F) x10 = val_main_v3 (F := F) x10 := rfl

/-- The summed edge weight is the reference's. -/
theorem hEws_glue (x6 : (⟨S3x4x128, .f32⟩ : BufTy).Contents (Elt F)) :
    Cert.KernelIdeal.Hand.hEws (F := F) x6 = val_main_v95 (F := F) x6 := rfl

/-- The edges' normalisation is the reference's. -/
theorem hNormE_glue (x10 : (⟨S2x800000, .i32⟩ : BufTy).Contents (Elt F)) :
    Cert.KernelIdeal.Hand.hNormE (F := F) x10 = val_main_v27 (F := F) x10 := rfl

end Glue

section Glue2

variable {F : FTy → Type} [FloatOps F]

/-- The second layer's aggregate of the first layer's output is the reference's. -/
theorem hT2_glue (x0 : (⟨S50000x9, .f32⟩ : BufTy).Contents (Elt F)) (x1 : (⟨S800000x4, .f32⟩ : BufTy).Contents (Elt F))
    (x2 : (⟨S3x9x128, .f32⟩ : BufTy).Contents (Elt F)) (x3 : (⟨S3x4x128, .f32⟩ : BufTy).Contents (Elt F))
    (x4 : (⟨S128, .f32⟩ : BufTy).Contents (Elt F)) (x10 : (⟨S2x800000, .i32⟩ : BufTy).Contents (Elt F)) :
    Cert.KernelIdeal.Hand.hT2 (F := F) (val_main_v64 (F := F) x0 x1 x2 x3 x4 x10) (Cert.KernelIdeal.Hand.hNormE (F := F) x10)
        (Cert.KernelIdeal.Hand.hSrc (F := F) x10) (Cert.KernelIdeal.Hand.hDst (F := F) x10)
      = val_main_v87 (F := F) x0 x1 x2 x3 x4 x10 := rfl

/-- The edge aggregate of the reference's edge transform is the reference's. -/
theorem hEa_glue (x1 : (⟨S800000x4, .f32⟩ : BufTy).Contents (Elt F)) (x6 : (⟨S3x4x128, .f32⟩ : BufTy).Contents (Elt F))
    (x10 : (⟨S2x800000, .i32⟩ : BufTy).Contents (Elt F)) :
    Cert.KernelIdeal.Hand.hEa (F := F) (Cert.KernelIdeal.Hand.hSrc (F := F) x10) (val_main_v96 (F := F) x1 x6)
      = val_main_v99 (F := F) x1 x6 x10 := rfl

end Glue2

/-! ## The two concatenations and the bias row read at an index -/

section Cat

/-- The concatenated features [H | T] at a column of the left half are H's entry. -/
theorem cat_left (H T : Spec.Mat 50000 128)
    (h : Shape.Concatenates [(⟨2, ![50000, 128]⟩ : Shape), (⟨2, ![50000, 128]⟩ : Shape)] (⟨2, ![50000, 256]⟩ : Shape) 1)
    (r : Fin 50000) (k : Fin 128) :
    concatenate (⟨2, ![50000, 256]⟩ : Shape) 1 [⟨(⟨2, ![50000, 128]⟩ : Shape), H⟩, ⟨(⟨2, ![50000, 128]⟩ : Shape), T⟩] h
        (ix2 r (Fin.castAdd 128 k)) = H (ix2 r k) :=
  concatenate_pair_apply_left (t := (⟨2, ![50000, 256]⟩ : Shape)) (s₁ := (⟨2, ![50000, 128]⟩ : Shape))
    (s₂ := (⟨2, ![50000, 128]⟩ : Shape)) (1 : Fin 2) H T h (ix2 r (Fin.castAdd 128 k)) rfl (ix2 r k)
    (fun b => match b with | ⟨0, _⟩ => rfl | ⟨1, _⟩ => rfl)

/-- … and at a column of the right half, T's entry. -/
theorem cat_right (H T : Spec.Mat 50000 128)
    (h : Shape.Concatenates [(⟨2, ![50000, 128]⟩ : Shape), (⟨2, ![50000, 128]⟩ : Shape)] (⟨2, ![50000, 256]⟩ : Shape) 1)
    (r : Fin 50000) (k : Fin 128) :
    concatenate (⟨2, ![50000, 256]⟩ : Shape) 1 [⟨(⟨2, ![50000, 128]⟩ : Shape), H⟩, ⟨(⟨2, ![50000, 128]⟩ : Shape), T⟩] h
        (ix2 r (Fin.natAdd 128 k)) = T (ix2 r k) :=
  concatenate_pair_apply_right (t := (⟨2, ![50000, 256]⟩ : Shape)) (s₁ := (⟨2, ![50000, 128]⟩ : Shape))
    (s₂ := (⟨2, ![50000, 128]⟩ : Shape)) (1 : Fin 2) H T h (ix2 r (Fin.natAdd 128 k)) rfl rfl (ix2 r k)
    (fun b => match b with | ⟨0, _⟩ => fun _ => rfl | ⟨1, _⟩ => fun hne => absurd rfl hne)
    (by show k.val + 128 = 128 + k.val; omega)

/-- The stacked weight [A ; B] at a row of the top half is A's entry. -/
theorem wcat_top (A B : Spec.Mat 128 128)
    (h : Shape.Concatenates [(⟨2, ![128, 128]⟩ : Shape), (⟨2, ![128, 128]⟩ : Shape)] (⟨2, ![256, 128]⟩ : Shape) 0)
    (k : Fin 128) (c : Fin 128) :
    concatenate (⟨2, ![256, 128]⟩ : Shape) 0 [⟨(⟨2, ![128, 128]⟩ : Shape), A⟩, ⟨(⟨2, ![128, 128]⟩ : Shape), B⟩] h
        (ix2 (Fin.castAdd 128 k) c) = A (ix2 k c) :=
  concatenate_pair_apply_left (t := (⟨2, ![256, 128]⟩ : Shape)) (s₁ := (⟨2, ![128, 128]⟩ : Shape))
    (s₂ := (⟨2, ![128, 128]⟩ : Shape)) (0 : Fin 2) A B h (ix2 (Fin.castAdd 128 k) c) rfl (ix2 k c)
    (fun b => match b with | ⟨0, _⟩ => rfl | ⟨1, _⟩ => rfl)

/-- … and at a row of the bottom half, B's entry. -/
theorem wcat_bot (A B : Spec.Mat 128 128)
    (h : Shape.Concatenates [(⟨2, ![128, 128]⟩ : Shape), (⟨2, ![128, 128]⟩ : Shape)] (⟨2, ![256, 128]⟩ : Shape) 0)
    (k : Fin 128) (c : Fin 128) :
    concatenate (⟨2, ![256, 128]⟩ : Shape) 0 [⟨(⟨2, ![128, 128]⟩ : Shape), A⟩, ⟨(⟨2, ![128, 128]⟩ : Shape), B⟩] h
        (ix2 (Fin.natAdd 128 k) c) = B (ix2 k c) :=
  concatenate_pair_apply_right (t := (⟨2, ![256, 128]⟩ : Shape)) (s₁ := (⟨2, ![128, 128]⟩ : Shape))
    (s₂ := (⟨2, ![128, 128]⟩ : Shape)) (0 : Fin 2) A B h (ix2 (Fin.natAdd 128 k) c) rfl rfl (ix2 k c)
    (fun b => match b with | ⟨0, _⟩ => fun hne => absurd rfl hne | ⟨1, _⟩ => fun _ => rfl)
    (by show k.val + 128 = 128 + k.val; omega)

/-- The bias as a row, at (0, j), is the bias at j. -/
theorem hBias_at (x7 : (⟨S128, .f32⟩ : BufTy).Contents (Elt Ideal)) (j : Fin 128) :
    Cert.KernelIdeal.Hand.hBias (F := Ideal) x7 (ix2 (0 : Fin 1) j) = x7 (ix1 j) := by
  unfold Cert.KernelIdeal.Hand.hBias
  exact shapeCast_apply x7 _ (ix2 (0 : Fin 1) j) (ix1 j)
    (by rewrite [Shape.rowMajor_val_one, Shape.rowMajor_val_two]; show j.val = 0 * 128 + j.val; omega)

end Cat

/-! ## The second layer: the kernel's arrangement is the reference's -/

section Layer2

variable (x0 : (⟨S50000x9, .f32⟩ : BufTy).Contents (Elt Ideal)) (x1 : (⟨S800000x4, .f32⟩ : BufTy).Contents (Elt Ideal))
  (x2 : (⟨S3x9x128, .f32⟩ : BufTy).Contents (Elt Ideal)) (x3 : (⟨S3x4x128, .f32⟩ : BufTy).Contents (Elt Ideal))
  (x4 : (⟨S128, .f32⟩ : BufTy).Contents (Elt Ideal)) (x5 : (⟨S3x128x128, .f32⟩ : BufTy).Contents (Elt Ideal))
  (x6 : (⟨S3x4x128, .f32⟩ : BufTy).Contents (Elt Ideal)) (x7 : (⟨S128, .f32⟩ : BufTy).Contents (Elt Ideal))
  (x10 : (⟨S2x800000, .i32⟩ : BufTy).Contents (Elt Ideal))

/-- Every entry of a slice of the weight is an entry of the weight: real when the weight is. -/
theorem w66_real (r5 : ∀ i, Spec.IsReal (x5 i)) (i : S128x128.Idx) : Spec.IsReal (val_main_v66 (F := Ideal) x5 i) := by
  rw [val_main_v66_apply, val_main_v65_apply]; exact r5 _
theorem w69_real (r5 : ∀ i, Spec.IsReal (x5 i)) (i : S128x128.Idx) : Spec.IsReal (val_main_v69 (F := Ideal) x5 i) := by
  rw [val_main_v69_apply, val_main_v68_apply]; exact r5 _

/-- The kernel's one product of [H | T₂] with [w₀ + w₁ ; w₂] is the reference's three products summed. -/
theorem layer2_mm (rh : ∀ i, Spec.IsReal (val_main_v64 (F := Ideal) x0 x1 x2 x3 x4 x10 i)) (r5 : ∀ i, Spec.IsReal (x5 i))
    (i : (⟨2, ![50000, 128]⟩ : Shape).Idx) :
    Spec.mm (M := 50000) (K := 256) (N := 128)
        (Cert.KernelIdeal.Hand.hFeat2 (F := Ideal) (val_main_v64 (F := Ideal) x0 x1 x2 x3 x4 x10) (Cert.KernelIdeal.Hand.hNormE (F := Ideal) x10)
          (Cert.KernelIdeal.Hand.hSrc (F := Ideal) x10) (Cert.KernelIdeal.Hand.hDst (F := Ideal) x10))
        (Cert.KernelIdeal.Hand.hWcat2 (F := Ideal) x5) i
      = (Spec.mm (M := 50000) (K := 128) (N := 128) (val_main_v64 (F := Ideal) x0 x1 x2 x3 x4 x10) (val_main_v66 (F := Ideal) x5) i
          + Spec.mm (M := 50000) (K := 128) (N := 128) (val_main_v64 (F := Ideal) x0 x1 x2 x3 x4 x10) (val_main_v69 (F := Ideal) x5) i)
          + Spec.mm (M := 50000) (K := 128) (N := 128) (val_main_v87 (F := Ideal) x0 x1 x2 x3 x4 x10) (val_main_v89 (F := Ideal) x5) i :=
  Spec.mm_cat_law (M := 50000) (Fd := 128) (N := 128)
    (val_main_v64 (F := Ideal) x0 x1 x2 x3 x4 x10) (val_main_v87 (F := Ideal) x0 x1 x2 x3 x4 x10)
    (val_main_v66 (F := Ideal) x5) (val_main_v69 (F := Ideal) x5) (val_main_v89 (F := Ideal) x5)
    (Cert.KernelIdeal.Hand.hFeat2 (F := Ideal) (val_main_v64 (F := Ideal) x0 x1 x2 x3 x4 x10) (Cert.KernelIdeal.Hand.hNormE (F := Ideal) x10)
      (Cert.KernelIdeal.Hand.hSrc (F := Ideal) x10) (Cert.KernelIdeal.Hand.hDst (F := Ideal) x10))
    (Cert.KernelIdeal.Hand.hWcat2 (F := Ideal) x5)
    -- the left half of the features is the first layer's output
    (fun r k => cat_left (val_main_v64 (F := Ideal) x0 x1 x2 x3 x4 x10)
      (Cert.KernelIdeal.Hand.hT2 (F := Ideal) (val_main_v64 (F := Ideal) x0 x1 x2 x3 x4 x10) (Cert.KernelIdeal.Hand.hNormE (F := Ideal) x10)
        (Cert.KernelIdeal.Hand.hSrc (F := Ideal) x10) (Cert.KernelIdeal.Hand.hDst (F := Ideal) x10)) _ r k)
    -- the right half is its aggregate, the same host operations in both programs
    (fun r k => (cat_right (val_main_v64 (F := Ideal) x0 x1 x2 x3 x4 x10)
      (Cert.KernelIdeal.Hand.hT2 (F := Ideal) (val_main_v64 (F := Ideal) x0 x1 x2 x3 x4 x10) (Cert.KernelIdeal.Hand.hNormE (F := Ideal) x10)
        (Cert.KernelIdeal.Hand.hSrc (F := Ideal) x10) (Cert.KernelIdeal.Hand.hDst (F := Ideal) x10)) _ r k).trans
      (congrFun (hT2_glue (F := Ideal) x0 x1 x2 x3 x4 x10) (ix2 r k)))
    -- the top half of the stacked weight is the sum of the first two slices
    (fun k j => by
      unfold Cert.KernelIdeal.Hand.hWcat2
      refine (wcat_top _ _ _ k j).trans ?_
      rw [hW2_0_glue, hW2_1_glue]; rfl)
    -- the bottom half is the third slice
    (fun k j => by
      unfold Cert.KernelIdeal.Hand.hWcat2
      refine (wcat_bot _ _ _ k j).trans ?_
      rw [hW2_2_glue])
    rh (w66_real x5 r5) (w69_real x5 r5) i

/-- THE SECOND LAYER. The kernel's node transform of the reference's first-layer output is the reference's second-layer
    output: the one product splits into the three (a real feature distributes over the sum of two real weights); the
    bias row, the aggregate and the edge aggregate are the same host operations in both programs. -/
theorem h2_eq (rh : ∀ i, Spec.IsReal (val_main_v64 (F := Ideal) x0 x1 x2 x3 x4 x10 i)) (r5 : ∀ i, Spec.IsReal (x5 i)) :
    Cert.KernelIdeal.Hand.h2K (val_main_v64 (F := Ideal) x0 x1 x2 x3 x4 x10) x1 x5 x6 x7 x10
      = val_main_v101 (F := Ideal) x0 x1 x2 x3 x4 x5 x6 x7 x10 := by
  funext i
  show max ((Spec.mm (M := 50000) (K := 256) (N := 128)
        (Cert.KernelIdeal.Hand.hFeat2 (F := Ideal) (val_main_v64 (F := Ideal) x0 x1 x2 x3 x4 x10) (Cert.KernelIdeal.Hand.hNormE (F := Ideal) x10)
          (Cert.KernelIdeal.Hand.hSrc (F := Ideal) x10) (Cert.KernelIdeal.Hand.hDst (F := Ideal) x10))
        (Cert.KernelIdeal.Hand.hWcat2 (F := Ideal) x5) i
      + Cert.KernelIdeal.Hand.hBias (F := Ideal) x7 (ix2 (0 : Fin 1) (Spec.col i)))
      + Cert.KernelIdeal.Hand.hEa (F := Ideal) (Cert.KernelIdeal.Hand.hSrc (F := Ideal) x10)
          (Spec.mm (M := 800000) (K := 4) (N := 128) x1 (Cert.KernelIdeal.Hand.hEws (F := Ideal) x6)) i) 0 = _
  rw [ref_layer2_at, layer2_mm x0 x1 x2 x3 x4 x5 x10 rh r5 i, hBias_at, hEws_glue, ← v96_mm, hEa_glue]

end Layer2

end Cert.Proof.Bridge

end
-- ==== Proof.LibScatterVec.lean ====
/-
  The accumulating scatter into a VECTOR read at an index, and three facts about finiteness.

  The accumulating scatter of updates [E] into a vector [N] at start indices idx : [E, 1] adds update e to entry
  idx[e, 0], the index word read as a signed integer and NOT clamped: an index outside [0, N) drops the update. So
  entry n of the result is the operand's entry n plus the sum of the updates whose index word, read signed, is n.
  Stated for any extents, on the extended reals.

  Finiteness, for ANY dimension numbers: an accumulating scatter of reals into reals is real (an entry plus a finite
  sum of update entries); a sum-reduction of reals from a real initial value is real (the initial value plus a finite
  sum of entries); every entry of a gather is an entry of its operand, so a gather of reals is real.
-/
import Idealize.ShloMosaic.Lib.ValueIdx
import Idealize.ShloMosaic.PureOps.Ideal
import Idealize.ShloMosaic.PureOps.Ideal.Laws
import proofs.«413272_j14783277433402_2_alg».proof.Proof.SpecLaws

noncomputable section

namespace LibScatterVec

open Idealize.ShloMosaic Idealize.ShloMosaic.ValueIdx

section Scatter

/-- The dimension numbers of the accumulating scatter into a vector: update e goes to the entry its index word names. -/
abbrev scatVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The start of update e on the vector's one axis is its index word idx[e, 0], read signed. -/
theorem scatVec_start (idx : IVec ⟨2, ![E, 1]⟩ w) (e : Fin E) :
    (scatVecDims N E wf).start (ix1 e) idx 0 = (idx (ix2 e (0 : Fin 1))).toInt := by
  unfold ScatterDims.start
  rw [dif_pos (show (0 : Fin 1) ∈ (scatVecDims N E wf).scatterDimsToOperandDims from List.mem_singleton.mpr rfl)]
  have hsi : (scatVecDims N E wf).siIdx (ix1 e) ⟨List.idxOf (0 : Fin 1) (scatVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The vector's one axis is an inserted axis: the window coordinate on it is zero. -/
theorem scatVec_window (e : Fin E) : (scatVecDims N E wf).window (ix1 e) 0 = 0 := by
  unfold ScatterDims.window
  rw [dif_neg]
  intro h
  have : (0 : Fin 1) ∈ (⟨1, ![N]⟩ : Shape).kept [0] := h
  simp [Shape.kept] at this

/-- Update e lands on entry n exactly when its index word, read signed, is n. -/
theorem scatter_vec_resultIdx (idx : IVec ⟨2, ![E, 1]⟩ w) (e : Fin E) (n : Fin N) :
    (scatVecDims N E wf).resultIdx? (ix1 e) idx = some (ix1 n)
      ↔ (idx (ix2 e (0 : Fin 1))).toInt = (n.val : ℤ) := by
  unfold ScatterDims.resultIdx?
  constructor
  · intro h
    split at h
    · rename_i hall
      have h' := Option.some.inj h
      have h0 := congrArg (fun f => (f 0).val) h'
      simp only [scatVec_start, scatVec_window] at h0
      have hb := hall 0
      simp only [scatVec_start, scatVec_window] at hb
      have : ((idx (ix2 e (0 : Fin 1))).toInt + ((0 : Nat) : ℤ)).toNat = n.val := h0
      omega
    · exact absurd h (by simp)
  · intro hn
    have hall : ∀ a, 0 ≤ (scatVecDims N E wf).start (ix1 e) idx a + (scatVecDims N E wf).window (ix1 e) a ∧
        (scatVecDims N E wf).start (ix1 e) idx a + (scatVecDims N E wf).window (ix1 e) a < (⟨1, ![N]⟩ : Shape).size a := by
      intro a
      match a with
      | ⟨0, _⟩ =>
        show 0 ≤ (scatVecDims N E wf).start (ix1 e) idx 0 + ((scatVecDims N E wf).window (ix1 e) 0 : ℤ) ∧
          (scatVecDims N E wf).start (ix1 e) idx 0 + ((scatVecDims N E wf).window (ix1 e) 0 : ℤ) < (N : ℤ)
        rw [scatVec_start, scatVec_window, hn]; have := n.isLt; omega
    rw [dif_pos hall]
    congr 1
    funext a
    refine Fin.ext ?_
    match a with
    | ⟨0, _⟩ =>
      show ((scatVecDims N E wf).start (ix1 e) idx 0 + ((scatVecDims N E wf).window (ix1 e) 0 : ℤ)).toNat = n.val
      rw [scatVec_start, scatVec_window, hn]; omega

/-- THE ACCUMULATING SCATTER INTO A VECTOR READ AT n, on the extended reals: the operand's entry plus the sum, over
    the updates whose index word read signed is n, of the update. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (scatVecDims N E wf) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  have key : ∀ j : (⟨1, ![E]⟩ : Shape).Idx, (scatVecDims N E wf).resultIdx? j idx = some (ix1 n) →
      (idx (ix2 (j 0 : Fin E) (0 : Fin 1))).toInt = (n.val : ℤ) := by
    intro j hj
    rw [eq_ix1 j] at hj
    exact (scatter_vec_resultIdx wf idx (j 0 : Fin E) n).mp hj
  refine Finset.sum_bij' (fun j _ => (j 0 : Fin E)) (fun e _ => ix1 e) ?_ ?_ ?_ ?_ ?_
  · intro j hj
    exact Finset.mem_filter.mpr ⟨Finset.mem_univ _, key j (Finset.mem_filter.mp hj).2⟩
  · intro e he
    exact Finset.mem_filter.mpr ⟨Finset.mem_univ _,
      (scatter_vec_resultIdx wf idx e n).mpr (Finset.mem_filter.mp he).2⟩
  · intro j _
    exact (eq_ix1 j).symm
  · intro e _; rfl
  · intro j _
    exact congrArg upd (eq_ix1 j)

end Scatter

section Finite

/-- An accumulating scatter of reals into reals is real, at every index: the operand's entry plus a finite sum of
    update entries. -/
theorem isReal_hostScatterAdd {s si su : Shape} (d : ScatterDims s si su) {w : Nat} (x : s.Idx → EReal)
    (idx : IVec si w) (upd : su.Idx → EReal) (hx : ∀ i, Spec.IsReal (x i)) (hu : ∀ j, Spec.IsReal (upd j))
    (i : s.Idx) : Spec.IsReal (Ideal.hostScatterAdd d x idx upd i) := by
  unfold Ideal.hostScatterAdd
  exact (hx i).add (Spec.IsReal.sum _ _ fun j _ => hu j)

/-- A sum-reduction of reals from a real initial value is real, at every index: the initial value plus a finite sum
    of entries. -/
theorem isReal_hostReduceAdd {s : Shape} {axes : List (Fin s.rank)} {t : Shape} (h : s.ReducesTo axes t)
    (x : s.Idx → EReal) (init : EReal) (hx : ∀ i, Spec.IsReal (x i)) (hi : Spec.IsReal init) (i : t.Idx) :
    Spec.IsReal (Ideal.hostReduceAdd h x init i) := by
  unfold Ideal.hostReduceAdd
  exact hi.add (Spec.IsReal.sum _ _ fun j _ => hx j)

/-- Every entry of a gather is an entry of its operand. -/
theorem isReal_gather {α : Type} {s si t : Shape} {w : Nat} (d : GatherDims s si t) (x : s.Idx → α)
    (idx : IVec si w) : ∀ i, ∃ j, Host.gather d x idx i = x j :=
  fun i => ⟨d.operandIdx i idx, rfl⟩

/-- So a gather of reals is real. -/
theorem isReal_gather_apply {s si t : Shape} {w : Nat} (d : GatherDims s si t) (x : s.Idx → EReal)
    (idx : IVec si w) (hx : ∀ j, Spec.IsReal (x j)) (i : t.Idx) : Spec.IsReal (Host.gather d x idx i) :=
  hx _

end Finite

end LibScatterVec

end
-- ==== Proof.BridgePool.lean ====
/-
  The pooling and the tail: where the kernel program's last stretch meets the reference's.

  * THE TAIL. From the pooled sums P and the graphs' sizes C both programs compute the same thing, operation for
    operation: P divided by max (C, 1) on every row, times the 128 x 4 weight, plus the bias on every row, then
    the log-softmax over the four columns. The two terms are built from the same operations, so they are equal by
    unfolding, for every float instance.
  * THE MEMBERSHIP MATRIX. Entry (n, g) is the conversion of the bit "the label word of node n equals the word of
    g"; the label column repeated along the row reads the label of n, the iota repeated down the column reads
    the word of g; a 32-bit word equals the word of g < 64 exactly when its signed value is g; the conversion
    sends the bit 1 to 1 and the bit 0 to 0.
  * THE POOLED SUMS. The kernel's product of the transposed membership matrix with the node matrix h, and the
    reference's accumulating scatter of the rows of h into the rows their labels name (from zero), are both, at
    (g, j), the sum of h (n, j) over the nodes n whose label read signed is g. No property of h is used.
  * THE SIZES. The kernel's column sums of the membership matrix (from zero), and the reference's accumulating scatter
    of ones into a zero vector, are both, at g, the sum of 1 over the nodes whose label read signed is g.
-/
import proofs.«413272_j14783277433402_2_alg».proof.Proof.KI.HostDefs
import proofs.«413272_j14783277433402_2_alg».proof.Proof.Spec
import proofs.«413272_j14783277433402_2_alg».proof.Proof.SpecLaws
import proofs.«413272_j14783277433402_2_alg».proof.Proof.LibScatterVec
import proofs.«413272_j14783277433402_2_alg».proof.Proof.LibGatherScatter
import proofs.«413272_j14783277433402_2_alg».proof.Proof.RefRead
import Idealize.ShloMosaic.Lib.ValueIdx
import Idealize.ShloMosaic.Lib.StableHlo.Predicate
import Idealize.ShloMosaic.PureOps.Ideal.Laws

noncomputable section

namespace Cert.Proof.Bridge

open Cert.KernelIdeal.Hand
open Cert.ReferenceIdeal Cert.ReferenceIdeal.Gen
open Idealize.ShloMosaic Idealize.ShloMosaic.ValueIdx Idealize.ShloMosaic.TcCoe Idealize.SL.Sem
open Idealize.ShloMosaic.StableHlo

/-! ## The tail -/

/-- The kernel program's tail, applied to the reference's pooled sums and sizes, is the reference's result: the same
    operations in the same order (divide by the sizes clipped below at one, the last linear map and its bias, the
    log-softmax), for every float instance. -/
theorem tail_eq {F : FTy → Type} [FloatOps F]
    (x0 : (⟨S50000x9, .f32⟩ : BufTy).Contents (Elt F)) (x1 : (⟨S800000x4, .f32⟩ : BufTy).Contents (Elt F))
    (x2 : (⟨S3x9x128, .f32⟩ : BufTy).Contents (Elt F)) (x3 : (⟨S3x4x128, .f32⟩ : BufTy).Contents (Elt F))
    (x4 : (⟨S128, .f32⟩ : BufTy).Contents (Elt F)) (x5 : (⟨S3x128x128, .f32⟩ : BufTy).Contents (Elt F))
    (x6 : (⟨S3x4x128, .f32⟩ : BufTy).Contents (Elt F)) (x7 : (⟨S128, .f32⟩ : BufTy).Contents (Elt F))
    (x8 : (⟨S128x4, .f32⟩ : BufTy).Contents (Elt F)) (x9 : (⟨S4, .f32⟩ : BufTy).Contents (Elt F))
    (x10 : (⟨S2x800000, .i32⟩ : BufTy).Contents (Elt F)) (x11 : (⟨S50000, .i32⟩ : BufTy).Contents (Elt F)) :
    hTail (F := F) (Read.val_main_v108 (F := F) x0 x1 x2 x3 x4 x5 x6 x7 x10 x11) (Read.val_main_v105 (F := F) x11) x8 x9
      = Read.val_main_v118 (F := F) x0 x1 x2 x3 x4 x5 x6 x7 x8 x9 x10 x11 := by
  rfl

/-! ## The membership matrix -/

/-- The literal 1.0: sign 0, exponent field 127, fraction 0. -/
theorem ofBits_one_f32 : Ideal.ofBits .f32 0x3F800000#32 = 1 := by
  simp [Ideal.ofBits, Ideal.ieee, -EReal.coe_mul]; norm_num

/-- A rank-2 index from its coordinates, in either of the two spellings. -/
theorem ix2_eq_ij {n m : Nat} (p : Fin n) (q : Fin m) : ix2 p q = Predicate.ij p q := by
  funext a; match a with | ⟨0, _⟩ => rfl | ⟨1, _⟩ => rfl

/-- A rank-1 index from its coordinate, in either of the two spellings. -/
theorem ofFin_eq_ix1 {n : Nat} (p : Fin n) : Shape.Idx.ofFin p = ix1 p := by
  funext a; obtain rfl : a = 0 := Subsingleton.elim _ _; exact Fin.ext rfl

/-- A 32-bit word is the word of a natural below 2^31 exactly when its signed value is that natural. -/
theorem word_eq_ofNat_iff (a : BitVec 32) (g : Nat) (hg : g < 2 ^ 31) : a = BitVec.ofNat 32 g ↔ a.toInt = (g : ℤ) := by
  constructor
  · rintro rfl; exact Predicate.toInt_ofNat_small g hg
  · intro h; exact BitVec.eq_of_toInt_eq (h.trans (Predicate.toInt_ofNat_small g hg).symm)

/-- The label column repeated along the row reads, at (n, g), the label of node n. -/
theorem hBat_apply {F : FTy → Type} [FloatOps F] (x11 : (⟨S50000, .i32⟩ : BufTy).Contents (Elt F)) (n : Fin 50000) (g : Fin 64) :
    hBat (F := F) x11 (ix2 n g) = x11 (ix1 n) := by
  rw [ix2_eq_ij, ← ofFin_eq_ix1]
  exact Predicate.bcast_rows Cert.KernelIdeal.Gen.bcast_S50000_S50000x1_0 Cert.KernelIdeal.Gen.bcast_S50000x1_S50000x64_0_1 x11 n g

/-- The iota repeated down the column reads, at (n, g), the word of g. -/
theorem hIota_apply {F : FTy → Type} [FloatOps F] (n : Fin 50000) (g : Fin 64) :
    hIota (F := F) (ix2 n g) = BitVec.ofNat 32 g.val := by
  rw [ix2_eq_ij]
  exact (Predicate.bcast_cols Cert.KernelIdeal.Gen.bcast_S64_S1x64_1 Cert.KernelIdeal.Gen.bcast_S1x64_S50000x64_0_1 _ n g).trans (Predicate.iota_apply g)

/-- THE MEMBERSHIP MATRIX at (n, g): 1 when the label of node n, read signed, is g, and 0 otherwise. -/
theorem onehot_apply (x11 : (⟨S50000, .i32⟩ : BufTy).Contents (Elt Ideal)) (n : Fin 50000) (g : Fin 64) :
    hOnehot (F := Ideal) x11 (ix2 n g) = if (x11 (ix1 n)).toInt = (g.val : ℤ) then 1 else 0 := by
  -- the entry is the conversion of the comparison bit: the bit's value as a real
  show ((((IntOp.cmpi .eq (hBat (F := Ideal) x11 (ix2 n g)) (hIota (F := Ideal) (ix2 n g))).toNat : ℕ) : ℝ) : EReal) = _
  rw [hBat_apply, hIota_apply]
  have hg : g.val < 2 ^ 31 := by have := g.isLt; omega
  by_cases h : (x11 (ix1 n)).toInt = (g.val : ℤ)
  · -- equal words: the bit is 1
    rw [if_pos h, Predicate.cmpi_eq_iff.mpr ((word_eq_ofNat_iff _ _ hg).mpr h)]
    simp
  · -- different words: the bit is 0
    rw [if_neg h, eq_zero_of_ne_one (fun hc => h ((word_eq_ofNat_iff _ _ hg).mp (Predicate.cmpi_eq_iff.mp hc)))]
    simp

/-! ## The pooled sums -/

/-- The reference's label column (the pooled sums' copy) at row e is the label of node e. -/
theorem v107_apply (x11 : (⟨S50000, .i32⟩ : BufTy).Contents (Elt Ideal)) (e : Fin 50000) :
    Read.val_main_v107 (F := Ideal) x11 (ix2 e (0 : Fin 1)) = x11 (ix1 e) := by
  rw [Read.val_main_v107_apply]
  exact congrArg x11 (funext fun a => by match a with | ⟨0, _⟩ => rfl)

/-- The matrix the pooled sums accumulate into is zero. -/
theorem v106_apply (i : S64x128.Idx) : Read.val_main_v106 (F := Ideal) i = 0 := by
  rw [Read.val_main_v106_apply, Read.val_main_cst_21_apply]
  exact Ideal.ofBits_zero_f32

/-- THE POOLED SUMS, for ANY node matrix h. The product of the transposed membership matrix with h, summed block
    by block, is the accumulating scatter of the rows of h into the rows their labels name: both are, at (g, j), the
    sum of h (n, j) over the nodes n whose label read signed is g. -/
theorem pool_scatter_eq (x11 : (⟨S50000, .i32⟩ : BufTy).Contents (Elt Ideal)) (h : (⟨S50000x128, .f32⟩ : BufTy).Contents (Elt Ideal)) :
    Spec.pool (hOnehot (F := Ideal) x11) h
      = Host.scatterAdd (F := Ideal) (φ := .f32) scatter_S64x128_S50000x1_S50000x128_1_0_0_1 (Read.val_main_v106 (F := Ideal)) (Read.val_main_v107 (F := Ideal) x11) h := by
  funext i
  obtain ⟨g, j, rfl⟩ : ∃ (g : Fin 64) (j : Fin 128), i = ix2 g j := ⟨_, _, eq_ix2 i⟩
  -- the kernel's side: the sum over the nodes labelled g
  rw [Spec.pool_law (hOnehot (F := Ideal) x11) h (fun n => (x11 (ix1 n)).toInt) (onehot_apply x11) (ix2 g j)]
  -- the reference's side: zero plus the sum over the nodes whose index word read signed is g
  simp only [Host.scatterAdd, Ideal.hostScatterAdd_def]
  show _ = Ideal.hostScatterAdd (LibGatherScatter.scatRowsDims 64 50000 128 scatter_S64x128_S50000x1_S50000x128_1_0_0_1_wf)
    (Read.val_main_v106 (F := Ideal)) (Read.val_main_v107 (F := Ideal) x11) h (ix2 g j)
  rw [LibGatherScatter.scatterAdd_rows_apply, v106_apply, zero_add]
  simp only [v107_apply]

/-- The pooled sums of the reference's second-layer output: the kernel's pooling of it is the reference's %108. -/
theorem pool_eq
    (x0 : (⟨S50000x9, .f32⟩ : BufTy).Contents (Elt Ideal)) (x1 : (⟨S800000x4, .f32⟩ : BufTy).Contents (Elt Ideal))
    (x2 : (⟨S3x9x128, .f32⟩ : BufTy).Contents (Elt Ideal)) (x3 : (⟨S3x4x128, .f32⟩ : BufTy).Contents (Elt Ideal))
    (x4 : (⟨S128, .f32⟩ : BufTy).Contents (Elt Ideal)) (x5 : (⟨S3x128x128, .f32⟩ : BufTy).Contents (Elt Ideal))
    (x6 : (⟨S3x4x128, .f32⟩ : BufTy).Contents (Elt Ideal)) (x7 : (⟨S128, .f32⟩ : BufTy).Contents (Elt Ideal))
    (x10 : (⟨S2x800000, .i32⟩ : BufTy).Contents (Elt Ideal)) (x11 : (⟨S50000, .i32⟩ : BufTy).Contents (Elt Ideal)) :
    Spec.pool (hOnehot (F := Ideal) x11) (Read.val_main_v101 (F := Ideal) x0 x1 x2 x3 x4 x5 x6 x7 x10)
      = Read.val_main_v108 (F := Ideal) x0 x1 x2 x3 x4 x5 x6 x7 x10 x11 :=
  pool_scatter_eq x11 _

/-! ## The sizes -/

/-- The reference's label column (the sizes' copy) at row e is the label of node e. -/
theorem v104_apply (x11 : (⟨S50000, .i32⟩ : BufTy).Contents (Elt Ideal)) (e : Fin 50000) :
    Read.val_main_v104 (F := Ideal) x11 (ix2 e (0 : Fin 1)) = x11 (ix1 e) := by
  rw [Read.val_main_v104_apply]
  exact congrArg x11 (funext fun a => by match a with | ⟨0, _⟩ => rfl)

/-- The vector the sizes accumulate into is zero. -/
theorem v103_apply (i : S64.Idx) : Read.val_main_v103 (F := Ideal) i = 0 := by
  rw [Read.val_main_v103_apply, Read.val_main_cst_20_apply]
  exact Ideal.ofBits_zero_f32

/-- Every update of the sizes' scatter is one. -/
theorem v102_apply (i : S50000.Idx) : Read.val_main_v102 (F := Ideal) i = 1 := by
  rw [Read.val_main_v102_apply, Read.val_main_cst_19_apply]
  exact ofBits_one_f32

/-- The kernel's sizes at g: zero plus the sum over the nodes of the membership matrix's column g. -/
theorem hCounts_apply (x11 : (⟨S50000, .i32⟩ : BufTy).Contents (Elt Ideal)) (g : Fin 64) :
    hCounts (F := Ideal) x11 (ix1 g) = 0 + ∑ n : Fin 50000, hOnehot (F := Ideal) x11 (ix2 n g) := by
  unfold hCounts
  generalize hOnehot (F := Ideal) x11 = y0
  simp only [Host.reduceAdd, Ideal.hostReduceAdd_def]
  rw [Ideal.hostReduceAdd_single Cert.KernelIdeal.Gen.reducesTo_S50000x64_S64_d0 (by decide)]
  refine congrArg₂ (· + ·) Ideal.ofBits_zero_f32 (Finset.sum_congr rfl fun n _ => ?_)
  exact congrArg y0 (funext fun a => Fin.ext (by match a with | ⟨0, _⟩ => rfl | ⟨1, _⟩ => rfl))

/-- THE SIZES. The column sums of the membership matrix are the accumulating scatter of ones into the entries the
    labels name: both are, at g, the sum of 1 over the nodes whose label read signed is g. -/
theorem counts_eq (x11 : (⟨S50000, .i32⟩ : BufTy).Contents (Elt Ideal)) :
    hCounts (F := Ideal) x11 = Read.val_main_v105 (F := Ideal) x11 := by
  funext i
  obtain ⟨g, rfl⟩ : ∃ g : Fin 64, i = ix1 g := ⟨_, eq_ix1 i⟩
  -- the kernel's side: the number of nodes labelled g, as a sum of ones
  rw [hCounts_apply, Spec.counts_law (hOnehot (F := Ideal) x11) (fun n => (x11 (ix1 n)).toInt) (onehot_apply x11) g]
  -- the reference's side: zero plus the sum of the ones whose index word read signed is g
  unfold Read.val_main_v105
  simp only [Host.scatterAdd, Ideal.hostScatterAdd_def]
  show _ = Ideal.hostScatterAdd (LibScatterVec.scatVecDims 64 50000 scatter_S64_S50000x1_S50000_n_0_0_1_wf)
    (Read.val_main_v103 (F := Ideal)) (Read.val_main_v104 (F := Ideal) x11) (Read.val_main_v102 (F := Ideal)) (ix1 g)
  rw [LibScatterVec.scatterAdd_vec_apply, v103_apply]
  simp only [v104_apply, v102_apply]

end Cert.Proof.Bridge

end
-- ==== Proof.RefReal.lean ====
/-
  The reference's first layer stays on the reals. Every float value the reference computes on the way to the first
  layer's output is built from the inputs by operations the reals are closed under: constants with a finite
  exponent, re-indexings (broadcasts, slices, reshapes, gathers: each entry is an entry of the operand), products,
  sums, differences, maxima, a choice between two real vectors, the power of a real to a real exponent, finite sums
  (a reduction, a scatter with an add body: the operand's entry plus finitely many updates) and matrix products
  (finite sums of products). So if the five float inputs it reads are real entry by entry, so is its output.
-/
import proofs.«413272_j14783277433402_2_alg».proof.Proof.RefRead
import proofs.«413272_j14783277433402_2_alg».proof.Proof.SpecLaws
import Idealize.ShloMosaic.PureOps.Ideal.Laws

noncomputable section

namespace Cert.ReferenceIdeal.Real

open Cert.ReferenceIdeal Cert.ReferenceIdeal.Read Idealize.ShloMosaic
open Spec (IsReal)

/-! ## The operations, one closure lemma each -/

variable {s t : Shape}

/-- A bit pattern whose exponent field is not all ones denotes a real: a zero, a subnormal or a normal number. -/
theorem real_ieee (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The four float constants of the first layer: 0, 1, 2 and -1/2. -/
theorem real_const (S : Shape) (b : BitVec 32) (h : (b.extractLsb' 23 8).toNat ≠ 2 ^ 8 - 1) (i : S.Idx) :
    IsReal (constant (F := Ideal) S .f32 b i) :=
  real_ieee 8 23 b h

/-- A broadcast's entry is an entry of its operand. -/
theorem real_bcast (dims : Fin s.rank → Fin t.rank) (h : s.BroadcastsInDim t dims) (x : s.Idx → EReal)
    (hx : ∀ i, IsReal (x i)) (j : t.Idx) : IsReal (broadcastInDim t dims h x j) := hx _

/-- A slice's entry is an entry of its operand. -/
theorem real_slice (off : Fin s.rank → Nat) (x : s.Idx → EReal) (h : s.Slices off t)
    (hx : ∀ i, IsReal (x i)) (j : t.Idx) : IsReal (extractStridedSlice t off x h j) := hx _

/-- A reshape's entry is an entry of its operand. -/
theorem real_reshape (x : s.Idx → EReal) (h : s.ShapeCasts t)
    (hx : ∀ i, IsReal (x i)) (j : t.Idx) : IsReal (shapeCast t x h j) := hx _

/-- A gather's entry is an entry of its operand. -/
theorem real_gather {si : Shape} {w : Nat} (d : GatherDims s si t) (x : s.Idx → EReal) (idx : IVec si w)
    (hx : ∀ i, IsReal (x i)) (j : t.Idx) : IsReal (Host.gather d x idx j) := hx _

theorem real_mulf {φ : FTy} (x y : FVec Ideal s φ) (hx : ∀ i, IsReal (x i)) (hy : ∀ i, IsReal (y i)) (i : s.Idx) :
    IsReal (mulf x y i) := (hx i).mul (hy i)

theorem real_addf {φ : FTy} (x y : FVec Ideal s φ) (hx : ∀ i, IsReal (x i)) (hy : ∀ i, IsReal (y i)) (i : s.Idx) :
    IsReal (addf x y i) := (hx i).add (hy i)

theorem real_subf {φ : FTy} (x y : FVec Ideal s φ) (hx : ∀ i, IsReal (x i)) (hy : ∀ i, IsReal (y i)) (i : s.Idx) :
    IsReal (subf x y i) := (hx i).sub (hy i)

theorem real_maxf {φ : FTy} (x y : FVec Ideal s φ) (hx : ∀ i, IsReal (x i)) (hy : ∀ i, IsReal (y i)) (i : s.Idx) :
    IsReal (maximumf x y i) := (hx i).max (hy i)

/-- The host's power, entry by entry the power of two reals. -/
theorem real_powf {φ : FTy} (x y : FVec Ideal s φ) (hx : ∀ i, IsReal (x i)) (hy : ∀ i, IsReal (y i)) (i : s.Idx) :
    IsReal (Host.powf x y i) := (hx i).pow (hy i)

/-- A choice between two real vectors is real, whatever the condition. -/
theorem real_select (c : IVec s 1) (x y : s.Idx → EReal) (hx : ∀ i, IsReal (x i)) (hy : ∀ i, IsReal (y i)) (i : s.Idx) :
    IsReal (select c x y i) := by
  show IsReal (if c i = 1 then x i else y i)
  split
  · exact hx i
  · exact hy i

/-- A scatter with an add body: the operand's entry plus the finitely many updates that land on it. -/
theorem real_scatterAdd {φ : FTy} {si u : Shape} {w : Nat} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) :=
  (hx i).add (IsReal.sum _ _ fun j _ => hu j)

/-- A sum over reduced axes: the initial value plus the finitely many entries that reduce to the index. -/
theorem real_reduceAdd {φ : FTy} {axes : List (Fin s.rank)} {u : Shape} (x : FVec Ideal s φ) (init : u.Idx → Ideal φ)
    (h : s.ReducesTo axes t) (hu : 0 < u.numel) (hx : ∀ i, IsReal (x i)) (hi : ∀ j, IsReal (init j)) (j : t.Idx) :
    IsReal (Host.reduceAdd x init h hu j) :=
  (hi _).add (IsReal.sum _ _ fun i _ => hx i)

/-- A matrix product: a finite sum of products of entries. -/
theorem real_dot {sl sr so : Shape} {φ₁ φ₂ : FTy} (d : DotDims sl sr so) (prec : Option ContractPrecision)
    (x : FVec Ideal sl φ₁) (y : FVec Ideal sr φ₂) (hx : ∀ i, IsReal (x i)) (hy : ∀ i, IsReal (y i)) (j : so.Idx) :
    IsReal (Host.dotGeneral d prec x y j) := by
  simp only [Host.dotGeneral]
  rw [Ideal.dotGeneral_apply]
  exact IsReal.sum _ _ fun k _ => (hx _).mul (hy _)

/-! ## The first layer, value by value -/

/-- The float constants of the first layer are real: none has an all-ones exponent. -/
theorem r_cst (i) : IsReal (val_main_cst (F := Ideal) i) := real_const _ _ (by decide) i
theorem r_cst_0 (i) : IsReal (val_main_cst_0 (F := Ideal) i) := real_const _ _ (by decide) i
theorem r_cst_2 (i) : IsReal (val_main_cst_2 (F := Ideal) i) := real_const _ _ (by decide) i
theorem r_cst_3 (i) : IsReal (val_main_cst_3 (F := Ideal) i) := real_const _ _ (by decide) i
theorem r_cst_9 (i) : IsReal (val_main_cst_9 (F := Ideal) i) := real_const _ _ (by decide) i
theorem r_cst_10 (i) : IsReal (val_main_cst_10 (F := Ideal) i) := real_const _ _ (by decide) i
theorem r_cst_11 (i) : IsReal (val_main_cst_11 (F := Ideal) i) := real_const _ _ (by decide) i
theorem r_cst_12 (i) : IsReal (val_main_cst_12 (F := Ideal) i) := real_const _ _ (by decide) i
theorem r_call1_cst (i) : IsReal (val_main_call1_cst (F := Ideal) i) := real_const _ _ (by decide) i

/-- The degree of each node: zeros plus the ones scattered onto them. -/
theorem r_v7 (x10 : (⟨S2x800000, .i32⟩ : BufTy).Contents (Elt Ideal)) (i) : IsReal (val_main_v7 (F := Ideal) x10 i) := by
  unfold val_main_v7 val_main_v5 val_main_v4
  exact real_scatterAdd _ _ _ _ (real_bcast _ _ _ r_cst_0) (real_bcast _ _ _ r_cst) i

/-- The degree to the power -1/2. -/
theorem r_v11 (x10 : (⟨S2x800000, .i32⟩ : BufTy).Contents (Elt Ideal)) (i) : IsReal (val_main_v11 (F := Ideal) x10 i) := by
  unfold val_main_v11 val_main_v10
  exact real_powf _ _ (r_v7 x10) (real_bcast _ _ _ r_cst_2) i

/-- The normalisation of each node: that power where the degree is positive, zero elsewhere. -/
theorem r_v12 (x10 : (⟨S2x800000, .i32⟩ : BufTy).Contents (Elt Ideal)) (i) : IsReal (val_main_v12 (F := Ideal) x10 i) := by
  unfold val_main_v12 val_main_call0_v1 val_main_call0_v0
  exact real_select _ _ _ (r_v11 x10) (real_bcast _ _ _ r_cst_3) i

/-- The normalisation of each edge: the product of its two end nodes'. -/
theorem r_v27 (x10 : (⟨S2x800000, .i32⟩ : BufTy).Contents (Elt Ideal)) (i) : IsReal (val_main_v27 (F := Ideal) x10 i) := by
  unfold val_main_v27 val_main_v19 val_main_v26
  exact real_mulf _ _ (real_gather _ _ _ (r_v12 x10)) (real_gather _ _ _ (r_v12 x10)) i

/-- The three slices of the node weight. -/
theorem r_v29 (x2 : (⟨S3x9x128, .f32⟩ : BufTy).Contents (Elt Ideal)) (h2 : ∀ i, IsReal (x2 i)) (i) : IsReal (val_main_v29 (F := Ideal) x2 i) := by
  unfold val_main_v29 val_main_v28
  exact real_reshape _ _ (real_slice _ _ _ h2) i
theorem r_v32 (x2 : (⟨S3x9x128, .f32⟩ : BufTy).Contents (Elt Ideal)) (h2 : ∀ i, IsReal (x2 i)) (i) : IsReal (val_main_v32 (F := Ideal) x2 i) := by
  unfold val_main_v32 val_main_v31
  exact real_reshape _ _ (real_slice _ _ _ h2) i
theorem r_v52 (x2 : (⟨S3x9x128, .f32⟩ : BufTy).Contents (Elt Ideal)) (h2 : ∀ i, IsReal (x2 i)) (i) : IsReal (val_main_v52 (F := Ideal) x2 i) := by
  unfold val_main_v52 val_main_v51
  exact real_reshape _ _ (real_slice _ _ _ h2) i

/-- The first two products of the features with the weight, added. -/
theorem r_v34 (x0 : (⟨S50000x9, .f32⟩ : BufTy).Contents (Elt Ideal)) (x2 : (⟨S3x9x128, .f32⟩ : BufTy).Contents (Elt Ideal)) (h0 : ∀ i, IsReal (x0 i)) (h2 : ∀ i, IsReal (x2 i)) (i) : IsReal (val_main_v34 (F := Ideal) x0 x2 i) := by
  unfold val_main_v34 val_main_v30 val_main_v33
  exact real_addf _ _ (real_dot _ _ _ _ h0 (r_v29 x2 h2)) (real_dot _ _ _ _ h0 (r_v32 x2 h2)) i

/-- Each edge's message: its normalisation times its source node's features. -/
theorem r_v44 (x0 : (⟨S50000x9, .f32⟩ : BufTy).Contents (Elt Ideal)) (x10 : (⟨S2x800000, .i32⟩ : BufTy).Contents (Elt Ideal)) (h0 : ∀ i, IsReal (x0 i)) (i) : IsReal (val_main_v44 (F := Ideal) x0 x10 i) := by
  unfold val_main_v44 val_main_v43 val_main_v35 val_main_v42
  exact real_mulf _ _ (real_bcast _ _ _ (real_bcast _ _ _ (r_v27 x10))) (real_gather _ _ _ h0) i

/-- The messages summed at their destination nodes. -/
theorem r_v47 (x0 : (⟨S50000x9, .f32⟩ : BufTy).Contents (Elt Ideal)) (x10 : (⟨S2x800000, .i32⟩ : BufTy).Contents (Elt Ideal)) (h0 : ∀ i, IsReal (x0 i)) (i) : IsReal (val_main_v47 (F := Ideal) x0 x10 i) := by
  unfold val_main_v47 val_main_v45
  exact real_scatterAdd _ _ _ _ (real_bcast _ _ _ r_cst_9) (r_v44 x0 x10 h0) i

/-- Twice that sum, minus the features. -/
theorem r_v50 (x0 : (⟨S50000x9, .f32⟩ : BufTy).Contents (Elt Ideal)) (x10 : (⟨S2x800000, .i32⟩ : BufTy).Contents (Elt Ideal)) (h0 : ∀ i, IsReal (x0 i)) (i) : IsReal (val_main_v50 (F := Ideal) x0 x10 i) := by
  unfold val_main_v50 val_main_v49 val_main_v48
  exact real_subf _ _ (real_mulf _ _ (real_bcast _ _ _ r_cst_10) (r_v47 x0 x10 h0)) h0 i

/-- The three products added, plus the bias. -/
theorem r_v57 (x0 : (⟨S50000x9, .f32⟩ : BufTy).Contents (Elt Ideal)) (x2 : (⟨S3x9x128, .f32⟩ : BufTy).Contents (Elt Ideal)) (x4 : (⟨S128, .f32⟩ : BufTy).Contents (Elt Ideal)) (x10 : (⟨S2x800000, .i32⟩ : BufTy).Contents (Elt Ideal)) (h0 : ∀ i, IsReal (x0 i)) (h2 : ∀ i, IsReal (x2 i)) (h4 : ∀ i, IsReal (x4 i)) (i) :
    IsReal (val_main_v57 (F := Ideal) x0 x2 x4 x10 i) := by
  unfold val_main_v57 val_main_v54 val_main_v53 val_main_v56 val_main_v55
  exact real_addf _ _ (real_addf _ _ (r_v34 x0 x2 h0 h2) (real_dot _ _ _ _ (r_v50 x0 x10 h0) (r_v52 x2 h2)))
    (real_bcast _ _ _ (real_bcast _ _ _ h4)) i

/-- The edge weight summed over its first axis. -/
theorem r_v58 (x3 : (⟨S3x4x128, .f32⟩ : BufTy).Contents (Elt Ideal)) (h3 : ∀ i, IsReal (x3 i)) (i) : IsReal (val_main_v58 (F := Ideal) x3 i) := by
  unfold val_main_v58
  exact real_reduceAdd _ _ _ _ h3 r_cst_11 i

/-- The edge transform, summed at the edges' source nodes. -/
theorem r_v62 (x1 : (⟨S800000x4, .f32⟩ : BufTy).Contents (Elt Ideal)) (x3 : (⟨S3x4x128, .f32⟩ : BufTy).Contents (Elt Ideal)) (x10 : (⟨S2x800000, .i32⟩ : BufTy).Contents (Elt Ideal)) (h1 : ∀ i, IsReal (x1 i)) (h3 : ∀ i, IsReal (x3 i)) (i) : IsReal (val_main_v62 (F := Ideal) x1 x3 x10 i) := by
  unfold val_main_v62 val_main_v60 val_main_v59
  exact real_scatterAdd _ _ _ _ (real_bcast _ _ _ r_cst_12) (real_dot _ _ _ _ h1 (r_v58 x3 h3)) i

/-- THE FIRST LAYER'S OUTPUT IS REAL: the maximum with zero of the sum of the two parts. -/
theorem h1R_isReal (x0 : (⟨S50000x9, .f32⟩ : BufTy).Contents (Elt Ideal)) (x1 : (⟨S800000x4, .f32⟩ : BufTy).Contents (Elt Ideal)) (x2 : (⟨S3x9x128, .f32⟩ : BufTy).Contents (Elt Ideal)) (x3 : (⟨S3x4x128, .f32⟩ : BufTy).Contents (Elt Ideal)) (x4 : (⟨S128, .f32⟩ : BufTy).Contents (Elt Ideal)) (x10 : (⟨S2x800000, .i32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) :
    ∀ i, IsReal (val_main_v64 (F := Ideal) x0 x1 x2 x3 x4 x10 i) := by
  intro i
  unfold val_main_v64 val_main_v63 val_main_call1_v0
  exact real_maxf _ _ (real_addf _ _ (r_v57 x0 x2 x4 x10 h0 h2 h4) (r_v62 x1 x3 x10 h1 h3))
    (real_bcast _ _ _ r_call1_cst) i

end Cert.ReferenceIdeal.Real

end
-- ==== Proof.Final.lean ====
/-
  The two idealized programs compute one function. The kernel's result, read off its run as a function of the
  argument arrays, is the tail (mean, linear map, log-softmax) of the pooled sums of the second layer's output; so
  is the reference's. The two first layers agree because the features and the weights are finite (a real
  distributes over a sum of two reals); the first layer's output is then a matrix of reals, so the second layers
  agree for the same reason; the pooled sums agree because a product with a one-hot matrix is a sum over the rows
  with that label; the tails are the same operations.
-/
import proofs.«413272_j14783277433402_2_alg».proof.Proof.KI.HostDefs
import proofs.«413272_j14783277433402_2_alg».proof.Proof.BridgeLayer
import proofs.«413272_j14783277433402_2_alg».proof.Proof.BridgeLayer2
import proofs.«413272_j14783277433402_2_alg».proof.Proof.BridgePool
import proofs.«413272_j14783277433402_2_alg».proof.Proof.RefReal

noncomputable section

namespace Cert.Proof.Bridge

open Idealize.ShloMosaic Cert.KernelIdeal.Hand Cert.ReferenceIdeal.Read

/-- The kernel's composed value is the reference's, when the float arguments the layers multiply are finite. -/
theorem resK_eq (x0 x1 x2 x3 x4 x5 x6 x7 x8 x9 x10 x11)
    (r0 : ∀ i, Spec.IsReal (x0 i)) (r1 : ∀ i, Spec.IsReal (x1 i)) (r2 : ∀ i, Spec.IsReal (x2 i))
    (r3 : ∀ i, Spec.IsReal (x3 i)) (r4 : ∀ i, Spec.IsReal (x4 i)) (r5 : ∀ i, Spec.IsReal (x5 i)) :
    resK x0 x1 x2 x3 x4 x5 x6 x7 x8 x9 x10 x11 = val_main_v118 (F := Ideal) x0 x1 x2 x3 x4 x5 x6 x7 x8 x9 x10 x11 := by
  unfold resK
  rw [h1_eq x0 x1 x2 x3 x4 x10 r0 r2,
    h2_eq x0 x1 x2 x3 x4 x5 x6 x7 x10 (Cert.ReferenceIdeal.Real.h1R_isReal x0 x1 x2 x3 x4 x10 r0 r1 r2 r3 r4) r5,
    pool_eq x0 x1 x2 x3 x4 x5 x6 x7 x10 x11, counts_eq x11]
  exact tail_eq x0 x1 x2 x3 x4 x5 x6 x7 x8 x9 x10 x11

end Cert.Proof.Bridge

end
-- ==== Proof.PreReal.lean ====
/-
  The precondition gives real inputs. The precondition says, array by array, that every entry's absolute value is
  below +∞; the conjunction of the ten "all entries" facts is all ones. An extended real whose absolute value
  max x (-x) is below +∞ is neither infinity, so it is a real number.
-/
import proofs.«413272_j14783277433402_2_alg».proof.Defs
import proofs.«413272_j14783277433402_2_alg».proof.Proof.SpecLaws
import Idealize.ShloMosaic.Lib.ReduceAll
import Idealize.ShloMosaic.Lib.StableHlo.Predicate
import Idealize.ShloMosaic.PureOps.Ideal.Laws

noncomputable section

namespace Cert.Proof.PreReal

open Idealize.ShloMosaic Idealize.ShloMosaic.TcCoe Idealize.SL.Sem

/-- The rank-0 shape has one index. -/
instance : Subsingleton Cert.Pre_finite_inputs.S_.Idx := ⟨fun a b => funext fun d => d.elim0⟩

/-- The word the entries are compared against denotes +∞. -/
theorem top_word : Ideal.ofBits .f32 0x7F800000#32 = ⊤ := by simp [Ideal.ofBits, Ideal.ieee]

/-- An extended real whose absolute value is below +∞ is real: at either infinity the absolute value is +∞. -/
theorem real_of_abs_lt_top (x : EReal)
    (h : Ideal.cmp .olt (max x (-x)) (Ideal.ofBits .f32 0x7F800000#32) = 1#1) : Spec.IsReal x := by
  rw [top_word] at h
  have hlt : max x (-x) < ⊤ := of_decide_eq_true ((StableHlo.Predicate.ofBool_eq_one_iff _).mp h)
  refine Spec.isReal_of_ne ?_ ?_
  · rintro rfl
    rw [max_eq_left (le_top : -(⊤ : EReal) ≤ ⊤)] at hlt
    exact lt_irrefl _ hlt
  · rintro rfl
    rw [EReal.neg_bot, max_eq_right (bot_le : (⊥ : EReal) ≤ ⊤)] at hlt
    exact lt_irrefl _ hlt

/-- One array's "all entries have absolute value below +∞", read at an entry. -/
theorem real_of_all {S : Shape} (hb : Cert.Pre_finite_inputs.S_.BroadcastsInDim S (![] : Fin 0 → Fin S.rank))
    {axes : List (Fin S.rank)} (hr : S.ReducesTo axes Cert.Pre_finite_inputs.S_) (hu : 0 < Cert.Pre_finite_inputs.S_.numel)
    (x : FVec Ideal S .f32)
    (e : Host.reduce IntOp.andi (cmpf (F := Ideal) .olt (Host.absf x) (broadcastInDim S ![] hb (constant Cert.Pre_finite_inputs.S_ .f32 0x7F800000#32)))
        (constantI Cert.Pre_finite_inputs.S_ 1 1#1) hr hu ValueIdx.ix0 = 1#1) :
    ∀ i, Spec.IsReal (x i) := fun i =>
  real_of_abs_lt_top (x i) (Host.reduce_andi_all _ _ hr hu _ e i)

/-- Under the precondition each of the ten float inputs is real, entry by entry, on every device. -/
theorem real_inputs [Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, Spec.IsReal (m ((c.tc : Thread Cert.KernelIdeal.nD Cert.KernelIdeal.τ).loc Cert.KernelIdeal.main_arg0) i))
      ∧ (∀ i, Spec.IsReal (m ((c.tc : Thread Cert.KernelIdeal.nD Cert.KernelIdeal.τ).loc Cert.KernelIdeal.main_arg1) i))
      ∧ (∀ i, Spec.IsReal (m ((c.tc : Thread Cert.KernelIdeal.nD Cert.KernelIdeal.τ).loc Cert.KernelIdeal.main_arg2) i))
      ∧ (∀ i, Spec.IsReal (m ((c.tc : Thread Cert.KernelIdeal.nD Cert.KernelIdeal.τ).loc Cert.KernelIdeal.main_arg3) i))
      ∧ (∀ i, Spec.IsReal (m ((c.tc : Thread Cert.KernelIdeal.nD Cert.KernelIdeal.τ).loc Cert.KernelIdeal.main_arg4) i))
      ∧ (∀ i, Spec.IsReal (m ((c.tc : Thread Cert.KernelIdeal.nD Cert.KernelIdeal.τ).loc Cert.KernelIdeal.main_arg5) i))
      ∧ (∀ i, Spec.IsReal (m ((c.tc : Thread Cert.KernelIdeal.nD Cert.KernelIdeal.τ).loc Cert.KernelIdeal.main_arg6) i))
      ∧ (∀ i, Spec.IsReal (m ((c.tc : Thread Cert.KernelIdeal.nD Cert.KernelIdeal.τ).loc Cert.KernelIdeal.main_arg7) i))
      ∧ (∀ i, Spec.IsReal (m ((c.tc : Thread Cert.KernelIdeal.nD Cert.KernelIdeal.τ).loc Cert.KernelIdeal.main_arg8) i))
      ∧ (∀ i, Spec.IsReal (m ((c.tc : Thread Cert.KernelIdeal.nD Cert.KernelIdeal.τ).loc Cert.KernelIdeal.main_arg9) i)) := by
  have e := congrFun (h c) ValueIdx.ix0
  dsimp only [Cert.Pre_finite_inputs.fn, Cert.Pre_finite_inputs.fn_part1, Cert.Pre_finite_inputs.fn_part2] at e
  obtain ⟨e, e9⟩ := IntOp.andi_eq_one.mp e
  obtain ⟨e, e8⟩ := IntOp.andi_eq_one.mp e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨real_of_all _ _ _ _ e0, real_of_all _ _ _ _ e1, real_of_all _ _ _ _ e2, real_of_all _ _ _ _ e3,
    real_of_all _ _ _ _ e4, real_of_all _ _ _ _ e5, real_of_all _ _ _ _ e6, real_of_all _ _ _ _ e7,
    real_of_all _ _ _ _ e8, real_of_all _ _ _ _ e9⟩

end Cert.Proof.PreReal

end
-- ==== Proof.lean ====
/-
  The certificate's five claims.

  Frames: @main of the kernel (at the word level and idealized) is fourteen items, host stretches and five kernel
  regions; each region's body is run at every grid point against proof data that name what the point leaves in
  every window's buffer (for the pooling kernel also in the scratch block it carries), and the items chain through
  the contents of the buffers between them; no item writes an argument. The reference is host operations only: its
  frame is its run with the result dropped.

  Preserves: the ideal pass rewrote nothing.

  Algebraic: at the ideal instance the kernel's result is, by its run, one function of the argument arrays, and so is
  the reference's; the two functions agree when the float inputs are finite.
-/
import proofs.«413272_j14783277433402_2_alg».proof.Defs
import proofs.«413272_j14783277433402_2_alg».proof.Proof.Gen.Kernel
import proofs.«413272_j14783277433402_2_alg».proof.Proof.Gen.KernelIdeal
import proofs.«413272_j14783277433402_2_alg».proof.Proof.Gen.ReferenceIdeal
import proofs.«413272_j14783277433402_2_alg».proof.Proof.Gen.Pre_finite_inputs
import proofs.«413272_j14783277433402_2_alg».proof.Proof.K.Run
import proofs.«413272_j14783277433402_2_alg».proof.Proof.KI.Run
import proofs.«413272_j14783277433402_2_alg».proof.Proof.KI.Host
import proofs.«413272_j14783277433402_2_alg».proof.Proof.KI.HostVal
import proofs.«413272_j14783277433402_2_alg».proof.Proof.RefSide
import proofs.«413272_j14783277433402_2_alg».proof.Proof.Final
import proofs.«413272_j14783277433402_2_alg».proof.Proof.PreReal
import Idealize.ShloMosaic.Adequacy
import Idealize.ShloMosaic.Init

noncomputable section

namespace Cert.Proof

open Idealize.ShloMosaic Idealize.SL.Sem

namespace Claims

variable [hPre : Cert.Pre_finite_inputs.Facts]

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at one function of the argument arrays: the reference's composed term. -/
theorem algebraic : Cert.algebraic_KernelIdeal_ReferenceIdeal := by
  intro m ρ m' ρ' hpre hagree
  refine ⟨fun c => Cert.ReferenceIdeal.Read.val_main_v118 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Hand.run_all (F := Ideal) m ρ)
    obtain ⟨r0, r1, r2, r3, r4, r5, -, -, -, -⟩ := Cert.Proof.PreReal.real_inputs m hpre c
    refine ⟨((h c _ (Cert.KernelIdeal.Hand.mem_uc Cert.KernelIdeal.main_v110 (by decide))).trans
        (Cert.KernelIdeal.Hand.W14_v110_eq m ρ c)).trans (Cert.Proof.Bridge.resK_eq _ _ _ _ _ _ _ _ _ _ _ _ r0 r1 r2 r3 r4 r5),
      (h c _ (Cert.KernelIdeal.Hand.mem_uc Cert.KernelIdeal.main_arg0 (by decide))).trans (Cert.KernelIdeal.Hand.W14_main_arg0 m ρ c),
      (h c _ (Cert.KernelIdeal.Hand.mem_uc Cert.KernelIdeal.main_arg1 (by decide))).trans (Cert.KernelIdeal.Hand.W14_main_arg1 m ρ c),
      (h c _ (Cert.KernelIdeal.Hand.mem_uc Cert.KernelIdeal.main_arg2 (by decide))).trans (Cert.KernelIdeal.Hand.W14_main_arg2 m ρ c),
      (h c _ (Cert.KernelIdeal.Hand.mem_uc Cert.KernelIdeal.main_arg3 (by decide))).trans (Cert.KernelIdeal.Hand.W14_main_arg3 m ρ c),
      (h c _ (Cert.KernelIdeal.Hand.mem_uc Cert.KernelIdeal.main_arg4 (by decide))).trans (Cert.KernelIdeal.Hand.W14_main_arg4 m ρ c),
      (h c _ (Cert.KernelIdeal.Hand.mem_uc Cert.KernelIdeal.main_arg5 (by decide))).trans (Cert.KernelIdeal.Hand.W14_main_arg5 m ρ c),
      (h c _ (Cert.KernelIdeal.Hand.mem_uc Cert.KernelIdeal.main_arg6 (by decide))).trans (Cert.KernelIdeal.Hand.W14_main_arg6 m ρ c),
      (h c _ (Cert.KernelIdeal.Hand.mem_uc Cert.KernelIdeal.main_arg7 (by decide))).trans (Cert.KernelIdeal.Hand.W14_main_arg7 m ρ c),
      (h c _ (Cert.KernelIdeal.Hand.mem_uc Cert.KernelIdeal.main_arg8 (by decide))).trans (Cert.KernelIdeal.Hand.W14_main_arg8 m ρ c),
      (h c _ (Cert.KernelIdeal.Hand.mem_uc Cert.KernelIdeal.main_arg9 (by decide))).trans (Cert.KernelIdeal.Hand.W14_main_arg9 m ρ c),
      (h c _ (Cert.KernelIdeal.Hand.mem_uc Cert.KernelIdeal.main_arg10 (by decide))).trans (Cert.KernelIdeal.Hand.W14_main_arg10 m ρ c),
      (h c _ (Cert.KernelIdeal.Hand.mem_uc Cert.KernelIdeal.main_arg11 (by decide))).trans (Cert.KernelIdeal.Hand.W14_main_arg11 m ρ c)⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v118_eq]
    obtain ⟨e0, e1, e2, e3, e4, e5, e6, e7, e8, e9, e10, e11⟩ := hagree c
    rw [e0, e1, e2, e3, e4, e5, e6, e7, e8, e9, e10, e11]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
